-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x128 : Shape := ⟨3, ![128, 64, 128]⟩
abbrev S64x64 : Shape := ⟨2, ![64, 64]⟩
abbrev S128x128 : Shape := ⟨2, ![128, 128]⟩
abbrev S128 : Shape := ⟨1, ![128]⟩
abbrev S_ : Shape := ⟨0, ![]⟩

class Facts : Prop where
  bcast_S_S128x64x128 : S_.BroadcastsInDim S128x64x128 (![] : Fin 0 → Fin S128x64x128.rank)
  reducesTo_S128x64x128_S_d0_1_2 : S128x64x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg1 : IVec S64x64 32) (main_v13 : IVec S_ 1) (main_v15 : IVec S64x64 1) (main_c_5 : IVec S_ 32) : IVec S_ 1 :=
  let main_v16 : IVec S64x64 32 := broadcastInDim S64x64 ![] bcast_S_S64x64 main_c_5
  let main_v17 : IVec S64x64 1 := cmpi .eq main_arg1 main_v16
  let main_v18 : IVec S64x64 1 := ori main_v15 main_v17
  let main_c_6 : IVec S_ 1 := constantI S_ 1 1#1
  let main_v19 : IVec S_ 1 := (fun x v => Host.reduce IntOp.andi x v reducesTo_S64x64_S_d0_1 h_S_) main_v18 main_c_6
  let main_v20 : IVec S_ 1 := andi main_v13 main_v19
  main_v20

def fn {F : FTy → Type} [FloatOps F] (main_arg0 : FVec F S128x64x128 .f32) (main_arg1 : IVec S64x64 32) (main_arg2 : FVec F S128x128 .f32) (main_arg3 : FVec F S128 .f32) : IVec S_ 1 :=
  let main_v0 : FVec F S128x64x128 .f32 := Host.absf main_arg0
  let main_cst : FVec F S_ .f32 := constant S_ .f32 0x7F800000#32
  let main_v1 : FVec F S128x64x128 .f32 := broadcastInDim S128x64x128 ![] bcast_S_S128x64x128 main_cst
  let main_v2 : IVec S128x64x128 1 := cmpf .olt main_v0 main_v1
  let main_c : IVec S_ 1 := constantI S_ 1 1#1
  let main_v3 : IVec S_ 1 := (fun x v => Host.reduce IntOp.andi x v reducesTo_S128x64x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S64x64 32 := broadcastInDim S64x64 ![] bcast_S_S64x64 main_c_4
  let main_v15 : IVec S64x64 1 := cmpi .eq main_arg1 main_v14
  let main_c_5 : IVec S_ 32 := constantI S_ 32 1#32
  fn_part1 (F := F) main_arg1 main_v13 main_v15 main_c_5
-- ==== Kernel.lean ====
abbrev S128x64x128 : Shape := ⟨3, ![128, 64, 128]⟩
abbrev S64x64 : Shape := ⟨2, ![64, 64]⟩
abbrev S128x128 : Shape := ⟨2, ![128, 128]⟩
abbrev S128 : Shape := ⟨1, ![128]⟩
abbrev S1x128 : Shape := ⟨2, ![1, 128]⟩
abbrev S64x64x128 : Shape := ⟨3, ![64, 64, 128]⟩
abbrev S64 : Shape := ⟨1, ![64]⟩
abbrev S64x1 : Shape := ⟨2, ![64, 1]⟩
abbrev S1x64 : Shape := ⟨2, ![1, 64]⟩
abbrev S64x128 : Shape := ⟨2, ![64, 128]⟩
abbrev S4096x128 : Shape := ⟨2, ![4096, 128]⟩
abbrev S32x128x128 : Shape := ⟨3, ![32, 128, 128]⟩
abbrev S1x128x128 : Shape := ⟨3, ![1, 128, 128]⟩
abbrev S1x1x128 : Shape := ⟨3, ![1, 1, 128]⟩

abbrev nBuf : Space → Nat
  | .hbm => 6
  | .vmem => 8
  | .smem => 0
  | _ => 0

abbrev bufTy : (tb : Table) → Fin (tcTables nBuf tb) → BufTy
  | .hbm, ⟨0, _⟩ => ⟨S128x64x128, .f32⟩
  | .hbm, ⟨1, _⟩ => ⟨S64x64, .i32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S128x64x128, .f32⟩
  | .local _ .vmem, ⟨0, _⟩ => ⟨S64x64x128, .f32⟩
  | .local _ .vmem, ⟨1, _⟩ => ⟨S64x64x128, .f32⟩
  | .local _ .vmem, ⟨2, _⟩ => ⟨S64x64, .i32⟩
  | .local _ .vmem, ⟨3, _⟩ => ⟨S128x128, .f32⟩
  | .local _ .vmem, ⟨4, _⟩ => ⟨S1x128, .f32⟩
  | .local _ .vmem, ⟨5, _⟩ => ⟨S64x64x128, .f32⟩
  | .local _ .vmem, ⟨6, _⟩ => ⟨S64x64x128, .f32⟩
  | .local _ .vmem, ⟨7, _⟩ => ⟨S128x128, .bf16⟩
  | _, _ => ⟨S128x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S64x64_S64x64_0_0 : ∀ a, (![0, 0] : Fin 2 → Nat) a + S64x64.size a ≤ S64x64.size a
  h_S64x64 : 0 < S64x64.numel
  reduces_S64x64_S64 : S64x64.Reduces [0] S64
  transposes_S64x64_p1_0_S64x64 : S64x64.Transposes [1, 0] S64x64
  iota_S64x64_d0_w32 : S64x64.Iotas .tc 32 [0]
  iota_S64x64_d1_w32 : S64x64.Iotas .tc 32 [1]
  natLt_1_32 : 1 < 32
  shapeCasts_S64_S64x1 : S64.ShapeCasts S64x1
  shapeCasts_S64_S1x64 : S64.ShapeCasts S1x64
  broadcasts_S64x1_S64x64 : S64x1.Broadcasts S64x64
  broadcasts_S1x64_S64x64 : S1x64.Broadcasts S64x64
  bitsLt_bf16_f32 : FTy.bits .bf16 < FTy.bits .f32
  concatenates_S64x64_S64x64_S64x128_d1 : Shape.Concatenates [S64x64, S64x64] S64x128 1
  concatenates_S64x128_S64x128_S128x128_d0 : Shape.Concatenates [S64x128, S64x128] S128x128 0
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S128x128_S128x128_0_0 : (Rect.unit (s := S128x128) ![0, 0] S128x128.size inb_S128x128_S128x128_0_0).PackedRows (EltTy.packing .bf16)
  inb_S64x64x128_S64x64x128_0_0_0 : ∀ a, (![0, 0, 0] : Fin 3 → Nat) a + S64x64x128.size a ≤ S64x64x128.size a
  h_S64x64x128 : 0 < S64x64x128.numel
  shapeCasts_S64x64x128_S4096x128 : S64x64x128.ShapeCasts S4096x128
  shapeCasts_S4096x128_S32x128x128 : S4096x128.ShapeCasts S32x128x128
  shapeCasts_S128x128_S1x128x128 : S128x128.ShapeCasts S1x128x128
  broadcasts_S1x128x128_S32x128x128 : S1x128x128.Broadcasts S32x128x128
  shapeCasts_S32x128x128_S64x64x128 : S32x128x128.ShapeCasts S64x64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S64x64x128 : S1x1x128.Broadcasts S64x64x128
  dot_S4096x128_S128x128_S4096x128_1_0_0_1_n_n_wf : DotDims.WF S4096x128 S128x128 S4096x128 [1] [0] [0] [1] [] []
  dot_S32x128x128_S32x128x128_S32x128x128_2_1_1_2_0_0_wf : DotDims.WF S32x128x128 S32x128x128 S32x128x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S128x64x128.size a
  hwx0_0 : ∀ i : grid0.Coords, EltTy.bits .f32 = 32 ∨ (Rect.block (s := S128x64x128) S64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .i32 = 32 ∨ (Rect.block (s := S64x64) S64x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64x128.size a ≤ S128x64x128.size a
  hwx0_4 : ∀ i : grid0.Coords, EltTy.bits .f32 = 32 ∨ (Rect.block (s := S128x64x128) S64x64x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S32x128x128_S32x128x128_S32x128x128_2_1_1_2_0_0 : DotDims S32x128x128 S32x128x128 S32x128x128 where
  lhsContracting := [2]
  rhsContracting := [1]
  lhsNonContracting := [1]
  rhsNonContracting := [2]
  lhsBatch := [0]
  rhsBatch := [0]
  wf := dot_S32x128x128_S32x128x128_S32x128x128_2_1_1_2_0_0_wf

abbrev win0_0 : Pipeline.Window sig grid0 :=
  Pipeline.Window.ofSpec (Memref.whole main_arg0) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x64x128 : Shape := ⟨3, ![128, 64, 128]⟩
abbrev S64x64 : Shape := ⟨2, ![64, 64]⟩
abbrev S128x128 : Shape := ⟨2, ![128, 128]⟩
abbrev S128 : Shape := ⟨1, ![128]⟩
abbrev S8192x128 : Shape := ⟨2, ![8192, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S128x1 : Shape := ⟨2, ![128, 1]⟩
abbrev S128x4096 : Shape := ⟨2, ![128, 4096]⟩
abbrev S524288 : Shape := ⟨1, ![524288]⟩
abbrev S8192 : Shape := ⟨1, ![8192]⟩
abbrev S532480 : Shape := ⟨1, ![532480]⟩
abbrev S532480x1 : Shape := ⟨2, ![532480, 1]⟩
abbrev S532480x128 : Shape := ⟨2, ![532480, 128]⟩
abbrev S1x128 : Shape := ⟨2, ![1, 128]⟩

abbrev nBuf : Space → Nat
  | .hbm => 234
  | .vmem => 0
  | .smem => 0
  | _ => 0

abbrev hbmTy0_0 (i : Nat) : BufTy := match i % 128 with
  | 0 => ⟨S128x64x128, .f32⟩
  | 1 => ⟨S64x64, .i32⟩
  | 2 => ⟨S128x128, .f32⟩
  | 3 => ⟨S128, .f32⟩
  | 4 => ⟨S8192x128, .f32⟩
  | 5 => ⟨S_, .i32⟩
  | 6 => ⟨S64x64, .i32⟩
  | 7 => ⟨S64x64, .i1⟩
  | 8 => ⟨S4096, .i1⟩
  | 9 => ⟨S4096, .i32⟩
  | 10 => ⟨S_, .i32⟩
  | 11 => ⟨S_, .i32⟩
  | 12 => ⟨S4096, .i32⟩
  | 13 => ⟨S_, .i32⟩
  | 14 => ⟨S4096, .i32⟩
  | 15 => ⟨S_, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S_, .i32⟩
  | 28 => ⟨S4096, .i32⟩
  | 29 => ⟨S4096, .i32⟩
  | 30 => ⟨S_, .i32⟩
  | 31 => ⟨S_, .i32⟩
  | 32 => ⟨S4096, .i32⟩
  | 33 => ⟨S_, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i1⟩
  | 40 => ⟨S4096, .i32⟩
  | 41 => ⟨S4096, .i32⟩
  | 42 => ⟨S_, .i32⟩
  | 43 => ⟨S4096, .i32⟩
  | 44 => ⟨S4096, .i1⟩
  | 45 => ⟨S4096, .i1⟩
  | 46 => ⟨S_, .i32⟩
  | 47 => ⟨S4096, .i32⟩
  | 48 => ⟨S4096, .i32⟩
  | 49 => ⟨S4096, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i1⟩
  | 64 => ⟨S_, .i32⟩
  | 65 => ⟨S_, .i1⟩
  | 66 => ⟨S4096, .i1⟩
  | 67 => ⟨S4096, .i1⟩
  | 68 => ⟨S4096, .i1⟩
  | 69 => ⟨S4096, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096, .i32⟩
  | 76 => ⟨S_, .i32⟩
  | 77 => ⟨S4096, .i32⟩
  | 78 => ⟨S4096, .i1⟩
  | 79 => ⟨S4096, .i32⟩
  | 80 => ⟨S4096, .i32⟩
  | 81 => ⟨S_, .i32⟩
  | 82 => ⟨S4096, .i32⟩
  | 83 => ⟨S4096, .i1⟩
  | 84 => ⟨S4096, .i1⟩
  | 85 => ⟨S_, .i32⟩
  | 86 => ⟨S4096, .i32⟩
  | 87 => ⟨S4096, .i32⟩
  | 88 => ⟨S4096, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S4096, .i32⟩
  | 96 => ⟨S4096, .i32⟩
  | 97 => ⟨S_, .i32⟩
  | 98 => ⟨S4096, .i32⟩
  | 99 => ⟨S4096, .i1⟩
  | 100 => ⟨S_, .i32⟩
  | 101 => ⟨S4096, .i32⟩
  | 102 => ⟨S4096, .i1⟩
  | 103 => ⟨S_, .i32⟩
  | 104 => ⟨S_, .i1⟩
  | 105 => ⟨S4096, .i1⟩
  | 106 => ⟨S4096, .i1⟩
  | 107 => ⟨S4096, .i1⟩
  | 108 => ⟨S4096, .i32⟩
  | 109 => ⟨S4096, .i32⟩
  | 110 => ⟨S4096, .i32⟩
  | 111 => ⟨S4096, .i32⟩
  | 112 => ⟨S64x64, .i32⟩
  | 113 => ⟨S_, .i32⟩
  | 114 => ⟨S_, .i32⟩
  | 115 => ⟨S4096, .i32⟩
  | 116 => ⟨S4096, .i1⟩
  | 117 => ⟨S_, .i32⟩
  | 118 => ⟨S_, .i32⟩
  | 119 => ⟨S4096, .i32⟩
  | 120 => ⟨S4096, .i32⟩
  | 121 => ⟨S_, .i32⟩
  | 122 => ⟨S_, .i32⟩
  | 123 => ⟨S4096, .i32⟩
  | 124 => ⟨S4096, .i32⟩
  | 125 => ⟨S_, .i32⟩
  | 126 => ⟨S64x64, .i32⟩
  | 127 => ⟨S64x64, .i1⟩
  | _ => ⟨S128x64x128, .f32⟩

abbrev hbmTy0_1 (i : Nat) : BufTy := match i % 128 with
  | 0 => ⟨S64x64, .i32⟩
  | 1 => ⟨S_, .i32⟩
  | 2 => ⟨S_, .i32⟩
  | 3 => ⟨S4096, .i32⟩
  | 4 => ⟨S4096, .i32⟩
  | 5 => ⟨S4096, .i1⟩
  | 6 => ⟨S128, .i32⟩
  | 7 => ⟨S_, .i32⟩
  | 8 => ⟨S128, .i32⟩
  | 9 => ⟨S128, .i32⟩
  | 10 => ⟨S1x4096, .i32⟩
  | 11 => ⟨S128x1, .i32⟩
  | 12 => ⟨S128x4096, .i32⟩
  | 13 => ⟨S128x4096, .i32⟩
  | 14 => ⟨S128x4096, .i32⟩
  | 15 => ⟨S524288, .i32⟩
  | 16 => ⟨S1x4096, .i32⟩
  | 17 => ⟨S128x1, .i32⟩
  | 18 => ⟨S128x4096, .i32⟩
  | 19 => ⟨S128x4096, .i32⟩
  | 20 => ⟨S128x4096, .i32⟩
  | 21 => ⟨S524288, .i32⟩
  | 22 => ⟨S1x4096, .i1⟩
  | 23 => ⟨S128x4096, .i1⟩
  | 24 => ⟨S524288, .i1⟩
  | 25 => ⟨S8192, .i32⟩
  | 26 => ⟨S532480, .i32⟩
  | 27 => ⟨S532480, .i32⟩
  | 28 => ⟨S524288, .f32⟩
  | 29 => ⟨S_, .f32⟩
  | 30 => ⟨S8192, .f32⟩
  | 31 => ⟨S532480, .f32⟩
  | 32 => ⟨S_, .f32⟩
  | 33 => ⟨S8192, .f32⟩
  | 34 => ⟨S_, .i32⟩
  | 35 => ⟨S532480, .i32⟩
  | 36 => ⟨S532480, .i1⟩
  | 37 => ⟨S_, .i32⟩
  | 38 => ⟨S532480, .i32⟩
  | 39 => ⟨S532480, .i32⟩
  | 40 => ⟨S532480, .i32⟩
  | 41 => ⟨S532480x1, .i32⟩
  | 42 => ⟨S8192, .f32⟩
  | 43 => ⟨S_, .f32⟩
  | 44 => ⟨S8192, .f32⟩
  | 45 => ⟨S8192, .i1⟩
  | 46 => ⟨S_, .f32⟩
  | 47 => ⟨S8192, .f32⟩
  | 48 => ⟨S8192, .f32⟩
  | 49 => ⟨S8192, .f32⟩
  | 50 => ⟨S_, .f32⟩
  | 51 => ⟨S_, .f32⟩
  | 52 => ⟨S8192, .f32⟩
  | 53 => ⟨S8192, .f32⟩
  | 54 => ⟨S_, .i32⟩
  | 55 => ⟨S532480, .i32⟩
  | 56 => ⟨S532480, .i1⟩
  | 57 => ⟨S_, .i32⟩
  | 58 => ⟨S532480, .i32⟩
  | 59 => ⟨S532480, .i32⟩
  | 60 => ⟨S532480, .i32⟩
  | 61 => ⟨S532480x1, .i32⟩
  | 62 => ⟨S532480, .f32⟩
  | 63 => ⟨S_, .i32⟩
  | 64 => ⟨S532480, .i32⟩
  | 65 => ⟨S532480, .i1⟩
  | 66 => ⟨S_, .i32⟩
  | 67 => ⟨S532480, .i32⟩
  | 68 => ⟨S532480, .i32⟩
  | 69 => ⟨S532480, .i32⟩
  | 70 => ⟨S532480x1, .i32⟩
  | 71 => ⟨S532480, .f32⟩
  | 72 => ⟨S532480, .f32⟩
  | 73 => ⟨S8192x128, .f32⟩
  | 74 => ⟨S_, .i32⟩
  | 75 => ⟨S532480, .i32⟩
  | 76 => ⟨S532480, .i1⟩
  | 77 => ⟨S_, .i32⟩
  | 78 => ⟨S532480, .i32⟩
  | 79 => ⟨S532480, .i32⟩
  | 80 => ⟨S532480, .i32⟩
  | 81 => ⟨S532480x1, .i32⟩
  | 82 => ⟨S532480x128, .f32⟩
  | 83 => ⟨S532480, .f32⟩
  | 84 => ⟨S532480x1, .f32⟩
  | 85 => ⟨S532480x128, .f32⟩
  | 86 => ⟨S532480x128, .f32⟩
  | 87 => ⟨S_, .f32⟩
  | 88 => ⟨S8192x128, .f32⟩
  | 89 => ⟨S_, .i32⟩
  | 90 => ⟨S532480, .i32⟩
  | 91 => ⟨S532480, .i1⟩
  | 92 => ⟨S_, .i32⟩
  | 93 => ⟨S532480, .i32⟩
  | 94 => ⟨S532480, .i32⟩
  | 95 => ⟨S532480, .i32⟩
  | 96 => ⟨S532480x1, .i32⟩
  | 97 => ⟨S8192x128, .f32⟩
  | 98 => ⟨S1x128, .f32⟩
  | 99 => ⟨S8192x128, .f32⟩
  | 100 => ⟨S8192x128, .f32⟩
  | 101 => ⟨S_, .f32⟩
  | 102 => ⟨S8192x128, .f32⟩
  | 103 => ⟨S8192x128, .f32⟩
  | 104 => ⟨S8192x128, .f32⟩
  | 105 => ⟨S128x64x128, .f32⟩
  | _ => ⟨S128x64x128, .f32⟩

abbrev hbmTy (i : Nat) : BufTy := match i / 128 with
  | 0 => hbmTy0_0 i
  | 1 => hbmTy0_1 i
  | _ => ⟨S128x64x128, .f32⟩

abbrev bufTy : (tb : Table) → Fin (tcTables nBuf tb) → BufTy
  | .hbm, ⟨i, _⟩ => hbmTy i
  | _, _ => ⟨S128x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_call0_c : Ref sig .tc := ⟨.hbm, 10, rfl⟩
abbrev main_call0_call0_v0 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_call2_call0_c : Ref sig .tc := ⟨.hbm, 30, rfl⟩
abbrev main_call2_call0_v0 : Ref sig .tc := ⟨.hbm, 31, rfl⟩
abbrev main_v14 : Ref sig .tc := ⟨.hbm, 32, rfl⟩
abbrev main_c_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_c : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_call3_c_0 : Ref sig .tc := ⟨.hbm, 46, rfl⟩
abbrev main_call3_v11 : Ref sig .tc := ⟨.hbm, 47, rfl⟩
abbrev main_call3_v12 : Ref sig .tc := ⟨.hbm, 48, rfl⟩
abbrev main_v15 : Ref sig .tc := ⟨.hbm, 49, rfl⟩
abbrev main_c_6 : Ref sig .tc := ⟨.hbm, 50, rfl⟩
abbrev main_call4_v0 : Ref sig .tc := ⟨.hbm, 51, rfl⟩
abbrev main_call4_c : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_c_1 : Ref sig .tc := ⟨.hbm, 58, rfl⟩
abbrev main_call4_v5 : Ref sig .tc := ⟨.hbm, 59, rfl⟩
abbrev main_call4_v6 : Ref sig .tc := ⟨.hbm, 60, rfl⟩
abbrev main_call4_c_2 : Ref sig .tc := ⟨.hbm, 61, rfl⟩
abbrev main_call4_v7 : Ref sig .tc := ⟨.hbm, 62, rfl⟩
abbrev main_call4_v8 : Ref sig .tc := ⟨.hbm, 63, rfl⟩
abbrev main_call4_c_3 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_v16 : Ref sig .tc := ⟨.hbm, 71, rfl⟩
abbrev main_c_7 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_v6 : Ref sig .tc := ⟨.hbm, 79, rfl⟩
abbrev main_call5_v7 : Ref sig .tc := ⟨.hbm, 80, rfl⟩
abbrev main_call5_c : Ref sig .tc := ⟨.hbm, 81, rfl⟩
abbrev main_call5_v8 : Ref sig .tc := ⟨.hbm, 82, rfl⟩
abbrev main_call5_v9 : Ref sig .tc := ⟨.hbm, 83, rfl⟩
abbrev main_call5_v10 : Ref sig .tc := ⟨.hbm, 84, rfl⟩
abbrev main_call5_c_0 : Ref sig .tc := ⟨.hbm, 85, rfl⟩
abbrev main_call5_v11 : Ref sig .tc := ⟨.hbm, 86, rfl⟩
abbrev main_call5_v12 : Ref sig .tc := ⟨.hbm, 87, rfl⟩
abbrev main_v17 : Ref sig .tc := ⟨.hbm, 88, rfl⟩
abbrev main_c_8 : Ref sig .tc := ⟨.hbm, 89, rfl⟩
abbrev main_call6_v0 : Ref sig .tc := ⟨.hbm, 90, rfl⟩
abbrev main_call6_c : Ref sig .tc := ⟨.hbm, 91, rfl⟩
abbrev main_call6_v1 : Ref sig .tc := ⟨.hbm, 92, rfl⟩
abbrev main_call6_c_0 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_call6_c_1 : Ref sig .tc := ⟨.hbm, 97, rfl⟩
abbrev main_call6_v5 : Ref sig .tc := ⟨.hbm, 98, rfl⟩
abbrev main_call6_v6 : Ref sig .tc := ⟨.hbm, 99, rfl⟩
abbrev main_call6_c_2 : Ref sig .tc := ⟨.hbm, 100, rfl⟩
abbrev main_call6_v7 : Ref sig .tc := ⟨.hbm, 101, rfl⟩
abbrev main_call6_v8 : Ref sig .tc := ⟨.hbm, 102, rfl⟩
abbrev main_call6_c_3 : Ref sig .tc := ⟨.hbm, 103, rfl⟩
abbrev main_call6_v9 : Ref sig .tc := ⟨.hbm, 104, rfl⟩
abbrev main_call6_v10 : Ref sig .tc := ⟨.hbm, 105, rfl⟩
abbrev main_call6_v11 : Ref sig .tc := ⟨.hbm, 106, rfl⟩
abbrev main_call6_v12 : Ref sig .tc := ⟨.hbm, 107, rfl⟩
abbrev main_call6_v13 : Ref sig .tc := ⟨.hbm, 108, rfl⟩
abbrev main_call6_v14 : Ref sig .tc := ⟨.hbm, 109, rfl⟩
abbrev main_v18 : Ref sig .tc := ⟨.hbm, 110, rfl⟩
abbrev main_v19 : Ref sig .tc := ⟨.hbm, 111, rfl⟩
abbrev main_v20 : Ref sig .tc := ⟨.hbm, 112, rfl⟩
abbrev main_c_9 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_c_10 : Ref sig .tc := ⟨.hbm, 117, rfl⟩
abbrev main_call7_v0 : Ref sig .tc := ⟨.hbm, 118, rfl⟩
abbrev main_call7_v1 : Ref sig .tc := ⟨.hbm, 119, rfl⟩
abbrev main_v24 : Ref sig .tc := ⟨.hbm, 120, rfl⟩
abbrev main_c_11 : Ref sig .tc := ⟨.hbm, 121, rfl⟩
abbrev main_call8_v0 : Ref sig .tc := ⟨.hbm, 122, rfl⟩
abbrev main_call8_v1 : Ref sig .tc := ⟨.hbm, 123, rfl⟩
abbrev main_v25 : Ref sig .tc := ⟨.hbm, 124, rfl⟩
abbrev main_call9_c : Ref sig .tc := ⟨.hbm, 125, rfl⟩
abbrev main_call9_v0 : Ref sig .tc := ⟨.hbm, 126, rfl⟩
abbrev main_call9_v1 : Ref sig .tc := ⟨.hbm, 127, rfl⟩
abbrev main_call9_v2 : Ref sig .tc := ⟨.hbm, 128, rfl⟩
abbrev main_call9_c_0 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_c_12 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_cst : Ref sig .tc := ⟨.hbm, 157, rfl⟩
abbrev main_v52 : Ref sig .tc := ⟨.hbm, 158, rfl⟩
abbrev main_v53 : Ref sig .tc := ⟨.hbm, 159, rfl⟩
abbrev main_cst_13 : Ref sig .tc := ⟨.hbm, 160, rfl⟩
abbrev main_v54 : Ref sig .tc := ⟨.hbm, 161, rfl⟩
abbrev main_c_14 : Ref sig .tc := ⟨.hbm, 162, rfl⟩
abbrev main_v55 : Ref sig .tc := ⟨.hbm, 163, rfl⟩
abbrev main_v56 : Ref sig .tc := ⟨.hbm, 164, rfl⟩
abbrev main_c_15 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_cst_16 : Ref sig .tc := ⟨.hbm, 171, rfl⟩
abbrev main_v62 : Ref sig .tc := ⟨.hbm, 172, rfl⟩
abbrev main_v63 : Ref sig .tc := ⟨.hbm, 173, rfl⟩
abbrev main_cst_17 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_cst_18 : Ref sig .tc := ⟨.hbm, 178, rfl⟩
abbrev main_call10_v0 : Ref sig .tc := ⟨.hbm, 179, rfl⟩
abbrev main_call10_v1 : Ref sig .tc := ⟨.hbm, 180, rfl⟩
abbrev main_v67 : Ref sig .tc := ⟨.hbm, 181, rfl⟩
abbrev main_c_19 : Ref sig .tc := ⟨.hbm, 182, rfl⟩
abbrev main_v68 : Ref sig .tc := ⟨.hbm, 183, rfl⟩
abbrev main_v69 : Ref sig .tc := ⟨.hbm, 184, rfl⟩
abbrev main_c_20 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_v73 : Ref sig .tc := ⟨.hbm, 189, rfl⟩
abbrev main_v74 : Ref sig .tc := ⟨.hbm, 190, rfl⟩
abbrev main_c_21 : Ref sig .tc := ⟨.hbm, 191, rfl⟩
abbrev main_v75 : Ref sig .tc := ⟨.hbm, 192, rfl⟩
abbrev main_v76 : Ref sig .tc := ⟨.hbm, 193, rfl⟩
abbrev main_c_22 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_v80 : Ref sig .tc := ⟨.hbm, 198, rfl⟩
abbrev main_v81 : Ref sig .tc := ⟨.hbm, 199, rfl⟩
abbrev main_v82 : Ref sig .tc := ⟨.hbm, 200, rfl⟩
abbrev main_v83 : Ref sig .tc := ⟨.hbm, 201, rfl⟩
abbrev main_c_23 : Ref sig .tc := ⟨.hbm, 202, rfl⟩
abbrev main_v84 : Ref sig .tc := ⟨.hbm, 203, rfl⟩
abbrev main_v85 : Ref sig .tc := ⟨.hbm, 204, rfl⟩
abbrev main_c_24 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_v94 : Ref sig .tc := ⟨.hbm, 214, rfl⟩
abbrev main_cst_25 : Ref sig .tc := ⟨.hbm, 215, rfl⟩
abbrev main_v95 : Ref sig .tc := ⟨.hbm, 216, rfl⟩
abbrev main_c_26 : Ref sig .tc := ⟨.hbm, 217, rfl⟩
abbrev main_v96 : Ref sig .tc := ⟨.hbm, 218, rfl⟩
abbrev main_v97 : Ref sig .tc := ⟨.hbm, 219, rfl⟩
abbrev main_c_27 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_call11_cst : Ref sig .tc := ⟨.hbm, 229, rfl⟩
abbrev main_call11_v0 : Ref sig .tc := ⟨.hbm, 230, rfl⟩
abbrev main_v106 : Ref sig .tc := ⟨.hbm, 231, rfl⟩
abbrev main_v107 : Ref sig .tc := ⟨.hbm, 232, rfl⟩
abbrev main_v108 : Ref sig .tc := ⟨.hbm, 233, rfl⟩

abbrev nD : Nat := 1
abbrev τ : Topo := Topo.v7x

variable {F : FTy → Type} [FloatOps F]

class Facts₀ : Prop where
  shapeCasts_S128x64x128_S8192x128 : S128x64x128.ShapeCasts S8192x128
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  reducesTo_S64x64_S_d0_1 : S64x64.ReducesTo [0, 1] S_
  bcast_S_S128 : S_.BroadcastsInDim S128 (![] : Fin 0 → Fin S128.rank)
  bcast_S4096_S1x4096_1 : S4096.BroadcastsInDim S1x4096 (![1] : Fin 1 → Fin S1x4096.rank)
  bcast_S128_S128x1_0 : S128.BroadcastsInDim S128x1 (![0] : Fin 1 → Fin S128x1.rank)
  bcast_S1x4096_S128x4096_0_1 : S1x4096.BroadcastsInDim S128x4096 (![0, 1] : Fin 2 → Fin S128x4096.rank)
  bcast_S128x1_S128x4096_0_1 : S128x1.BroadcastsInDim S128x4096 (![0, 1] : Fin 2 → Fin S128x4096.rank)
  shapeCasts_S128x4096_S524288 : S128x4096.ShapeCasts S524288
  concatenates_S524288_S8192_S532480_d0 : Shape.Concatenates [S524288, S8192] S532480 0
  bcast_S_S8192 : S_.BroadcastsInDim S8192 (![] : Fin 0 → Fin S8192.rank)
  bcast_S_S532480 : S_.BroadcastsInDim S532480 (![] : Fin 0 → Fin S532480.rank)
  bcast_S532480_S532480x1_0 : S532480.BroadcastsInDim S532480x1 (![0] : Fin 1 → Fin S532480x1.rank)
  bcast_S532480x1_S532480x128_0_1 : S532480x1.BroadcastsInDim S532480x128 (![0, 1] : Fin 2 → Fin S532480x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S8192x128_S128x64x128 : S8192x128.ShapeCasts S128x64x128
  scatter_S4096_S4096x1_S4096_n_0_0_1_wf : ScatterDims.WF S4096 S4096x1 S4096 [] [0] [0] 1
  scatter_S8192_S532480x1_S532480_n_0_0_1_wf : ScatterDims.WF S8192 S532480x1 S532480 [] [0] [0] 1
  gather_S8192_S532480x1_S532480_n_0_n_n_0_1_1_wf : GatherDims.WF S8192 S532480x1 S532480 [] [0] [] [0] [] 1 ![1]
  dot_S8192x128_S128x128_S8192x128_1_0_0_1_n_n_wf : DotDims.WF S8192x128 S128x128 S8192x128 [1] [0] [0] [1] [] []
  gather_S8192x128_S532480x1_S532480x128_1_0_n_n_0_1_1128_wf : GatherDims.WF S8192x128 S532480x1 S532480x128 [1] [0] [] [0] [] 1 ![1, 128]
  scatter_S8192x128_S532480x1_S532480x128_1_0_0_1_wf : ScatterDims.WF S8192x128 S532480x1 S532480x128 [1] [0] [0] 1

variable [Facts₀]

def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf
def scatter_S8192_S532480x1_S532480_n_0_0_1 : ScatterDims S8192 S532480x1 S532480 where
  updateWindowDims := []
  insertedWindowDims := [0]
  scatterDimsToOperandDims := [0]
  indexVectorDim := 1
  wf := scatter_S8192_S532480x1_S532480_n_0_0_1_wf
def gather_S8192_S532480x1_S532480_n_0_n_n_0_1_1 : GatherDims S8192 S532480x1 S532480 where
  offsetDims := []
  collapsedSliceDims := [0]
  operandBatchingDims := []
  startIndicesBatchingDims := []
  startIndexMap := [0]
  indexVectorDim := 1
  sliceSizes := ![1]
  wf := gather_S8192_S532480x1_S532480_n_0_n_n_0_1_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S532480x1_S532480x128_1_0_n_n_0_1_1128 : GatherDims S8192x128 S532480x1 S532480x128 where
  offsetDims := [1]
  collapsedSliceDims := [0]
  operandBatchingDims := []
  startIndicesBatchingDims := []
  startIndexMap := [0]
  indexVectorDim := 1
  sliceSizes := ![1, 128]
  wf := gather_S8192x128_S532480x1_S532480x128_1_0_n_n_0_1_1128_wf
def scatter_S8192x128_S532480x1_S532480x128_1_0_0_1 : ScatterDims S8192x128 S532480x1 S532480x128 where
  updateWindowDims := [1]
  insertedWindowDims := [0]
  scatterDimsToOperandDims := [0]
  indexVectorDim := 1
  wf := scatter_S8192x128_S532480x1_S532480x128_1_0_0_1_wf

class Facts : Prop extends Facts₀ where

variable [Facts]
-- ==== Proof.Spec.lean ====
/-
  The function both programs compute, over the reals.

  A graph convolution on 128 independent copies of one 64-node graph.  Write A[r,c] = 1 when the adjacency
  entry (r, c) is nonzero and 0 otherwise.  Node c has degree deg c = 1 + (the number of r with A[r,c] = 1): its
  in-edges and one self loop.  With dinv c = (deg c)^(-1/2) and xw = x · W (per copy i, node r, feature f), the
  aggregated feature at node c is

      agg i c f = Σ_r (A[r,c] + [r = c]) · (dinv c · dinv r) · xw i r f,

  and the result is  max (agg i c f + b f) 0 + x i c f.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![128, 64, 128]⟩
abbrev SG : Shape := ⟨2, ![64, 64]⟩
abbrev SW : Shape := ⟨2, ![128, 128]⟩
abbrev SB : Shape := ⟨1, ![128]⟩

/-- The adjacency entry (r, c) as a weight: 1 when the word is nonzero, else 0. -/
def adj (g : IVec SG 32) (r c : Fin 64) : ℝ := if g (ix2 r c) = 0#32 then 0 else 1

/-- The degree of node c: one self loop and one for each r with an edge r → c. -/
def deg (g : IVec SG 32) (c : Fin 64) : ℝ := 1 + ∑ r : Fin 64, adj g r c

/-- deg^(-1/2). -/
def dinv (g : IVec SG 32) (c : Fin 64) : ℝ := (Real.sqrt (deg g c))⁻¹

/-- x · W for copy i, node r, feature f. -/
def xw (xr : SX.Idx → ℝ) (Wr : SW.Idx → ℝ) (i : Fin 128) (r : Fin 64) (f : Fin 128) : ℝ :=
  ∑ k : Fin 128, xr (ix3 i r k) * Wr (ix2 k f)

/-- The normalised neighbourhood sum at node c, self loop included. -/
def agg (xr : SX.Idx → ℝ) (g : IVec SG 32) (Wr : SW.Idx → ℝ) (i : Fin 128) (c : Fin 64) (f : Fin 128) : ℝ :=
  ∑ r : Fin 64, (adj g r c + if r = c then 1 else 0) * (dinv g c * dinv g r) * xw xr Wr i r f

/-- The result at copy i, node c, feature f. -/
def out (xr : SX.Idx → ℝ) (g : IVec SG 32) (Wr : SW.Idx → ℝ) (br : SB.Idx → ℝ) (i : Fin 128) (c : Fin 64) (f : Fin 128) : ℝ :=
  max (agg xr g Wr i c f + br (ix1 f)) 0 + xr (ix3 i c f)

/-- The whole result array, as extended reals. -/
def G (xr : SX.Idx → ℝ) (g : IVec SG 32) (Wr : SW.Idx → ℝ) (br : SB.Idx → ℝ) : SX.Idx → EReal :=
  fun idx => ((out xr g Wr br (idx 0) (idx 1) (idx 2) : ℝ) : EReal)

theorem adj_nonneg (g : IVec SG 32) (r c : Fin 64) : 0 ≤ adj g r c := by
  unfold adj; split <;> norm_num

/-- Every degree is at least 1: the self loop. -/
theorem one_le_deg (g : IVec SG 32) (c : Fin 64) : 1 ≤ deg g c := by
  unfold deg
  have : 0 ≤ ∑ r : Fin 64, adj g r c := Finset.sum_nonneg fun r _ => adj_nonneg g r c
  linarith

theorem deg_pos (g : IVec SG 32) (c : Fin 64) : 0 < deg g c := lt_of_lt_of_le one_pos (one_le_deg g c)

/-- On a positive real the extended reals' reciprocal square root is the real one. -/
theorem rsqrt_coe_of_pos {d : ℝ} (hd : 0 < d) : Ideal.rsqrt ((d : ℝ) : EReal) = (((Real.sqrt d)⁻¹ : ℝ) : EReal) := by
  rw [Ideal.rsqrt_coe, if_neg (not_lt.mpr hd.le), if_neg (ne_of_gt hd)]

/-- The reciprocal square root of a degree, read on the extended reals, is dinv. -/
theorem rsqrt_deg (g : IVec SG 32) (c : Fin 64) : Ideal.rsqrt ((deg g c : ℝ) : EReal) = ((dinv g c : ℝ) : EReal) :=
  rsqrt_coe_of_pos (deg_pos g c)

/-- Every entry is a real number. -/
def IsReal {S : Shape} (v : S.Idx → EReal) : Prop := ∀ i, ∃ r : ℝ, v i = (r : EReal)

/-- An array of real entries is the coercion of its real parts. -/
theorem coe_toReal {S : Shape} {v : S.Idx → EReal} (h : IsReal v) : (fun i => (((v i).toReal : ℝ) : EReal)) = v := by
  funext i
  obtain ⟨r, hr⟩ := h i
  rw [hr, EReal.toReal_coe]

/-- The result as a function of the argument arrays as the programs hold them (extended reals): the real
    function of their real parts.  Under finite inputs these are the arrays themselves (`coe_toReal`). -/
def GE (x : SX.Idx → EReal) (g : IVec SG 32) (W : SW.Idx → EReal) (b : SB.Idx → EReal) : SX.Idx → EReal :=
  G (fun i => (x i).toReal) g (fun i => (W i).toReal) (fun i => (b i).toReal)

end Cert.Spec

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.PreDecode.lean ====
/-
  What the precondition says, entry by entry.

  It is the conjunction of four reductions by `and`: for each float argument that |a| compares below +∞ everywhere,
  which on the extended reals says every entry is a real number; and for the adjacency that every word equals 0 or
  equals 1.
-/
import proofs.«175083_g12077448036551_cont_sun_c4_50_15_alg».proof.Pre_finite_inputs
import proofs.«175083_g12077448036551_cont_sun_c4_50_15_alg».proof.Proof.Spec
import proofs.«175083_g12077448036551_cont_sun_c4_50_15_alg».proof.Proof.LibFinite
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

variable [Cert.Pre_finite_inputs.Facts]

/-- The `and` of two arrays of one index, read at that index. -/
private theorem andi_at (c d : IVec S_ 1) (i : S_.Idx) : andi c d i = IntOp.andi (c i) (d i) := rfl

/-- The precondition is the `and` of four reductions; being 1 it makes each of the four equal to 1. -/
private theorem split (x : FVec Ideal S128x64x128 .f32) (g : IVec S64x64 32) (W : FVec Ideal S128x128 .f32) (b : FVec Ideal S128 .f32)
    (h : Cert.Pre_finite_inputs.fn (F := Ideal) x g W b = fun _ => 1#1) :
    ((Host.reduce IntOp.andi
        (cmpf .olt (Host.absf x) (broadcastInDim S128x64x128 ![] Facts.bcast_S_S128x64x128 (constant (F := Ideal) S_ .f32 0x7F800000#32)))
        (constantI S_ 1 1#1) Facts.reducesTo_S128x64x128_S_d0_1_2 Facts.h_S_ ix0 = 1#1
      ∧ Host.reduce IntOp.andi
        (cmpf .olt (Host.absf W) (broadcastInDim S128x128 ![] Facts.bcast_S_S128x128 (constant (F := Ideal) S_ .f32 0x7F800000#32)))
        (constantI S_ 1 1#1) Facts.reducesTo_S128x128_S_d0_1 Facts.h_S_ ix0 = 1#1)
      ∧ Host.reduce IntOp.andi
        (cmpf .olt (Host.absf b) (broadcastInDim S128 ![] Facts.bcast_S_S128 (constant (F := Ideal) S_ .f32 0x7F800000#32)))
        (constantI S_ 1 1#1) Facts.reducesTo_S128_S_d0 Facts.h_S_ ix0 = 1#1)
      ∧ Host.reduce IntOp.andi
        (ori (cmpi .eq g (broadcastInDim S64x64 ![] Facts.bcast_S_S64x64 (constantI S_ 32 0#32)))
          (cmpi .eq g (broadcastInDim S64x64 ![] Facts.bcast_S_S64x64 (constantI S_ 32 1#32))))
        (constantI S_ 1 1#1) Facts.reducesTo_S64x64_S_d0_1 Facts.h_S_ ix0 = 1#1 := by
  have h0 := congrFun h ValueIdx.ix0
  dsimp only [Cert.Pre_finite_inputs.fn, Cert.Pre_finite_inputs.fn_part1] at h0
  simp only [andi_at, IntOp.andi_eq_one] at h0
  exact h0

/-- Under the precondition every entry of x is a real number. -/
theorem real_x (x : FVec Ideal S128x64x128 .f32) (g : IVec S64x64 32) (W : FVec Ideal S128x128 .f32) (b : FVec Ideal S128 .f32)
    (h : Cert.Pre_finite_inputs.fn (F := Ideal) x g W b = fun _ => 1#1) : Cert.Spec.IsReal x := fun i =>
  Cert.LibFinite.real_of_all x Facts.bcast_S_S128x64x128 Facts.reducesTo_S128x64x128_S_d0_1_2 Facts.h_S_ _
    (split x g W b h).1.1.1 i

/-- … every entry of W … -/
theorem real_W (x : FVec Ideal S128x64x128 .f32) (g : IVec S64x64 32) (W : FVec Ideal S128x128 .f32) (b : FVec Ideal S128 .f32)
    (h : Cert.Pre_finite_inputs.fn (F := Ideal) x g W b = fun _ => 1#1) : Cert.Spec.IsReal W := fun i =>
  Cert.LibFinite.real_of_all W Facts.bcast_S_S128x128 Facts.reducesTo_S128x128_S_d0_1 Facts.h_S_ _
    (split x g W b h).1.1.2 i

/-- … every entry of b … -/
theorem real_b (x : FVec Ideal S128x64x128 .f32) (g : IVec S64x64 32) (W : FVec Ideal S128x128 .f32) (b : FVec Ideal S128 .f32)
    (h : Cert.Pre_finite_inputs.fn (F := Ideal) x g W b = fun _ => 1#1) : Cert.Spec.IsReal b := fun i =>
  Cert.LibFinite.real_of_all b Facts.bcast_S_S128 Facts.reducesTo_S128_S_d0 Facts.h_S_ _
    (split x g W b h).1.2 i

/-- … and every adjacency word is 0 or 1. -/
theorem graph01 (x : FVec Ideal S128x64x128 .f32) (g : IVec S64x64 32) (W : FVec Ideal S128x128 .f32) (b : FVec Ideal S128 .f32)
    (h : Cert.Pre_finite_inputs.fn (F := Ideal) x g W b = fun _ => 1#1) : ∀ p : S64x64.Idx, g p = 0#32 ∨ g p = 1#32 := by
  intro p
  -- the reduction by `and` over all entries is 1, so the bit at p is 1
  have hp := Host.reduce_andi_all _ _ Facts.reducesTo_S64x64_S_d0_1 Facts.h_S_ ix0 (split x g W b h).2 p
  -- that bit is the `or` of the two comparisons of g p, with the scalar 0 and with the scalar 1
  have hp' : IntOp.ori
      (IntOp.cmpi .eq (g p) (broadcastInDim S64x64 ![] Facts.bcast_S_S64x64 (constantI S_ 32 0#32) p))
      (IntOp.cmpi .eq (g p) (broadcastInDim S64x64 ![] Facts.bcast_S_S64x64 (constantI S_ 32 1#32) p)) = 1#1 := hp
  rcases IntOp.ori_eq_one.1 hp' with e | e
  · exact Or.inl ((IntOp.cmpi_eq.1 e).trans
      (StableHlo.Predicate.bcast_scalar Facts.bcast_S_S64x64 Facts.h_S_ (constantI S_ 32 0#32) p))
  · exact Or.inr ((IntOp.cmpi_eq.1 e).trans
      (StableHlo.Predicate.bcast_scalar Facts.bcast_S_S64x64 Facts.h_S_ (constantI S_ 32 1#32) p))

end Cert.PreDecode

end
-- ==== Proof.KPay1.lean ====
/-
  The operator the kernel builds at its first grid point, entry by entry.

  From the adjacency block g (read as numbers: under the precondition each word is 0 or 1) it forms the column sums
  plus one, their reciprocal square roots dinv, and s[c, r] = (g[r, c] + [c = r]) · (dinv c · dinv r); the 128 × 128
  operator has s in its two diagonal 64 × 64 blocks and 0 elsewhere, so that one product with two stacked copies'
  features applies s to each copy separately.
-/
import proofs.«175083_g12077448036551_cont_sun_c4_50_15_alg».proof.Proof.Gen.KernelIdeal.Skeleton
import proofs.«175083_g12077448036551_cont_sun_c4_50_15_alg».proof.Proof.Spec
import Idealize.ShloMosaic.Lib.ValueIdx
import Idealize.ShloMosaic.Lib.ValueLayout
import Idealize.ShloMosaic.Lib.IdealHost
import Idealize.ShloMosaic.PureOps.Ideal.Laws
import Idealize.ShloMosaic.Lib.StableHlo.Predicate

noncomputable section

open scoped BigOperators

namespace Cert.KernelIdeal.KPay1

open Idealize.ShloMosaic Idealize.ShloMosaic.ValueIdx Cert.KernelIdeal Cert.KernelIdeal.Gen

/-- The block-diagonal operator over the reals: entry (p, q) is s[p % 64, q % 64] when p and q lie in the same half,
    else 0, where s[c, r] weighs the edge r → c (self loop included) by dinv c · dinv r. -/
def s2r (g : IVec Cert.Spec.SG 32) (p q : Fin 128) : ℝ :=
  if p.val / 64 = q.val / 64 then
    (Cert.Spec.adj g (⟨q.val % 64, by omega⟩ : Fin 64) (⟨p.val % 64, by omega⟩ : Fin 64)
        + if p.val % 64 = q.val % 64 then 1 else 0)
      * (Cert.Spec.dinv g (⟨p.val % 64, by omega⟩ : Fin 64) * Cert.Spec.dinv g (⟨q.val % 64, by omega⟩ : Fin 64))
  else 0

/-! ## Two halves laid side by side, and one above the other -/

/-- Two 64 × 128 halves stacked along the rows: row p reads the upper half when p < 64, else the lower one, at row
    p % 64. -/
theorem cat_rows_apply {α : Type} (X Y : S64x128.Idx → α) (p q : Fin 128) :
    concatenate S128x128 0 [⟨S64x128, X⟩, ⟨S64x128, Y⟩] concatenates_S64x128_S64x128_S128x128_d0 (ix2 p q)
      = if p.val < 64 then X (ix2 (⟨p.val % 64, Nat.mod_lt _ (by decide)⟩ : Fin 64) q)
        else Y (ix2 (⟨p.val % 64, Nat.mod_lt _ (by decide)⟩ : Fin 64) q) := by
  by_cases hp : p.val < 64
  · rw [if_pos hp]
    exact concatenate_pair_apply_left 0 X Y _ (ix2 p q) rfl _ (fun b => match b with
      | ⟨0, _⟩ => by show p.val % 64 = p.val; omega
      | ⟨1, _⟩ => rfl)
  · rw [if_neg hp]
    have hp' := p.isLt
    exact concatenate_pair_apply_right 0 X Y _ (ix2 p q) rfl rfl _ (fun b hb => match b, hb with
      | ⟨0, _⟩, hb => (hb (Fin.ext rfl)).elim
      | ⟨1, _⟩, _ => rfl) (by show p.val % 64 + 64 = p.val; omega)

/-- Two 64 × 64 blocks laid along the columns: column q reads the left block when q < 64, else the right one, at
    column q % 64. -/
theorem cat_cols_apply {α : Type} (X Y : S64x64.Idx → α) (c : Fin 64) (q : Fin 128) :
    concatenate S64x128 1 [⟨S64x64, X⟩, ⟨S64x64, Y⟩] concatenates_S64x64_S64x64_S64x128_d1 (ix2 c q)
      = if q.val < 64 then X (ix2 c (⟨q.val % 64, Nat.mod_lt _ (by decide)⟩ : Fin 64))
        else Y (ix2 c (⟨q.val % 64, Nat.mod_lt _ (by decide)⟩ : Fin 64)) := by
  by_cases hq : q.val < 64
  · rw [if_pos hq]
    exact concatenate_pair_apply_left 1 X Y _ (ix2 c q) rfl _ (fun b => match b with
      | ⟨0, _⟩ => rfl
      | ⟨1, _⟩ => by show q.val % 64 = q.val; omega)
  · rw [if_neg hq]
    have hq' := q.isLt
    exact concatenate_pair_apply_right 1 X Y _ (ix2 c q) rfl rfl _ (fun b hb => match b, hb with
      | ⟨0, _⟩, _ => rfl
      | ⟨1, _⟩, hb => (hb (Fin.ext rfl)).elim) (by show q.val % 64 + 64 = q.val; omega)

/-- The block-diagonal arrangement [[A, Z], [Z, A]]: entry (p, q) is A at (p % 64, q % 64) when p and q lie in the same
    half, and Z there otherwise. -/
theorem block_apply {α : Type} (A Z : S64x64.Idx → α) (p q : Fin 128) :
    concatenate S128x128 0
        [⟨S64x128, concatenate S64x128 1 [⟨S64x64, A⟩, ⟨S64x64, Z⟩] concatenates_S64x64_S64x64_S64x128_d1⟩,
         ⟨S64x128, concatenate S64x128 1 [⟨S64x64, Z⟩, ⟨S64x64, A⟩] concatenates_S64x64_S64x64_S64x128_d1⟩]
        concatenates_S64x128_S64x128_S128x128_d0 (ix2 p q)
      = if p.val / 64 = q.val / 64 then
          A (ix2 (⟨p.val % 64, Nat.mod_lt _ (by decide)⟩ : Fin 64) (⟨q.val % 64, Nat.mod_lt _ (by decide)⟩ : Fin 64))
        else Z (ix2 (⟨p.val % 64, Nat.mod_lt _ (by decide)⟩ : Fin 64) (⟨q.val % 64, Nat.mod_lt _ (by decide)⟩ : Fin 64)) := by
  have hp' := p.isLt
  have hq' := q.isLt
  rw [cat_rows_apply]
  by_cases hp : p.val < 64
  · rw [if_pos hp, cat_cols_apply]
    by_cases hq : q.val < 64
    · rw [if_pos hq, if_pos (by omega)]
    · rw [if_neg hq, if_neg (by omega)]
  · rw [if_neg hp, cat_cols_apply]
    by_cases hq : q.val < 64
    · rw [if_pos hq, if_neg (by omega)]
    · rw [if_neg hq, if_pos (by omega)]

/-! ## A vector spread down the rows, and along the columns -/

/-- A 64-vector made a column and spread over the columns: entry (c, r) is the vector at c. -/
theorem col_apply {α : Type} (v : S64.Idx → α) (c r : Fin 64) :
    broadcastTo S64x64 (shapeCast S64x1 v shapeCasts_S64_S64x1) broadcasts_S64x1_S64x64 (ix2 c r) = v (ix1 c) := by
  refine (broadcastTo_apply _ _ (ix2 c r) (ix2 c (0 : Fin 1)) (fun a => match a with
    | ⟨0, _⟩ => rfl
    | ⟨1, _⟩ => rfl)).trans ?_
  exact shapeCast_apply v _ (ix2 c (0 : Fin 1)) (ix1 c) (by
    rw [Shape.rowMajor_val_one, Shape.rowMajor_val_two]
    show c.val = c.val * 1 + 0
    omega)

/-- A 64-vector made a row and spread over the rows: entry (c, r) is the vector at r. -/
theorem row_apply {α : Type} (v : S64.Idx → α) (c r : Fin 64) :
    broadcastTo S64x64 (shapeCast S1x64 v shapeCasts_S64_S1x64) broadcasts_S1x64_S64x64 (ix2 c r) = v (ix1 r) :=
  (broadcastTo_1b_ab_apply _ _ c r).trans (shapeCast_a_1a_apply v _ 0 r)

/-! ## The pieces of the operator -/

/-- The adjacency words read as numbers. -/
def vA (g : IVec S64x64 32) : FVec Ideal S64x64 .f32 := sitofp .f32 g

/-- The column sums of the adjacency, plus one, to the power -1/2. -/
def vDinv (g : IVec S64x64 32) : FVec Ideal S64 .f32 :=
  rsqrt (addf (multiReduction .add [0] S64 (vA g) 0x00000000#32 reduces_S64x64_S64 (.inl rfl) rfl)
    (broadcast S64 (Scalar.ofBits .f32 0x3F800000#32)))

/-- The 64 × 64 identity, as the comparison of a row number with a column number read as a number. -/
def vEye : FVec Ideal S64x64 .f32 :=
  sitofp .f32 (extui 32 (cmpi .eq (addi (iota .tc S64x64 32 [0] iota_S64x64_d0_w32) (broadcast S64x64 0#32))
    (iota .tc S64x64 32 [1] iota_S64x64_d1_w32)) natLt_1_32)

/-- s[c, r] = (g[r, c] + [c = r]) · (dinv c · dinv r). -/
def vS (g : IVec S64x64 32) : FVec Ideal S64x64 .bf16 :=
  truncf .bf16 (mulf (addf (transpose S64x64 [1, 0] (vA g) transposes_S64x64_p1_0_S64x64) vEye)
    (mulf (broadcastTo S64x64 (shapeCast S64x1 (vDinv g) shapeCasts_S64_S64x1) broadcasts_S64x1_S64x64)
      (broadcastTo S64x64 (shapeCast S1x64 (vDinv g) shapeCasts_S64_S1x64) broadcasts_S1x64_S64x64))) bitsLt_bf16_f32

/-- The stored value is the block-diagonal arrangement of s and zeros. -/
theorem pay1_eq (g : IVec S64x64 32) :
    k0_pay1 (F := Ideal) g = shapeCast S128x128 (concatenate S128x128 0
        [⟨S64x128, concatenate S64x128 1 [⟨S64x64, vS g⟩, ⟨S64x64, broadcast S64x64 (Scalar.ofBits (F := Ideal) .bf16 0x0000#16)⟩]
            concatenates_S64x64_S64x64_S64x128_d1⟩,
         ⟨S64x128, concatenate S64x128 1 [⟨S64x64, broadcast S64x64 (Scalar.ofBits (F := Ideal) .bf16 0x0000#16)⟩, ⟨S64x64, vS g⟩]
            concatenates_S64x64_S64x64_S64x128_d1⟩]
        concatenates_S64x128_S64x128_S128x128_d0) shapeCasts_S128x128_S128x128 := rfl

/-! ## Each piece at an index -/

/-- A real sum read on the extended reals is the sum of the terms read there. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A word that is 0 or 1, read as a number, is the adjacency weight. -/
theorem vA_apply (g : IVec S64x64 32) (hg : ∀ p : S64x64.Idx, g p = 0#32 ∨ g p = 1#32) (r c : Fin 64) :
    vA g (ix2 r c) = ((Cert.Spec.adj g r c : ℝ) : EReal) := by
  show ((((g (ix2 r c)).toInt : ℤ) : ℝ) : EReal) = _
  unfold Cert.Spec.adj
  rcases hg (ix2 r c) with h | h
  · rw [h, if_pos rfl, show (0#32 : BitVec 32).toInt = 0 from by decide]; simp
  · rw [h, if_neg (by decide), show (1#32 : BitVec 32).toInt = 1 from by decide]; simp

/-- The column sum of the adjacency read as numbers is the number of in-edges. -/
theorem vSum_apply (g : IVec S64x64 32) (hg : ∀ p : S64x64.Idx, g p = 0#32 ∨ g p = 1#32) (c : Fin 64) :
    multiReduction (F := Ideal) .add [0] S64 (vA g) 0x00000000#32 reduces_S64x64_S64 (.inl rfl) rfl (ix1 c)
      = ((∑ r : Fin 64, Cert.Spec.adj g r c : ℝ) : EReal) := by
  refine (Ideal.multiReduction_add_single (vA g) 0x00000000#32 reduces_S64x64_S64 (.inl rfl) rfl (ix1 c)).trans ?_
  have hl : ∀ k : Fin 64, reduces_S64x64_S64.lift (ix1 c) k = ix2 k c := fun k =>
    funext fun a => Fin.ext (match a with | ⟨0, _⟩ => rfl | ⟨1, _⟩ => rfl)
  rw [coe_sum]
  exact Finset.sum_congr rfl (fun k _ => (congrArg (vA g) (hl k)).trans (vA_apply g hg k c))

/-- The reciprocal square root of the degree. -/
theorem vDinv_apply (g : IVec S64x64 32) (hg : ∀ p : S64x64.Idx, g p = 0#32 ∨ g p = 1#32) (c : Fin 64) :
    vDinv g (ix1 c) = ((Cert.Spec.dinv g c : ℝ) : EReal) := by
  show Ideal.rsqrt (multiReduction (F := Ideal) .add [0] S64 (vA g) 0x00000000#32 reduces_S64x64_S64 (.inl rfl) rfl (ix1 c)
    + Ideal.ofBits .f32 0x3F800000#32) = _
  rw [vSum_apply g hg c, Ideal.ofBits_one_f32, ← Cert.Spec.rsqrt_deg]
  congr 1
  unfold Cert.Spec.deg
  rw [add_comm, EReal.coe_add, EReal.coe_one]

/-- Two numbers below 2³² are equal as 32-bit words exactly when they are equal. -/
theorem ofNat_inj_small {a b : ℕ} (ha : a < 2 ^ 32) (hb : b < 2 ^ 32) (h : BitVec.ofNat 32 a = BitVec.ofNat 32 b) : a = b := by
  have := congrArg BitVec.toNat h
  simp only [BitVec.toNat_ofNat] at this
  rw [Nat.mod_eq_of_lt ha, Nat.mod_eq_of_lt hb] at this
  exact this

/-- The identity matrix: 1 on the diagonal, 0 off it. -/
theorem vEye_apply (c r : Fin 64) : vEye (ix2 c r) = (((if c.val = r.val then 1 else 0 : ℝ)) : EReal) := by
  show (((((IntOp.cmpi .eq (IntOp.addi (iota .tc S64x64 32 [0] iota_S64x64_d0_w32 (ix2 c r)) 0#32)
    (iota .tc S64x64 32 [1] iota_S64x64_d1_w32 (ix2 c r))).setWidth 32).toInt : ℤ) : ℝ) : EReal) = _
  rw [iota_single_apply, iota_single_apply]
  show (((((IntOp.cmpi .eq (BitVec.ofNat 32 c.val + 0#32) (BitVec.ofNat 32 r.val)).setWidth 32).toInt : ℤ) : ℝ) : EReal) = _
  rw [BitVec.add_zero]
  have hc := c.isLt
  have hr := r.isLt
  by_cases h : c.val = r.val
  · rw [if_pos h, StableHlo.Predicate.cmpi_eq_iff.mpr (by rw [h]),
      show ((1#1 : BitVec 1).setWidth 32).toInt = 1 from by decide]
    simp
  · rw [if_neg h, eq_zero_of_ne_one (fun h1 => h (ofNat_inj_small (by omega) (by omega) (StableHlo.Predicate.cmpi_eq_iff.mp h1))),
      show ((0#1 : BitVec 1).setWidth 32).toInt = 0 from by decide]
    simp

/-- s at (c, r), when every adjacency word is 0 or 1. -/
theorem vS_apply (g : IVec S64x64 32) (hg : ∀ p : S64x64.Idx, g p = 0#32 ∨ g p = 1#32) (c r : Fin 64) :
    vS g (ix2 c r) = (((Cert.Spec.adj g r c + if c.val = r.val then 1 else 0)
      * (Cert.Spec.dinv g c * Cert.Spec.dinv g r) : ℝ) : EReal) := by
  unfold vS
  rw [truncf_apply, mulf_apply, addf_apply, mulf_apply, transpose_ix2_apply, vA_apply g hg, vEye_apply, col_apply, row_apply,
    vDinv_apply g hg, vDinv_apply g hg]
  simp only [EReal.coe_add, EReal.coe_mul]

/-- What the first grid point stores in the scratch, at (p, q), when every adjacency word is 0 or 1. -/
theorem pay1_apply (g : Vec Ideal S64x64 .i32) (hg : ∀ p : S64x64.Idx, g p = 0#32 ∨ g p = 1#32) (p q : Fin 128) :
    k0_pay1 (F := Ideal) g (ix2 p q) = ((s2r g p q : ℝ) : EReal) := by
  rw [pay1_eq, shapeCast_self, block_apply]
  unfold s2r
  by_cases h : p.val / 64 = q.val / 64
  · rw [if_pos h, if_pos h, vS_apply g hg]
  · rw [if_neg h, if_neg h]
    show Ideal.ofBits .bf16 0x0000#16 = _
    rw [Ideal.ofBits_zero_bf16]
    rfl

end Cert.KernelIdeal.KPay1

end
-- ==== Proof.KBlock.lean ====
/-
  One grid point's output block is the specification on its 64 copies.

  Point t holds copies 64 · t … 64 · t + 63.  The body multiplies the 4096 × 128 matrix of their features by W, views
  the product as 32 pairs of copies stacked 128 high, applies the block-diagonal operator to each pair — row
  (il % 2) · 64 + c of pair il / 2 sums s[c, r] · xw over the 64 nodes r of copy il alone, the other half's entries
  being 0 —, adds the bias, takes the maximum with 0 and adds the block.
-/
import proofs.«175083_g12077448036551_cont_sun_c4_50_15_alg».proof.Proof.KPay1
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KBlock

open Idealize.ShloMosaic Idealize.ShloMosaic.ValueIdx Cert.KernelIdeal Cert.KernelIdeal.Gen

/-! ## The layout operations at coordinates -/

section Layout
variable {α : Type}

/-- The block viewed as 4096 rows of features: row n is node n % 64 of local copy n / 64. -/
theorem rows_apply (x : S64x64x128.Idx → α) (h : S64x64x128.ShapeCasts S4096x128) (n : Fin 4096) (k : Fin 128) :
    shapeCast S4096x128 x h (ix2 n k)
      = x (ix3 (⟨n.val / 64, by omega⟩ : Fin 64) (⟨n.val % 64, by omega⟩ : Fin 64) k) :=
  shapeCast_apply x h _ _ (by
    rw [Shape.rowMajor_val_three, Shape.rowMajor_val_two]
    show (n.val / 64 * 64 + n.val % 64) * 128 + k.val = n.val * 128 + k.val
    omega)

/-- The 4096 rows viewed as 32 stacks of 128 rows: row j of stack bt is row 128 · bt + j. -/
theorem stacks_apply (y : S4096x128.Idx → α) (h : S4096x128.ShapeCasts S32x128x128) (bt : Fin 32) (j f : Fin 128) :
    shapeCast S32x128x128 y h (ix3 bt j f) = y (ix2 (⟨128 * bt.val + j.val, by omega⟩ : Fin 4096) f) :=
  shapeCast_apply y h _ _ (by
    rw [Shape.rowMajor_val_two, Shape.rowMajor_val_three]
    show (128 * bt.val + j.val) * 128 + f.val = (bt.val * 128 + j.val) * 128 + f.val
    omega)

/-- The 32 stacks viewed as 64 copies of 64 rows: copy il is the half il % 2 of stack il / 2. -/
theorem copies_apply (z : S32x128x128.Idx → α) (h : S32x128x128.ShapeCasts S64x64x128) (il c : Fin 64) (f : Fin 128) :
    shapeCast S64x64x128 z h (ix3 il c f)
      = z (ix3 (⟨il.val / 2, by omega⟩ : Fin 32) (⟨il.val % 2 * 64 + c.val, by omega⟩ : Fin 128) f) :=
  shapeCast_apply z h _ _ (by
    rw [Shape.rowMajor_val_three, Shape.rowMajor_val_three]
    show (il.val / 2 * 128 + (il.val % 2 * 64 + c.val)) * 128 + f.val = (il.val * 64 + c.val) * 128 + f.val
    omega)

/-- The operator, given a leading unit axis and repeated over the 32 stacks, is itself in every stack. -/
theorem op_apply (S : S128x128.Idx → α) (h : S128x128.ShapeCasts S1x128x128) (h' : S1x128x128.Broadcasts S32x128x128)
    (bt : Fin 32) (p j : Fin 128) :
    broadcastTo S32x128x128 (shapeCast S1x128x128 S h) h' (ix3 bt p j) = S (ix2 p j) := by
  refine (broadcastTo_apply _ h' (ix3 bt p j) (ix3 (0 : Fin 1) p j) fun a => ?_).trans
    (shapeCast_ab_1ab_apply S h 0 p j)
  match a with
  | ⟨0, _⟩ => rfl
  | ⟨1, _⟩ => exact (if_neg (by decide : ¬(128 : ℕ) = 1)).symm
  | ⟨2, _⟩ => exact (if_neg (by decide : ¬(128 : ℕ) = 1)).symm

/-- The bias row, given two leading unit axes and repeated over copies and nodes, is itself at every copy and node. -/
theorem bias_apply (b : S1x128.Idx → α) (h0 : S1x128.ShapeCasts S1x128) (h1 : S1x128.ShapeCasts S1x1x128)
    (h2 : S1x1x128.Broadcasts S64x64x128) (il c : Fin 64) (f : Fin 128) :
    broadcastTo S64x64x128 (shapeCast S1x1x128 (shapeCast S1x128 b h0) h1) h2 (ix3 il c f) = b (ix2 (0 : Fin 1) f) := by
  rw [shapeCast_self]
  refine (broadcastTo_apply _ h2 (ix3 il c f) (ix3 (0 : Fin 1) (0 : Fin 1) f) fun a => ?_).trans
    (shapeCast_ab_1ab_apply b h1 0 0 f)
  match a with
  | ⟨0, _⟩ => rfl
  | ⟨1, _⟩ => rfl
  | ⟨2, _⟩ => exact (if_neg (by decide : ¬(128 : ℕ) = 1)).symm

end Layout

/-! ## The two products at coordinates -/

theorem lhs1_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs1_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs1_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs1_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The features times the weights into a zero accumulator: entry (n, f) sums row n against column f. -/
theorem prod1_apply (A : FVec Ideal S4096x128 .bf16) (B : FVec Ideal S128x128 .bf16) (n : Fin 4096) (f : Fin 128) :
    matmul dot_S4096x128_S128x128_S4096x128_1_0_0_1_n_n none A B (constant (F := Ideal) S4096x128 .f32 0x00000000#32) (ix2 n f)
      = ∑ k : Fin 128, A (ix2 n k) * B (ix2 k f) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 n f) ((contrEquiv1 dot_S4096x128_S128x128_S4096x128_1_0_0_1_n_n 128 rfl rfl).symm k) = ix2 n k := funext fun a => Fin.ext (by
    match a with
    | ⟨0, _⟩ => exact lhs1_0 _ _
    | ⟨1, _⟩ => exact (lhs1_1 _ _).trans hk)
  have er : dot_S4096x128_S128x128_S4096x128_1_0_0_1_n_n.rhsIdx (ix2 n f) ((contrEquiv1 dot_S4096x128_S128x128_S4096x128_1_0_0_1_n_n 128 rfl rfl).symm k) = ix2 k f := funext fun a => Fin.ext (by
    match a with
    | ⟨0, _⟩ => exact (rhs1_0 _ _).trans hk
    | ⟨1, _⟩ => exact rhs1_1 _ _)
  rw [el, er]

theorem lhs2_0 (i : S32x128x128.Idx) (q : dot_S32x128x128_S32x128x128_S32x128x128_2_1_1_2_0_0.contr.Idx) :
    (dot_S32x128x128_S32x128x128_S32x128x128_2_1_1_2_0_0.lhsIdx i q 0).val = (i 0).val := by
  unfold DotDims.lhsIdx
  rw [dif_pos (show (0 : Fin S32x128x128.rank) ∈ dot_S32x128x128_S32x128x128_S32x128x128_2_1_1_2_0_0.lhsBatch by decide)]
  rfl
theorem lhs2_1 (i : S32x128x128.Idx) (q : dot_S32x128x128_S32x128x128_S32x128x128_2_1_1_2_0_0.contr.Idx) :
    (dot_S32x128x128_S32x128x128_S32x128x128_2_1_1_2_0_0.lhsIdx i q 1).val = (i 1).val := by
  unfold DotDims.lhsIdx
  rw [dif_neg (show ¬(1 : Fin S32x128x128.rank) ∈ dot_S32x128x128_S32x128x128_S32x128x128_2_1_1_2_0_0.lhsBatch by decide), dif_pos (show (1 : Fin S32x128x128.rank) ∈ dot_S32x128x128_S32x128x128_S32x128x128_2_1_1_2_0_0.lhsNonContracting by decide)]
  rfl
theorem lhs2_2 (i : S32x128x128.Idx) (q : dot_S32x128x128_S32x128x128_S32x128x128_2_1_1_2_0_0.contr.Idx) :
    (dot_S32x128x128_S32x128x128_S32x128x128_2_1_1_2_0_0.lhsIdx i q 2).val = (q ⟨0, by decide⟩).val :=
  dot_S32x128x128_S32x128x128_S32x128x128_2_1_1_2_0_0.lhsIdx_val_of_single rfl i q
theorem rhs2_0 (i : S32x128x128.Idx) (q : dot_S32x128x128_S32x128x128_S32x128x128_2_1_1_2_0_0.contr.Idx) :
    (dot_S32x128x128_S32x128x128_S32x128x128_2_1_1_2_0_0.rhsIdx i q 0).val = (i 0).val := by
  unfold DotDims.rhsIdx
  rw [dif_pos (show (0 : Fin S32x128x128.rank) ∈ dot_S32x128x128_S32x128x128_S32x128x128_2_1_1_2_0_0.rhsBatch by decide)]
  rfl
theorem rhs2_1 (i : S32x128x128.Idx) (q : dot_S32x128x128_S32x128x128_S32x128x128_2_1_1_2_0_0.contr.Idx) :
    (dot_S32x128x128_S32x128x128_S32x128x128_2_1_1_2_0_0.rhsIdx i q 1).val = (q ⟨0, by decide⟩).val :=
  dot_S32x128x128_S32x128x128_S32x128x128_2_1_1_2_0_0.rhsIdx_val_of_single rfl i q
theorem rhs2_2 (i : S32x128x128.Idx) (q : dot_S32x128x128_S32x128x128_S32x128x128_2_1_1_2_0_0.contr.Idx) :
    (dot_S32x128x128_S32x128x128_S32x128x128_2_1_1_2_0_0.rhsIdx i q 2).val = (i 2).val := by
  unfold DotDims.rhsIdx
  rw [dif_neg (show ¬(2 : Fin S32x128x128.rank) ∈ dot_S32x128x128_S32x128x128_S32x128x128_2_1_1_2_0_0.rhsBatch by decide), dif_pos (show (2 : Fin S32x128x128.rank) ∈ dot_S32x128x128_S32x128x128_S32x128x128_2_1_1_2_0_0.rhsNonContracting by decide)]
  rfl

/-- The stack-by-stack product into a zero accumulator: entry (bt, p, f) sums row p of the left stack bt against
    column f of the right stack bt. -/
theorem prod2_apply (A B : FVec Ideal S32x128x128 .bf16) (bt : Fin 32) (p f : Fin 128) :
    matmul dot_S32x128x128_S32x128x128_S32x128x128_2_1_1_2_0_0 none A B (constant (F := Ideal) S32x128x128 .f32 0x00000000#32) (ix3 bt p f)
      = ∑ j : Fin 128, A (ix3 bt p j) * B (ix3 bt j f) := by
  simp only [matmul]
  rw [Ideal.matmul_constant_zero_apply, ← Equiv.sum_comp (contrEquiv1 dot_S32x128x128_S32x128x128_S32x128x128_2_1_1_2_0_0 128 rfl rfl).symm]
  refine Finset.sum_congr rfl fun k _ => ?_
  have hk := contrEquiv1_symm_val dot_S32x128x128_S32x128x128_S32x128x128_2_1_1_2_0_0 128 rfl rfl k
  have el : dot_S32x128x128_S32x128x128_S32x128x128_2_1_1_2_0_0.lhsIdx (ix3 bt p f) ((contrEquiv1 dot_S32x128x128_S32x128x128_S32x128x128_2_1_1_2_0_0 128 rfl rfl).symm k) = ix3 bt p k := funext fun a => Fin.ext (by
    match a with
    | ⟨0, _⟩ => exact lhs2_0 _ _
    | ⟨1, _⟩ => exact lhs2_1 _ _
    | ⟨2, _⟩ => exact (lhs2_2 _ _).trans hk)
  have er : dot_S32x128x128_S32x128x128_S32x128x128_2_1_1_2_0_0.rhsIdx (ix3 bt p f) ((contrEquiv1 dot_S32x128x128_S32x128x128_S32x128x128_2_1_1_2_0_0 128 rfl rfl).symm k) = ix3 bt k f := funext fun a => Fin.ext (by
    match a with
    | ⟨0, _⟩ => exact rhs2_0 _ _
    | ⟨1, _⟩ => exact (rhs2_1 _ _).trans hk
    | ⟨2, _⟩ => exact rhs2_2 _ _)
  rw [el, er]

/-! ## The stored block at coordinates -/

/-- Entry (il, c, f) of what the body stores, over any operator S held in the scratch: row (il % 2) · 64 + c of S
    against the product's 128 rows of stack il / 2, plus the bias, cut at 0 from below, plus the block's own entry. -/
theorem pay2_apply (x : FVec Ideal S64x64x128 .f32) (W : FVec Ideal S128x128 .f32) (S : FVec Ideal S128x128 .bf16)
    (b : FVec Ideal S1x128 .f32) (il c : Fin 64) (f : Fin 128) :
    k0_pay2 (F := Ideal) x W S b (ix3 il c f)
      = max ((∑ j : Fin 128, S (ix2 (⟨il.val % 2 * 64 + c.val, by omega⟩ : Fin 128) j)
              * ∑ k : Fin 128, x (ix3 (⟨(128 * (il.val / 2) + j.val) / 64, by omega⟩ : Fin 64)
                  (⟨(128 * (il.val / 2) + j.val) % 64, by omega⟩ : Fin 64) k) * W (ix2 k f))
            + b (ix2 (0 : Fin 1) f)) 0
          + x (ix3 il c f) := by
  unfold k0_pay2
  rw [addf_apply, maximumf_apply, addf_apply, broadcast_apply, copies_apply, bias_apply, prod2_apply,
    show (Scalar.ofBits .f32 0x00000000#32 : Ideal .f32) = 0 from Ideal.ofBits_zero_f32]
  simp only [op_apply, truncf_apply, stacks_apply, prod1_apply, rows_apply]
  try rfl

/-! ## The algebra over the reals -/

/-- A finite sum of reals, read on the extended reals, is the sum of the readings. -/
theorem coe_sum {ι : Type} (s : Finset ι) (u : ι → ℝ) :
    ((∑ i ∈ s, u i : ℝ) : EReal) = ∑ i ∈ s, ((u i : ℝ) : EReal) := by
  classical
  refine Finset.induction_on s ?_ ?_
  · rw [Finset.sum_empty, Finset.sum_empty, EReal.coe_zero]
  · intro a s ha ih
    rw [Finset.sum_insert ha, Finset.sum_insert ha, EReal.coe_add, ih]

/-- The maximum of two reals, read on the extended reals, is the maximum of the readings. -/
theorem coe_max (a b : ℝ) : ((max a b : ℝ) : EReal) = max (a : EReal) (b : EReal) :=
  EReal.coe_strictMono.monotone.map_max

/-- The operator between row c of half h and column r of half h': the weight of the edge r → c (self loop
    included) when the halves are the same, 0 otherwise. -/
theorem s2r_block (g : IVec Cert.Spec.SG 32) (h h' : ℕ) (hh : h < 2) (hh' : h' < 2) (c r : Fin 64) :
    KPay1.s2r g (⟨h * 64 + c.val, by omega⟩ : Fin 128) (⟨h' * 64 + r.val, by omega⟩ : Fin 128)
      = if h = h' then
          (Cert.Spec.adj g r c + if r = c then 1 else 0) * (Cert.Spec.dinv g c * Cert.Spec.dinv g r)
        else 0 := by
  have e1 : (h * 64 + c.val) / 64 = h := by omega
  have e2 : (h' * 64 + r.val) / 64 = h' := by omega
  have m1 : (h * 64 + c.val) % 64 = c.val := by omega
  have m2 : (h' * 64 + r.val) % 64 = r.val := by omega
  unfold KPay1.s2r
  simp only [Fin.val_mk, e1, e2, m1, m2, Fin.eta, Fin.val_inj, eq_comm (a := c) (b := r)]

/-- A sum over the 128 columns is the sum over the first half plus the sum over the second. -/
theorem sum_halves (u : Fin 128 → ℝ) :
    ∑ j : Fin 128, u j
      = ∑ r : Fin 64, u (⟨0 * 64 + r.val, by omega⟩ : Fin 128) + ∑ r : Fin 64, u (⟨1 * 64 + r.val, by omega⟩ : Fin 128) := by
  refine (Fin.sum_univ_add (a := 64) (b := 64) u).trans ?_
  refine congrArg₂ (· + ·) (Finset.sum_congr rfl fun r _ => congrArg u (Fin.ext ?_))
    (Finset.sum_congr rfl fun r _ => congrArg u (Fin.ext ?_))
  · show r.val = 0 * 64 + r.val
    omega
  · show 64 + r.val = 1 * 64 + r.val
    omega

/-- Row c of half h of the operator against any column of 128 reals: only the 64 entries of half h count, each
    weighed by its edge into c. -/
theorem sum_half (g : IVec Cert.Spec.SG 32) (h : ℕ) (hh : h < 2) (c : Fin 64) (φ : Fin 128 → ℝ) :
    ∑ j : Fin 128, KPay1.s2r g (⟨h * 64 + c.val, by omega⟩ : Fin 128) j * φ j
      = ∑ r : Fin 64, (Cert.Spec.adj g r c + if r = c then 1 else 0) * (Cert.Spec.dinv g c * Cert.Spec.dinv g r)
          * φ (⟨h * 64 + r.val, by omega⟩ : Fin 128) := by
  rw [sum_halves]
  have b0 := fun r : Fin 64 => s2r_block g h 0 hh (by omega) c r
  have b1 := fun r : Fin 64 => s2r_block g h 1 hh (by omega) c r
  simp only [b0, b1]
  obtain rfl | rfl : h = 0 ∨ h = 1 := by omega
  · simp
  · simp

/-- The product of one node's features with the weights depends on copy and node through their values alone. -/
theorem xw_congr (xr : Cert.Spec.SX.Idx → ℝ) (Wr : Cert.Spec.SW.Idx → ℝ) {i i' : Fin 128} {r r' : Fin 64} (f : Fin 128)
    (hi : i.val = i'.val) (hr : r.val = r'.val) : Cert.Spec.xw xr Wr i r f = Cert.Spec.xw xr Wr i' r' f := by
  rw [Fin.ext hi, Fin.ext hr]

/-! ## The block over real arrays, and the statement -/

/-- The stored block when the arrays are readings of real arrays: the specification's result at copy 64 · t + il. -/
theorem block_value_real (x : Vec Ideal S64x64x128 .f32) (g : Vec Ideal S64x64 .i32) (W : Vec Ideal S128x128 .f32)
    (b : Vec Ideal S1x128 .f32) (xr : Cert.Spec.SX.Idx → ℝ) (Wr : Cert.Spec.SW.Idx → ℝ) (br : Cert.Spec.SB.Idx → ℝ)
    (t : Fin 2)
    (hx : ∀ (il : Fin 64) (c : Fin 64) (f : Fin 128),
      x (ix3 il c f) = ((xr (ix3 (⟨64 * t.val + il.val, by omega⟩ : Fin 128) c f) : ℝ) : EReal))
    (hW : ∀ k f : Fin 128, W (ix2 k f) = ((Wr (ix2 k f) : ℝ) : EReal))
    (hb : ∀ f : Fin 128, b (ix2 (0 : Fin 1) f) = ((br (ix1 f) : ℝ) : EReal))
    (hg : ∀ p : S64x64.Idx, g p = 0#32 ∨ g p = 1#32) (il : Fin 64) (c : Fin 64) (f : Fin 128) :
    k0_pay2 (F := Ideal) x W (k0_pay1 (F := Ideal) g) b (ix3 il c f)
      = ((Cert.Spec.out xr g Wr br (⟨64 * t.val + il.val, by omega⟩ : Fin 128) c f : ℝ) : EReal) := by
  -- one node's features against the weights, read on the reals
  have inner : ∀ (a r : ℕ) (ha : a < 64) (hr : r < 64),
      (∑ k : Fin 128, x (ix3 (⟨a, ha⟩ : Fin 64) (⟨r, hr⟩ : Fin 64) k) * W (ix2 k f))
        = ((Cert.Spec.xw xr Wr (⟨64 * t.val + a, by omega⟩ : Fin 128) (⟨r, hr⟩ : Fin 64) f : ℝ) : EReal) := by
    intro a r ha hr
    unfold Cert.Spec.xw
    rw [coe_sum]
    exact Finset.sum_congr rfl fun k _ => by rw [hx, hW, EReal.coe_mul]
  -- the operator's row against the stack: the neighbourhood sum of copy 64 · t + il
  have hsum : (∑ j : Fin 128, k0_pay1 (F := Ideal) g (ix2 (⟨il.val % 2 * 64 + c.val, by omega⟩ : Fin 128) j)
        * ∑ k : Fin 128, x (ix3 (⟨(128 * (il.val / 2) + j.val) / 64, by omega⟩ : Fin 64)
            (⟨(128 * (il.val / 2) + j.val) % 64, by omega⟩ : Fin 64) k) * W (ix2 k f))
      = ((Cert.Spec.agg xr g Wr (⟨64 * t.val + il.val, by omega⟩ : Fin 128) c f : ℝ) : EReal) := by
    have step : ∀ j : Fin 128,
        k0_pay1 (F := Ideal) g (ix2 (⟨il.val % 2 * 64 + c.val, by omega⟩ : Fin 128) j)
          * (∑ k : Fin 128, x (ix3 (⟨(128 * (il.val / 2) + j.val) / 64, by omega⟩ : Fin 64)
              (⟨(128 * (il.val / 2) + j.val) % 64, by omega⟩ : Fin 64) k) * W (ix2 k f))
        = ((KPay1.s2r g (⟨il.val % 2 * 64 + c.val, by omega⟩ : Fin 128) j
            * Cert.Spec.xw xr Wr (⟨64 * t.val + (128 * (il.val / 2) + j.val) / 64, by omega⟩ : Fin 128)
                (⟨(128 * (il.val / 2) + j.val) % 64, by omega⟩ : Fin 64) f : ℝ) : EReal) := by
      intro j
      rw [KPay1.pay1_apply g hg, inner, EReal.coe_mul]
    rw [Finset.sum_congr rfl fun j _ => step j, ← coe_sum,
      sum_half g (il.val % 2) (by omega) c fun j : Fin 128 =>
        Cert.Spec.xw xr Wr (⟨64 * t.val + (128 * (il.val / 2) + j.val) / 64, by omega⟩ : Fin 128)
          (⟨(128 * (il.val / 2) + j.val) % 64, by omega⟩ : Fin 64) f]
    unfold Cert.Spec.agg
    refine congrArg _ (Finset.sum_congr rfl fun r _ => congrArg _ (xw_congr xr Wr f ?_ ?_))
    · show 64 * t.val + (128 * (il.val / 2) + (il.val % 2 * 64 + r.val)) / 64 = 64 * t.val + il.val
      omega
    · show (128 * (il.val / 2) + (il.val % 2 * 64 + r.val)) % 64 = r.val
      omega
  rw [pay2_apply, hsum, hb, hx]
  simp only [Cert.Spec.out, EReal.coe_add, coe_max, EReal.coe_zero]

/-- The stored block at local copy il, node c, feature f, when the scratch holds the operator built from g. -/
theorem block_value (x : Vec Ideal S64x64x128 .f32) (g : Vec Ideal S64x64 .i32) (W : Vec Ideal S128x128 .f32)
    (b : Vec Ideal S1x128 .f32) (X : Cert.Spec.SX.Idx → EReal) (B : Cert.Spec.SB.Idx → EReal) (t : Fin 2)
    (hxblk : ∀ (il : Fin 64) (c : Fin 64) (f : Fin 128),
      x (ix3 il c f) = X (ix3 (⟨64 * t.val + il.val, by omega⟩ : Fin 128) c f))
    (hbrow : ∀ f : Fin 128, b (ix2 (0 : Fin 1) f) = B (ix1 f))
    (hX : Cert.Spec.IsReal X) (hW : Cert.Spec.IsReal W) (hB : Cert.Spec.IsReal B)
    (hg : ∀ p : S64x64.Idx, g p = 0#32 ∨ g p = 1#32) (il : Fin 64) (c : Fin 64) (f : Fin 128) :
    k0_pay2 (F := Ideal) x W (k0_pay1 (F := Ideal) g) b (ix3 il c f)
      = Cert.Spec.GE X g W B (ix3 (⟨64 * t.val + il.val, by omega⟩ : Fin 128) c f) :=
  block_value_real x g W b (fun i => EReal.toReal (X i)) (fun i => EReal.toReal (W i)) (fun i => EReal.toReal (B i)) t
    (fun il c f => (hxblk il c f).trans (congrFun (Cert.Spec.coe_toReal hX) _).symm)
    (fun k f => (congrFun (Cert.Spec.coe_toReal hW) _).symm)
    (fun f => (hbrow f).trans (congrFun (Cert.Spec.coe_toReal hB) _).symm) hg il c f

end Cert.KernelIdeal.KBlock

end
-- ==== Proof.KRun.lean ====
/-
  The idealized kernel's run: its result array is the specification.

  The grid has two points.  The first builds the operator from the adjacency block, stores it in the scratch and uses
  it; the second finds it in the scratch as the first left it.  Each point's output block is therefore the
  specification on its 64 copies, the two blocks tile the result array, and the arguments are left as they were.
-/
import proofs.«175083_g12077448036551_cont_sun_c4_50_15_alg».proof.Proof.KBlock
import proofs.«175083_g12077448036551_cont_sun_c4_50_15_alg».proof.Proof.Gen.KernelIdeal.Frame
import proofs.«175083_g12077448036551_cont_sun_c4_50_15_alg».proof.Proof.Gen.KernelIdeal.Value
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.KRun

open Idealize.ShloMosaic Idealize.ShloMosaic.TcCoe Idealize.SL.Sem Idealize.ShloMosaic.ValueIdx Cert.KernelIdeal Cert.KernelIdeal.Gen
open Idealize.ShloMosaic.Tactic
open Idealize.ShloMosaic.Pipeline (Dat)

/-! ## What one grid point leaves, case by case -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point leaves in the scratch the operator built from the adjacency block. -/
theorem scratch_first (c : Dev nD) (i : grid0.Coords) (arg1 : Memref sig .tc .vmem S64x64x128 .f32) (harg1 : arg1.IsWhole) (arg2 : Memref sig .tc .vmem S64x64 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S64x64x128 .f32) (harg5 : arg5.IsWhole) (arg6 : Memref sig .tc .vmem S128x128 .bf16) (harg6 : arg6.IsWhole) (hc0 : cond0_0 i)
    (x0 : Vec F S64x64x128 .f32) (x1 : Vec F S64x64 .i32) (x2 : Vec F S128x128 .f32) (x3 : Vec F S1x128 .f32) :
    sout0_A_0 c i arg1 harg1 arg2 harg2 arg3 harg3 arg4 harg4 arg5 harg5 arg6 harg6 hc0 x0 x1 x2 x3 = k0_pay1 x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero hz2]
  simp only [View.readAt_eq_ld, harg2.read_unread, View.ld_unit_zero (S := S64x64) hz2]

/-- The first point's output block: the layer applied with the operator it has just stored and read back. -/
theorem block_first (c : Dev nD) (i : grid0.Coords) (arg1 : Memref sig .tc .vmem S64x64x128 .f32) (harg1 : arg1.IsWhole) (arg2 : Memref sig .tc .vmem S64x64 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S64x64x128 .f32) (harg5 : arg5.IsWhole) (arg6 : Memref sig .tc .vmem S128x128 .bf16) (harg6 : arg6.IsWhole) (hc0 : cond0_0 i)
    (x0 : Vec F S64x64x128 .f32) (x1 : Vec F S64x64 .i32) (x2 : Vec F S128x128 .f32) (x3 : Vec F S1x128 .f32) :
    out0_A_4 c i arg1 harg1 arg2 harg2 arg3 harg3 arg4 harg4 arg5 harg5 arg6 harg6 hc0 x0 x1 x2 x3 = k0_pay2 x0 x2 (k0_pay1 x1) x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz3]
  simp only [View.readAt_eq_ld, harg1.read_unread, harg2.read_unread, harg3.read_unread, harg4.read_unread,
    View.ld_unit_zero (S := S64x64x128) hz3, View.ld_unit_zero (S := S64x64) hz2, View.ld_unit_zero (S := S128x128) hz2,
    View.ld_unit_zero (S := S1x128) hz2, View.readCov_unit_zero (S := S128x128) _ hz2]

/-- A later point's output block: the layer applied with the operator as the scratch holds it. -/
theorem block_later (c : Dev nD) (i : grid0.Coords) (arg1 : Memref sig .tc .vmem S64x64x128 .f32) (harg1 : arg1.IsWhole) (arg2 : Memref sig .tc .vmem S64x64 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S64x64x128 .f32) (harg5 : arg5.IsWhole) (arg6 : Memref sig .tc .vmem S128x128 .bf16) (harg6 : arg6.IsWhole) (hc0 : ¬cond0_0 i)
    (x0 : Vec F S64x64x128 .f32) (x1 : Vec F S64x64 .i32) (x2 : Vec F S128x128 .f32) (x3 : Vec F S1x128 .f32) (xs0 : Vec F S128x128 .bf16) :
    out0_B_4 c i arg1 harg1 arg2 harg2 arg3 harg3 arg4 harg4 arg5 harg5 arg6 harg6 hc0 x0 x1 x2 x3 xs0 = k0_pay2 x0 x2 xs0 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero hz3]
  simp only [View.readAt_eq_ld, harg1.read_unread, harg3.read_unread, harg4.read_unread, harg6.read_unread,
    View.ld_unit_zero (S := S64x64x128) hz3, View.ld_unit_zero (S := S128x128) hz2,
    View.ld_unit_zero (S := S1x128) hz2]

end Pieces

/-! ## The blocks the body is handed, read off the argument arrays -/

section Blocks

variable {F : FTy → Type} [FloatOps F]
variable (m : (ℓ : Loc nD τ sig) → Buf (Elt F) ℓ)

/-- The argument arrays on core c, and the bias as the region finds it: one row of 128. -/
abbrev xarr (c : Dev nD) : Vec F S128x64x128 .f32 := m ((c.tc : Thread nD τ).loc main_arg0)
abbrev garr (c : Dev nD) : Vec F S64x64 .i32 := m ((c.tc : Thread nD τ).loc main_arg1)
abbrev warr (c : Dev nD) : Vec F S128x128 .f32 := m ((c.tc : Thread nD τ).loc main_arg2)
abbrev bvec (c : Dev nD) : Vec F S128 .f32 := m ((c.tc : Thread nD τ).loc main_arg3)
abbrev brow (c : Dev nD) : Vec F S1x128 .f32 := V m c main_v0

/-- The feature block of grid point t: 64 copies. -/
abbrev xblk (c : Dev nD) (t : Fin cfg0.N) : Vec F S64x64x128 .f32 := iblk m c 0 t

/-- Block indices over the grid: features and result move with the point along the copies; the adjacency, the weights
    and the bias stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The adjacency block is the whole adjacency array at every point. -/
theorem gblk_eq (c : Dev nD) (t : Fin cfg0.N) : (iblk m c 1 t : Vec F S64x64 .i32) = garr m c := by
  obtain ⟨-, -, -, e0, e1, -⟩ := idx_facts t
  refine Eq.trans ?_ (V_main_arg1 m c)
  funext j
  show V m c main_arg1 (((cfg0.win 1).blk t).view.emb j) = V m c main_arg1 j
  refine congrArg _ (funext fun a => Fin.ext ?_)
  match a with
  | ⟨0, _⟩ => show win0_1.index t (0 : Fin 2) * 64 + 1 * (j 0).val = (j 0).val; omega
  | ⟨1, _⟩ => show win0_1.index t (1 : Fin 2) * 64 + 1 * (j 1).val = (j 1).val; omega

/-- The weight block is the whole weight matrix at every point. -/
theorem wblk_eq (c : Dev nD) (t : Fin cfg0.N) : (iblk m c 2 t : Vec F S128x128 .f32) = warr m c := by
  obtain ⟨-, -, -, -, -, e0, e1, -⟩ := idx_facts t
  refine Eq.trans ?_ (V_main_arg2 m c)
  funext j
  show V m c main_arg2 (((cfg0.win 2).blk t).view.emb j) = V m c main_arg2 j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- The bias block is the whole bias row at every point. -/
theorem bblk_eq (c : Dev nD) (t : Fin cfg0.N) : (iblk m c 3 t : Vec F S1x128 .f32) = brow m c := by
  obtain ⟨-, -, -, -, -, -, -, e0, e1, -⟩ := idx_facts t
  funext j
  show V m c main_v0 (((cfg0.win 3).blk t).view.emb j) = V m c main_v0 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- Local copy il of point t's feature block is copy 64 t + il of the feature array. -/
theorem xblk_apply (c : Dev nD) (t : Fin cfg0.N) (il : Fin 64) (cn : Fin 64) (f : Fin 128)
    (hlt : 64 * t.val + il.val < 128) :
    xblk m c t (ix3 il cn f) = xarr m c (ix3 (⟨64 * t.val + il.val, hlt⟩ : Fin 128) cn f) := by
  obtain ⟨e0, e1, e2, -⟩ := idx_facts t
  refine Eq.trans ?_ (congrFun (V_main_arg0 m c) _)
  show V m c main_arg0 (((cfg0.win 0).blk t).view.emb (ix3 il cn f)) = V m c main_arg0 (ix3 (⟨64 * t.val + il.val, hlt⟩ : Fin 128) cn f)
  refine congrArg _ (funext fun a => Fin.ext ?_)
  match a with
  | ⟨0, _⟩ => show win0_0.index t (0 : Fin 3) * 64 + 1 * il.val = 64 * t.val + il.val; omega
  | ⟨1, _⟩ => show win0_0.index t (1 : Fin 3) * 64 + 1 * cn.val = cn.val; omega
  | ⟨2, _⟩ => show win0_0.index t (2 : Fin 3) * 128 + 1 * f.val = f.val; omega

/-- The bias row is the bias vector laid out as 1 × 128: the one host step before the call. -/
theorem brow_eq (c : Dev nD) :
    (V m c main_v0 : S1x128.Idx → Elt F .f32) = shapeCast S1x128 (bvec m c) shapeCasts_S128_S1x128 := by
  dsimp only [Gen.V, Gen.hostOps0]; after_results; rfl

theorem brow_apply (c : Dev nD) (f : Fin 128) : brow m c (ix2 (0 : Fin 1) f) = bvec m c (ix1 f) := by
  show (V m c main_v0 : S1x128.Idx → Elt F .f32) (ix2 (0 : Fin 1) f) = _
  rw [brow_eq m c]
  refine shapeCast_apply _ _ (ix2 (0 : Fin 1) f) (ix1 f) ?_
  rw [Shape.rowMajor_val_one, Shape.rowMajor_val_two]
  show f.val = (0 : Fin 1).val * 128 + f.val
  simp

end Blocks

/-! ## The two points: the scratch after each, and each point's output block -/

section Points

variable {F : FTy → Type} [FloatOps F]
variable (m : (ℓ : Loc nD τ sig) → Buf (Elt F) ℓ)

/-- After every point the scratch holds the operator built from the adjacency array: the first point stores it, the
    second leaves it. -/
theorem scratch_eq (c : Dev nD) : ∀ (n : ℕ) (h : n < cfg0.N), (outsAt0 m c n h).2 = k0_pay1 (garr m c)
  | 0, h => by
    rw [outsAt0_A m c ⟨0, h⟩ rfl]
    dsimp only
    exact (scratch_first (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl)
      (iblk m c 0 ⟨0, h⟩) (iblk m c 1 ⟨0, h⟩) (iblk m c 2 ⟨0, h⟩) (iblk m c 3 ⟨0, h⟩)).trans
      (congrArg k0_pay1 (gblk_eq m c ⟨0, h⟩))
  | n + 1, h => by
    have hN : n + 1 < 2 := lt_of_lt_of_eq h (show cfg0.N = 2 from N_0)
    have hB : ¬(⟨n + 1, h⟩ : Fin cfg0.N).val % 2 = 0 := by dsimp only; omega
    rw [outsAt0_B m c ⟨n + 1, h⟩ hB]
    dsimp only
    unfold sout0_B_0
    exact scratch_eq c n (Nat.lt_of_succ_lt h)

/-- Each point's output block is the layer of its feature block, with the operator of the adjacency array. -/
theorem block_eq (c : Dev nD) (t : Fin cfg0.N) :
    (outsAt0 m c t.val t.isLt).1 = k0_pay2 (xblk m c t) (warr m c) (k0_pay1 (garr m c)) (brow m c) := by
  by_cases h0 : t.val % 2 = 0
  · rw [outsAt0_A m c t h0]
    dsimp only
    refine (block_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0)
      (iblk m c 0 t) (iblk m c 1 t) (iblk m c 2 t) (iblk m c 3 t)).trans ?_
    rw [gblk_eq m c t, wblk_eq m c t, bblk_eq m c t]
  · rw [outsAt0_B m c t h0]
    dsimp only
    refine (block_later (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h))
      (iblk m c 0 t) (iblk m c 1 t) (iblk m c 2 t) (iblk m c 3 t)
      (outsAt0 m c (t.val - 1) (Nat.lt_of_le_of_lt (Nat.sub_le _ _) t.isLt)).2).trans ?_
    rw [scratch_eq m c (t.val - 1) (Nat.lt_of_le_of_lt (Nat.sub_le _ _) t.isLt), wblk_eq m c t, bblk_eq m c t]

end Points

/-! ## Entry by entry, and the result array -/

section Result

variable (m : (ℓ : Loc nD τ sig) → Buf (Elt Ideal) ℓ)

/-- The specification of core c's argument arrays. -/
abbrev spec (c : Dev nD) : Cert.Spec.SX.Idx → EReal :=
  Cert.Spec.GE (m ((c.tc : Thread nD τ).loc main_arg0)) (m ((c.tc : Thread nD τ).loc main_arg1)) (m ((c.tc : Thread nD τ).loc main_arg2)) (m ((c.tc : Thread nD τ).loc main_arg3))

/-- Local copy il of point t's output block is the specification at copy 64 t + il. -/
theorem entry (c : Dev nD) (hx : Cert.Spec.IsReal (m ((c.tc : Thread nD τ).loc main_arg0)))
    (hW : Cert.Spec.IsReal (m ((c.tc : Thread nD τ).loc main_arg2))) (hb : Cert.Spec.IsReal (m ((c.tc : Thread nD τ).loc main_arg3)))
    (hg : ∀ p : S64x64.Idx, m ((c.tc : Thread nD τ).loc main_arg1) p = 0#32 ∨ m ((c.tc : Thread nD τ).loc main_arg1) p = 1#32)
    (t : Fin cfg0.N) (il : Fin 64) (cn : Fin 64) (f : Fin 128) (hlt : 64 * t.val + il.val < 128) :
    (outsAt0 m c t.val t.isLt).1 (ix3 il cn f) = spec m c (ix3 (⟨64 * t.val + il.val, hlt⟩ : Fin 128) cn f) := by
  have hN : t.val < 2 := lt_of_lt_of_eq t.isLt (show cfg0.N = 2 from N_0)
  rw [block_eq m c t]
  exact Cert.KernelIdeal.KBlock.block_value (xblk m c t) (garr m c) (warr m c) (brow m c) (xarr m c) (bvec m c) ⟨t.val, hN⟩
    (fun il cn f => xblk_apply m c t il cn f _) (fun f => brow_apply m c f) hx hW hb hg il cn f

/-- What point t writes back is block t of the specification. -/
theorem flushed_eq (c : Dev nD) (hx : Cert.Spec.IsReal (m ((c.tc : Thread nD τ).loc main_arg0)))
    (hW : Cert.Spec.IsReal (m ((c.tc : Thread nD τ).loc main_arg2))) (hb : Cert.Spec.IsReal (m ((c.tc : Thread nD τ).loc main_arg3)))
    (hg : ∀ p : S64x64.Idx, m ((c.tc : Thread nD τ).loc main_arg1) p = 0#32 ∨ m ((c.tc : Thread nD τ).loc main_arg1) p = 1#32)
    (t : Fin cfg0.N) :
    (dats m 0 c).flushed 4 t = ((cfg0.win 4).blk t).view.read (Elt Ideal) (spec m c) := by
  rw [Value.flushed4]
  funext j
  have hj0 : (j 0).val < 64 := (j 0).isLt
  have hj1 : (j 1).val < 64 := (j 1).isLt
  have hj2 : (j 2).val < 128 := (j 2).isLt
  have hN : t.val < 2 := lt_of_lt_of_eq t.isLt (show cfg0.N = 2 from N_0)
  obtain ⟨-, -, -, -, -, -, -, -, -, e0, e1, e2⟩ := idx_facts t
  have hlt : 64 * t.val + (j 0).val < 128 := by omega
  have hemb : ((cfg0.win 4).blk t).view.emb j
      = ix3 (⟨64 * t.val + (j 0).val, hlt⟩ : Fin 128) (⟨(j 1).val, hj1⟩ : Fin 64) (⟨(j 2).val, hj2⟩ : Fin 128) := by
    funext a; apply Fin.ext
    match a with
    | ⟨0, _⟩ => show win0_4.index t (0 : Fin 3) * 64 + 1 * (j 0).val = 64 * t.val + (j 0).val; omega
    | ⟨1, _⟩ => show win0_4.index t (1 : Fin 3) * 64 + 1 * (j 1).val = (j 1).val; omega
    | ⟨2, _⟩ => show win0_4.index t (2 : Fin 3) * 128 + 1 * (j 2).val = (j 2).val; omega
  have hinj : (cfg0.win 4).xinj (grid0.coords t) j
      = ix3 (⟨(j 0).val, hj0⟩ : Fin 64) (⟨(j 1).val, hj1⟩ : Fin 64) (⟨(j 2).val, hj2⟩ : Fin 128) := by
    funext a; apply Fin.ext
    match a with
    | ⟨0, _⟩ => rfl
    | ⟨1, _⟩ => rfl
    | ⟨2, _⟩ => rfl
  show (outsAt0 m c t.val t.isLt).1 ((cfg0.win 4).xinj (grid0.coords t) j) = spec m c (((cfg0.win 4).blk t).view.emb j)
  rw [hemb, hinj]
  exact entry m c hx hW hb hg t _ _ _ hlt

/-- An index of the result array is in point t's block when its copy is one of 64 t … 64 t + 63. -/
theorem mem_blk (t : Fin cfg0.N) (i : S128x64x128.Idx) :
    i ∈ ((cfg0.win 4).blk t).view.set ↔ ∀ a : Fin 3, win0_4.index t a * S64x64x128.size a ≤ (i a).val
      ∧ (i a).val < win0_4.index t a * S64x64x128.size a + S64x64x128.size a := by
  show i ∈ ((View.whole main_v1).slice (win0_4.rect t)).set ↔ _
  rw [View.set_slice_whole, Rect.mem_set_unit]
  exact Iff.rfl

/-- The two blocks tile the result array: copy i lies in the block of point i / 64. -/
theorem cover (i : S128x64x128.Idx) :
    ∃ t : Fin cfg0.N, (cfg0.win 4).flush t = true ∧ i ∈ ((cfg0.win 4).blk t).view.set := by
  have hi0 : (i 0).val < 128 := (i 0).isLt
  have hi1 : (i 1).val < 64 := (i 1).isLt
  have hi2 : (i 2).val < 128 := (i 2).isLt
  have hlt : (i 0).val / 64 < cfg0.N := by rw [show cfg0.N = 2 from N_0]; omega
  obtain ⟨-, -, -, -, -, -, -, -, -, e0, e1, e2⟩ := idx_facts ⟨(i 0).val / 64, hlt⟩
  have e0' : win0_4.index ⟨(i 0).val / 64, hlt⟩ (0 : Fin 3) = (i 0).val / 64 := e0
  refine ⟨⟨(i 0).val / 64, hlt⟩, flush0_4 _, ?_⟩
  rw [mem_blk]
  intro a
  match a with
  | ⟨0, _⟩ =>
    show win0_4.index ⟨(i 0).val / 64, hlt⟩ (0 : Fin 3) * 64 ≤ (i 0).val
      ∧ (i 0).val < win0_4.index ⟨(i 0).val / 64, hlt⟩ (0 : Fin 3) * 64 + 64
    omega
  | ⟨1, _⟩ =>
    show win0_4.index ⟨(i 0).val / 64, hlt⟩ (1 : Fin 3) * 64 ≤ (i 1).val
      ∧ (i 1).val < win0_4.index ⟨(i 0).val / 64, hlt⟩ (1 : Fin 3) * 64 + 64
    omega
  | ⟨2, _⟩ =>
    show win0_4.index ⟨(i 0).val / 64, hlt⟩ (2 : Fin 3) * 128 ≤ (i 2).val
      ∧ (i 2).val < win0_4.index ⟨(i 0).val / 64, hlt⟩ (2 : Fin 3) * 128 + 128
    omega

/-- So the result array ends at the specification. -/
theorem final (c : Dev nD) (hx : Cert.Spec.IsReal (m ((c.tc : Thread nD τ).loc main_arg0)))
    (hW : Cert.Spec.IsReal (m ((c.tc : Thread nD τ).loc main_arg2))) (hb : Cert.Spec.IsReal (m ((c.tc : Thread nD τ).loc main_arg3)))
    (hg : ∀ p : S64x64.Idx, m ((c.tc : Thread nD τ).loc main_arg1) p = 0#32 ∨ m ((c.tc : Thread nD τ).loc main_arg1) p = 1#32) :
    (dats m 0 c).arrAt 4 cfg0.N = spec m c :=
  (dats m 0 c).arrAt_eq_of_cover 4 (spec m c) (fun t _ => flushed_eq m c hx hW hb hg t) cover

end Result

/-- Under real float inputs and a 0 / 1 adjacency: every weakly fair execution terminates, the result buffer ends at
    the specification of the argument arrays, and the arguments end unchanged. -/
theorem kernel_run (m : (ℓ : Loc nD τ sig) → Buf (Elt Ideal) ℓ) (ρ : Dev nD → PrngReg)
    (hx : ∀ c : Dev nD, Cert.Spec.IsReal (m ((c.tc : Thread nD τ).loc main_arg0)))
    (hW : ∀ c : Dev nD, Cert.Spec.IsReal (m ((c.tc : Thread nD τ).loc main_arg2)))
    (hb : ∀ c : Dev nD, Cert.Spec.IsReal (m ((c.tc : Thread nD τ).loc main_arg3)))
    (hg : ∀ (c : Dev nD) (p : S64x64.Idx), m ((c.tc : Thread nD τ).loc main_arg1) p = 0#32 ∨ m ((c.tc : Thread nD τ).loc main_arg1) p = 1#32) :
    θ_run (defs (F := Ideal)) (onTc (τ := τ) (main (F := Ideal))) ⟨m, fun _ => 0, ρ⟩ fun r => ∀ c : Dev nD,
      r.2.mem ((c.tc : Thread nD τ).loc main_v1)
          = Cert.Spec.GE (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun r h c => ⟨(h c).1.trans (final m c (hx c) (hW c) (hb c) (hg c)), (h c).2⟩)
    (Value.run_blocks (F := Ideal) m ρ)

end Cert.KernelIdeal.KRun

end
-- ==== Proof.RefFn.lean ====
/-
  The reference program's host operations, grouped into the quantities they compute, as pure functions of the
  four argument arrays.  Every function below is the composition of the operations of one stretch of @main, each
  operation applied to its operands in the program's own order, so that the program's run is these functions of the
  arguments.

  Finding the edges (jnp.nonzero with a fixed size): the nonzero mask is flattened row by row; `cum1` is its running
  count; `bins` counts, for each value v, the positions whose running count is v; a second running count, `flat`,
  is then at position k the number of positions whose running count is at most k, which is the flat position of
  the (k+1)-th nonzero entry.  Row and column are that position divided by, and modulo, 64; positions from the
  number of nonzero entries on are filled with 0 and marked invalid.

  The edge list of all 128 copies plus one self loop per node: sources `sAll`, targets `tAll`, weights `wAll`
  (1 on a valid edge and on a self loop, 0 on a padding edge).  Degrees are the weights summed at the targets,
  `disV` their reciprocal square roots, and the messages x·W at the source scaled by both ends' `disV` and the
  weight, summed at the targets; then bias, max with 0, and the residual.
-/
import proofs.«175083_g12077448036551_cont_sun_c4_50_15_alg».proof.ReferenceIdeal

noncomputable section

namespace Cert.ReferenceIdeal.RefFn

open Idealize.ShloMosaic Cert.ReferenceIdeal Cert.ReferenceIdeal.Facts₀ Cert.ReferenceIdeal.Facts

variable {F : FTy → Type} [FloatOps F] [Cert.ReferenceIdeal.Facts]

/-! ## Small constants -/

/-- The word w at every position of a 4096-vector. -/
def splat4096 (w : BitVec 32) : IVec S4096 32 := broadcastInDim S4096 ![] bcast_S_S4096 (constantI S_ 32 w)

/-- The word w at every position of the edge list. -/
def splatE (w : BitVec 32) : IVec S532480 32 := broadcastInDim S532480 ![] bcast_S_S532480 (constantI S_ 32 w)

/-- The float with bit pattern w at every node. -/
def splatN (w : BitVec 32) : FVec F S8192 .f32 := broadcastInDim S8192 ![] bcast_S_S8192 (constant S_ .f32 w)

/-! ## Finding the edges -/

/-- A running sum of words along a 4096-vector (a window of 4096 padded 4095 low). -/
def csum (v : IVec S4096 32) : IVec S4096 32 :=
  Host.reduceWindow IntOp.addi ![4096] ![1] ![4095] ![0] v (broadcastInDim S_ ![] bcast_S_S_ (constantI S_ 32 0#32))
    reduceWindows_S4096_S4096_w4096s1p4095_0 h_S_

/-- Where the adjacency is nonzero. -/
def nzMask (g : IVec S64x64 32) : IVec S64x64 1 :=
  cmpi .ne g (broadcastInDim S64x64 ![] bcast_S_S64x64 (constantI S_ 32 0#32))

/-- The mask, flattened row by row, as words 0 / 1. -/
def maskWords (g : IVec S64x64 32) : IVec S4096 32 :=
  extui 32 (shapeCast S4096 (nzMask g) shapeCasts_S64x64_S4096) natLt_1_32

/-- The running count of nonzero entries. -/
def cum1 (g : IVec S64x64 32) : IVec S4096 32 := csum (maskWords g)

/-- A running count as a scatter index: clipped below at 0, a negative one moved up by 4096, as a column. -/
def binIdx (c : IVec S4096 32) : IVec S4096x1 32 :=
  let v5 : IVec S4096 32 := maxsi (splat4096 0#32) c
  let v7 : IVec S4096 1 := cmpi .slt v5 (splat4096 0#32)
  let v9 : IVec S4096 32 := addi v5 (splat4096 4096#32)
  let v10 : IVec S4096 32 := select v7 v9 v5
  broadcastInDim S4096x1 ![0] bcast_S4096_S4096x1_0 v10

/-- For each value v below 4096, how many positions have running count v (a count of 4096 lands nowhere). -/
def bins (c : IVec S4096 32) : IVec S4096 32 :=
  Host.scatter scatter_S4096_S4096x1_S4096_n_0_0_1 IntOp.addi (splat4096 0#32) (binIdx c) (splat4096 1#32)

/-- At position k, the number of positions whose running count is at most k. -/
def flat (g : IVec S64x64 32) : IVec S4096 32 := csum (bins (cum1 g))

/-- jnp's floor division of a vector by a scalar: the truncated quotient, less one where the signs differ and the
    remainder is nonzero. -/
def floorDiv (a : IVec S4096 32) (d : IVec S_ 32) : IVec S4096 32 :=
  let v1 : IVec S4096 32 := Host.divsi a (broadcastInDim S4096 ![] bcast_S_S4096 d)
  let v5 : IVec S4096 1 := cmpi .ne (signi a) (broadcastInDim S4096 ![] bcast_S_S4096 (signi d))
  let v7 : IVec S4096 32 := Host.remsi a (broadcastInDim S4096 ![] bcast_S_S4096 d)
  let v9 : IVec S4096 1 := cmpi .ne v7 (splat4096 0#32)
  let v10 : IVec S4096 1 := andi v5 v9
  let v12 : IVec S4096 32 := subi v1 (splat4096 1#32)
  select v10 v12 v1

/-- jnp's remainder of a vector by a scalar: the truncated remainder by the divisor (by 1 if the divisor is 0), plus
    the divisor where the remainder is nonzero and its sign differs from the divisor's. -/
def remW (a : IVec S4096 32) (d : IVec S_ 32) : IVec S4096 32 :=
  let d' : IVec S_ 32 := select (cmpi .eq d (constantI S_ 32 0#32)) (constantI S_ 32 1#32) d
  let v4 : IVec S4096 32 := Host.remsi a (broadcastInDim S4096 ![] bcast_S_S4096 d')
  let v6 : IVec S4096 1 := cmpi .ne v4 (splat4096 0#32)
  let v8 : IVec S4096 1 := cmpi .slt v4 (splat4096 0#32)
  let v9 : IVec S_ 1 := cmpi .slt d' (constantI S_ 32 0#32)
  let v10 : IVec S4096 1 := broadcastInDim S4096 ![] bcast_S_S4096 v9
  let v11 : IVec S4096 1 := cmpi .ne v8 v10
  let v12 : IVec S4096 1 := andi v11 v6
  let v14 : IVec S4096 32 := addi v4 (broadcastInDim S4096 ![] bcast_S_S4096 d')
  select v12 v14 v4

/-- Row of the k-th nonzero entry, before the fill. -/
def rowRaw (g : IVec S64x64 32) : IVec S4096 32 :=
  remW (floorDiv (flat g) (constantI S_ 32 64#32)) (constantI S_ 32 64#32)

/-- Column of the k-th nonzero entry, before the fill. -/
def colRaw (g : IVec S64x64 32) : IVec S4096 32 :=
  remW (floorDiv (flat g) (constantI S_ 32 1#32)) (constantI S_ 32 64#32)

/-- The number of nonzero entries, as a word. -/
def total (g : IVec S64x64 32) : IVec S_ 32 :=
  Host.reduce IntOp.addi (extui 32 (nzMask g) natLt_1_32) (constantI S_ 32 0#32) reducesTo_S64x64_S_d0_1 h_S_

/-- Positions from the number of nonzero entries on: to be filled. -/
def fillM (g : IVec S64x64 32) : IVec S4096 1 :=
  cmpi .sge (iotaInDim S4096 32 0) (broadcastInDim S4096 ![] bcast_S_S4096 (total g))

/-- Rows of the edges, 0 past the last one. -/
def rowW (g : IVec S64x64 32) : IVec S4096 32 := select (fillM g) (splat4096 0#32) (rowRaw g)

/-- Columns of the edges, 0 past the last one. -/
def colW (g : IVec S64x64 32) : IVec S4096 32 := select (fillM g) (splat4096 0#32) (colRaw g)

/-- Positions below the number of nonzero entries: real edges. -/
def validM (g : IVec S64x64 32) : IVec S4096 1 :=
  cmpi .slt (iotaInDim S4096 32 0) (broadcastInDim S4096 ![] bcast_S_S4096 (total g))

/-! ## The edge list of all copies, with the self loops -/

/-- Copy i's node offset, 64 · i. -/
def offs : IVec S128 32 := muli (iotaInDim S128 32 0) (broadcastInDim S128 ![] bcast_S_S128 (constantI S_ 32 64#32))

/-- A per-edge node number repeated for every copy with the copy's offset added: entry (i, k) is v k + 64 · i. -/
def spread (v : IVec S4096 32) : IVec S524288 32 :=
  shapeCast S524288
    (addi (broadcastInDim S128x4096 ![0, 1] bcast_S1x4096_S128x4096_0_1 (broadcastInDim S1x4096 ![1] bcast_S4096_S1x4096_1 v))
          (broadcastInDim S128x4096 ![0, 1] bcast_S128x1_S128x4096_0_1 (broadcastInDim S128x1 ![0] bcast_S128_S128x1_0 offs)))
    shapeCasts_S128x4096_S524288

/-- A per-edge bit repeated for every copy. -/
def spreadM (v : IVec S4096 1) : IVec S524288 1 :=
  shapeCast S524288
    (broadcastInDim S128x4096 ![0, 1] bcast_S1x4096_S128x4096_0_1 (broadcastInDim S1x4096 ![1] bcast_S4096_S1x4096_1 v))
    shapeCasts_S128x4096_S524288

/-- The per-copy list followed by one entry n for each node n. -/
def withLoops (v : IVec S524288 32) : IVec S532480 32 :=
  concatenate S532480 0 [⟨S524288, v⟩, ⟨S8192, iotaInDim S8192 32 0⟩] concatenates_S524288_S8192_S532480_d0

/-- Sources. -/
def sAll (g : IVec S64x64 32) : IVec S532480 32 := withLoops (spread (rowW g))

/-- Targets. -/
def tAll (g : IVec S64x64 32) : IVec S532480 32 := withLoops (spread (colW g))

/-- Weights: the validity bit as a float, then 1 for every self loop. -/
def wAll (g : IVec S64x64 32) : FVec F S532480 .f32 :=
  concatenate S532480 0 [⟨S524288, uitofp .f32 (spreadM (validM g))⟩, ⟨S8192, splatN 0x3F800000#32⟩]
    concatenates_S524288_S8192_S532480_d0

/-- A node number as a scatter or gather index: a negative one moved up by 8192, as a column. -/
def wrapIdx (v : IVec S532480 32) : IVec S532480x1 32 :=
  broadcastInDim S532480x1 ![0] bcast_S532480_S532480x1_0
    (select (cmpi .slt v (splatE 0#32)) (addi v (splatE 8192#32)) v)

/-! ## Degrees, messages and the result -/

/-- The weights summed at the targets. -/
def degV (g : IVec S64x64 32) : FVec F S8192 .f32 :=
  Host.scatterAdd scatter_S8192_S532480x1_S532480_n_0_0_1 (splatN 0x00000000#32) (wrapIdx (tAll g)) (wAll g)

/-- deg^(-1/2) where the degree is positive, else 0. -/
def disV (g : IVec S64x64 32) : FVec F S8192 .f32 :=
  select (cmpf .ogt (degV (F := F) g) (splatN 0x00000000#32))
    (Host.rsqrt (maximumf (degV (F := F) g) (splatN 0x2B8CBCCC#32)))
    (splatN 0x00000000#32)

/-- Per edge, the product of both ends' deg^(-1/2). -/
def normV (g : IVec S64x64 32) : FVec F S532480 .f32 :=
  mulf (Host.gather gather_S8192_S532480x1_S532480_n_0_n_n_0_1_1 (disV (F := F) g) (wrapIdx (sAll g)))
       (Host.gather gather_S8192_S532480x1_S532480_n_0_n_n_0_1_1 (disV (F := F) g) (wrapIdx (tAll g)))

/-- The node features as an 8192 × 128 matrix. -/
def xFlat (x : FVec F S128x64x128 .f32) : FVec F S8192x128 .f32 :=
  shapeCast S8192x128 x shapeCasts_S128x64x128_S8192x128

/-- x · W. -/
def xwV (x : FVec F S128x64x128 .f32) (W : FVec F S128x128 .f32) : FVec F S8192x128 .f32 :=
  Host.dotGeneral dot_S8192x128_S128x128_S8192x128_1_0_0_1_n_n none (xFlat x) W

/-- Per edge and feature, the message: x · W at the source, scaled by the edge's normalisation and weight. -/
def msgV (x : FVec F S128x64x128 .f32) (g : IVec S64x64 32) (W : FVec F S128x128 .f32) : FVec F S532480x128 .f32 :=
  mulf (Host.gather gather_S8192x128_S532480x1_S532480x128_1_0_n_n_0_1_1128 (xwV x W) (wrapIdx (sAll g)))
       (broadcastInDim S532480x128 ![0, 1] bcast_S532480x1_S532480x128_0_1
         (broadcastInDim S532480x1 ![0] bcast_S532480_S532480x1_0 (mulf (normV (F := F) g) (wAll (F := F) g))))

/-- The messages summed at the targets. -/
def aggV (x : FVec F S128x64x128 .f32) (g : IVec S64x64 32) (W : FVec F S128x128 .f32) : FVec F S8192x128 .f32 :=
  Host.scatterAdd scatter_S8192x128_S532480x1_S532480x128_1_0_0_1
    (broadcastInDim S8192x128 ![] bcast_S_S8192x128 (constant S_ .f32 0x00000000#32)) (wrapIdx (tAll g)) (msgV x g W)

/-- The reference's result: bias added, the maximum with 0, the residual added, back at 128 × 64 × 128. -/
def res (x : FVec F S128x64x128 .f32) (g : IVec S64x64 32) (W : FVec F S128x128 .f32) (b : FVec F S128 .f32) :
    FVec F S128x64x128 .f32 :=
  shapeCast S128x64x128
    (addf (maximumf (addf (aggV x g W)
              (broadcastInDim S8192x128 ![0, 1] bcast_S1x128_S8192x128_0_1 (broadcastInDim S1x128 ![1] bcast_S128_S1x128_1 b)))
            (broadcastInDim S8192x128 ![] bcast_S_S8192x128 (constant S_ .f32 0x00000000#32)))
          (xFlat x))
    shapeCasts_S8192x128_S128x64x128

end Cert.ReferenceIdeal.RefFn

end
-- ==== Proof.RefOps.lean ====
/-
  The reference program's host operations in order, the called functions' operations written at their calls over
  the calls' buffers, cut into 13 consecutive stretches; per stretch, the side conditions of its operations
  (every buffer a TensorCore reference) and the list of the buffers it writes.  230 operations.
-/
import proofs.«175083_g12077448036551_cont_sun_c4_50_15_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Operations 1 … 9. -/
abbrev wA : List (HloOp τ sig (Elt F)) :=
  [ StableHlo.reshape main_arg0 main_v0 rfl shapeCasts_S128x64x128_S8192x128,
    StableHlo.nullary main_c (constantI S_ 32 0#32),
    StableHlo.unary main_c main_v1 (broadcastInDim S64x64 ![] bcast_S_S64x64 : (⟨S_, .i32⟩ : BufTy).Contents (Elt F) → (⟨S64x64, .i32⟩ : BufTy).Contents (Elt F)),
    StableHlo.binary main_arg1 main_v1 main_v2 (cmpi .ne : (⟨S64x64, .i32⟩ : BufTy).Contents (Elt F) → (⟨S64x64, .i32⟩ : BufTy).Contents (Elt F) → (⟨S64x64, .i1⟩ : BufTy).Contents (Elt F)),
    StableHlo.TRef.reshape (StableHlo.TRef.of main_v2 : StableHlo.TRef sig ⟨S64x64, .i1⟩) main_call0.v0 rfl shapeCasts_S64x64_S4096,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![4096] ![1] ![4095] ![0] x v reduceWindows_S4096_S4096_w4096s1p4095_0 h_S_) ]

/-- The buffers operations 1 … 9 write, in order. -/
abbrev wA_writes : List (Ref sig .tc) :=
  [main_v0, main_c, main_v1, main_v2, main_call0.v0.ref, main_call0.v1.ref, main_call0.call0.c.ref, main_call0.call0.v0.ref, main_call0.call0.v1.ref]

theorem wA_sub : (wA : List (HloOp τ sig (Elt F))).Forall fun op => op.bufs ⊆ tcRefs τ sig :=
  ⟨reshape_bufs_sub .., nullary_bufs_sub .., unary_bufs_sub .., binary_bufs_sub .., reshape_bufs_sub .., unary_bufs_sub .., nullary_bufs_sub .., unary_bufs_sub .., binary_bufs_sub ..⟩

/-- Operations 10 … 29. -/
abbrev wB : List (HloOp τ sig (Elt F)) :=
  [ StableHlo.nullary main_c_0 (constantI S_ 32 0#32),
    StableHlo.unary main_c_0 main_v4 (broadcastInDim S4096 ![] bcast_S_S4096 : (⟨S_, .i32⟩ : BufTy).Contents (Elt F) → (⟨S4096, .i32⟩ : BufTy).Contents (Elt F)),
    StableHlo.nullary main_c_1 (constantI S_ 32 0#32),
    StableHlo.TRef.unary (StableHlo.TRef.of main_c_1 : StableHlo.TRef sig ⟨S_, .i32⟩) main_call1.v0 id,
    StableHlo.TRef.unary main_call1.v0 main_call1.v1 (broadcastInDim S4096 ![] bcast_S_S4096),
    StableHlo.TRef.binary main_call1.v1 (StableHlo.TRef.of main_v3 : StableHlo.TRef sig ⟨S4096, .i32⟩) main_call1.v2 maxsi,
    StableHlo.nullary main_c_2 (constantI S_ 32 0#32),
    StableHlo.unary main_c_2 main_v6 (broadcastInDim S4096 ![] bcast_S_S4096 : (⟨S_, .i32⟩ : BufTy).Contents (Elt F) → (⟨S4096, .i32⟩ : BufTy).Contents (Elt F)),
    StableHlo.binary main_v5 main_v6 main_v7 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 4096#32),
    StableHlo.unary main_c_3 main_v8 (broadcastInDim S4096 ![] bcast_S_S4096 : (⟨S_, .i32⟩ : BufTy).Contents (Elt F) → (⟨S4096, .i32⟩ : BufTy).Contents (Elt F)),
    StableHlo.binary main_v5 main_v8 main_v9 (addi : (⟨S4096, .i32⟩ : BufTy).Contents (Elt F) → (⟨S4096, .i32⟩ : BufTy).Contents (Elt F) → (⟨S4096, .i32⟩ : BufTy).Contents (Elt F)),
    StableHlo.ternary main_v7 main_v9 main_v5 main_v10 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v10 main_v11 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v12 (broadcastInDim S4096 ![] bcast_S_S4096 : (⟨S_, .i32⟩ : BufTy).Contents (Elt F) → (⟨S4096, .i32⟩ : BufTy).Contents (Elt F)),
    StableHlo.ternary main_v4 main_v11 main_v12 main_v13 ((fun x i u => Host.scatter scatter_S4096_S4096x1_S4096_n_0_0_1 IntOp.addi x i u) : (⟨S4096, .i32⟩ : BufTy).Contents (Elt F) → (⟨S4096x1, .i32⟩ : BufTy).Contents (Elt F) → (⟨S4096, .i32⟩ : BufTy).Contents (Elt F) → (⟨S4096, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (StableHlo.TRef.of main_v13 : StableHlo.TRef sig ⟨S4096, .i32⟩) main_call2.call0.v0 main_call2.call0.v1 (fun x v => Host.reduceWindow IntOp.addi ![4096] ![1] ![4095] ![0] x v reduceWindows_S4096_S4096_w4096s1p4095_0 h_S_) ]

/-- The buffers operations 10 … 29 write, in order. -/
abbrev wB_writes : List (Ref sig .tc) :=
  [main_c_0, main_v4, main_c_1, main_call1.v0.ref, main_call1.v1.ref, main_call1.v2.ref, main_c_2, main_v6, main_v7, main_c_3, main_v8, main_v9, main_v10, main_v11, main_c_4, main_v12, main_v13, main_call2.call0.c.ref, main_call2.call0.v0.ref, main_call2.call0.v1.ref]

theorem wB_sub : (wB : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

/-- Operations 30 … 46. -/
abbrev wC1 : List (HloOp τ sig (Elt F)) :=
  [ StableHlo.nullary main_c_5 (constantI S_ 32 64#32),
    StableHlo.TRef.unary (StableHlo.TRef.of main_c_5 : StableHlo.TRef sig ⟨S_, .i32⟩) main_call3.v0 (broadcastInDim S4096 ![] bcast_S_S4096),
    StableHlo.TRef.binary (StableHlo.TRef.of main_v14 : StableHlo.TRef sig ⟨S4096, .i32⟩) main_call3.v0 main_call3.v1 Host.divsi,
    StableHlo.TRef.unary (StableHlo.TRef.of main_v14 : StableHlo.TRef sig ⟨S4096, .i32⟩) main_call3.v2 signi,
    StableHlo.TRef.unary (StableHlo.TRef.of main_c_5 : StableHlo.TRef sig ⟨S_, .i32⟩) main_call3.v3 signi,
    StableHlo.TRef.unary main_call3.v3 main_call3.v4 (broadcastInDim S4096 ![] bcast_S_S4096),
    StableHlo.TRef.binary main_call3.v2 main_call3.v4 main_call3.v5 (cmpi .ne),
    StableHlo.TRef.unary (StableHlo.TRef.of main_c_5 : StableHlo.TRef sig ⟨S_, .i32⟩) main_call3.v6 (broadcastInDim S4096 ![] bcast_S_S4096),
    StableHlo.TRef.binary (StableHlo.TRef.of main_v14 : StableHlo.TRef sig ⟨S4096, .i32⟩) main_call3.v6 main_call3.v7 Host.remsi,
    StableHlo.TRef.nullary main_call3.c (constantI S_ 32 0#32),
    StableHlo.TRef.unary main_call3.c main_call3.v8 (broadcastInDim S4096 ![] bcast_S_S4096),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S4096 ![] bcast_S_S4096),
    StableHlo.TRef.binary main_call3.v1 main_call3.v11 main_call3.v12 subi,
    StableHlo.TRef.ternary main_call3.v10 main_call3.v12 main_call3.v1 main_call3.call0.v0 select ]

/-- The buffers operations 30 … 46 write, in order. -/
abbrev wC1_writes : List (Ref sig .tc) :=
  [main_c_5, main_call3.v0.ref, main_call3.v1.ref, main_call3.v2.ref, main_call3.v3.ref, main_call3.v4.ref, main_call3.v5.ref, main_call3.v6.ref, main_call3.v7.ref, main_call3.c.ref, main_call3.v8.ref, main_call3.v9.ref, main_call3.v10.ref, main_call3.c_0.ref, main_call3.v11.ref, main_call3.v12.ref, main_call3.call0.v0.ref]

theorem wC1_sub : (wC1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- Operations 47 … 68. -/
abbrev wC2 : List (HloOp τ sig (Elt F)) :=
  [ StableHlo.nullary main_c_6 (constantI S_ 32 64#32),
    StableHlo.TRef.unary (StableHlo.TRef.of main_c_6 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S4096 ![] bcast_S_S4096),
    StableHlo.TRef.binary (StableHlo.TRef.of main_v15 : StableHlo.TRef sig ⟨S4096, .i32⟩) main_call4.v3 main_call4.v4 Host.remsi,
    StableHlo.TRef.nullary main_call4.c_1 (constantI S_ 32 0#32),
    StableHlo.TRef.unary main_call4.c_1 main_call4.v5 (broadcastInDim S4096 ![] bcast_S_S4096),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4096 ![] bcast_S_S4096),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4096 ![] bcast_S_S4096),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4096 ![] bcast_S_S4096),
    StableHlo.TRef.binary main_call4.v4 main_call4.v13 main_call4.v14 addi,
    StableHlo.TRef.ternary main_call4.v12 main_call4.v14 main_call4.v4 main_call4.v15 select ]

/-- The buffers operations 47 … 68 write, in order. -/
abbrev wC2_writes : List (Ref sig .tc) :=
  [main_c_6, main_call4.v0.ref, main_call4.c.ref, main_call4.v1.ref, main_call4.c_0.ref, main_call4.call0.v0.ref, main_call4.v3.ref, main_call4.v4.ref, main_call4.c_1.ref, main_call4.v5.ref, main_call4.v6.ref, main_call4.c_2.ref, main_call4.v7.ref, main_call4.v8.ref, main_call4.c_3.ref, main_call4.v9.ref, main_call4.v10.ref, main_call4.v11.ref, main_call4.v12.ref, main_call4.v13.ref, main_call4.v14.ref, main_call4.v15.ref]

theorem wC2_sub : (wC2 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Operations 69 … 85. -/
abbrev wD1 : List (HloOp τ sig (Elt F)) :=
  [ StableHlo.nullary main_c_7 (constantI S_ 32 1#32),
    StableHlo.TRef.unary (StableHlo.TRef.of main_c_7 : StableHlo.TRef sig ⟨S_, .i32⟩) main_call5.v0 (broadcastInDim S4096 ![] bcast_S_S4096),
    StableHlo.TRef.binary (StableHlo.TRef.of main_v14 : StableHlo.TRef sig ⟨S4096, .i32⟩) main_call5.v0 main_call5.v1 Host.divsi,
    StableHlo.TRef.unary (StableHlo.TRef.of main_v14 : StableHlo.TRef sig ⟨S4096, .i32⟩) main_call5.v2 signi,
    StableHlo.TRef.unary (StableHlo.TRef.of main_c_7 : StableHlo.TRef sig ⟨S_, .i32⟩) main_call5.v3 signi,
    StableHlo.TRef.unary main_call5.v3 main_call5.v4 (broadcastInDim S4096 ![] bcast_S_S4096),
    StableHlo.TRef.binary main_call5.v2 main_call5.v4 main_call5.v5 (cmpi .ne),
    StableHlo.TRef.unary (StableHlo.TRef.of main_c_7 : StableHlo.TRef sig ⟨S_, .i32⟩) main_call5.v6 (broadcastInDim S4096 ![] bcast_S_S4096),
    StableHlo.TRef.binary (StableHlo.TRef.of main_v14 : StableHlo.TRef sig ⟨S4096, .i32⟩) main_call5.v6 main_call5.v7 Host.remsi,
    StableHlo.TRef.nullary main_call5.c (constantI S_ 32 0#32),
    StableHlo.TRef.unary main_call5.c main_call5.v8 (broadcastInDim S4096 ![] bcast_S_S4096),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S4096 ![] bcast_S_S4096),
    StableHlo.TRef.binary main_call5.v1 main_call5.v11 main_call5.v12 subi,
    StableHlo.TRef.ternary main_call5.v10 main_call5.v12 main_call5.v1 main_call5.call0.v0 select ]

/-- The buffers operations 69 … 85 write, in order. -/
abbrev wD1_writes : List (Ref sig .tc) :=
  [main_c_7, main_call5.v0.ref, main_call5.v1.ref, main_call5.v2.ref, main_call5.v3.ref, main_call5.v4.ref, main_call5.v5.ref, main_call5.v6.ref, main_call5.v7.ref, main_call5.c.ref, main_call5.v8.ref, main_call5.v9.ref, main_call5.v10.ref, main_call5.c_0.ref, main_call5.v11.ref, main_call5.v12.ref, main_call5.call0.v0.ref]

theorem wD1_sub : (wD1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- Operations 86 … 107. -/
abbrev wD2 : List (HloOp τ sig (Elt F)) :=
  [ StableHlo.nullary main_c_8 (constantI S_ 32 64#32),
    StableHlo.TRef.unary (StableHlo.TRef.of main_c_8 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S4096 ![] bcast_S_S4096),
    StableHlo.TRef.binary (StableHlo.TRef.of main_v17 : StableHlo.TRef sig ⟨S4096, .i32⟩) main_call6.v3 main_call6.v4 Host.remsi,
    StableHlo.TRef.nullary main_call6.c_1 (constantI S_ 32 0#32),
    StableHlo.TRef.unary main_call6.c_1 main_call6.v5 (broadcastInDim S4096 ![] bcast_S_S4096),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S4096 ![] bcast_S_S4096),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S4096 ![] bcast_S_S4096),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S4096 ![] bcast_S_S4096),
    StableHlo.TRef.binary main_call6.v4 main_call6.v13 main_call6.v14 addi,
    StableHlo.TRef.ternary main_call6.v12 main_call6.v14 main_call6.v4 main_call6.v15 select ]

/-- The buffers operations 86 … 107 write, in order. -/
abbrev wD2_writes : List (Ref sig .tc) :=
  [main_c_8, main_call6.v0.ref, main_call6.c.ref, main_call6.v1.ref, main_call6.c_0.ref, main_call6.call0.v0.ref, main_call6.v3.ref, main_call6.v4.ref, main_call6.c_1.ref, main_call6.v5.ref, main_call6.v6.ref, main_call6.c_2.ref, main_call6.v7.ref, main_call6.v8.ref, main_call6.c_3.ref, main_call6.v9.ref, main_call6.v10.ref, main_call6.v11.ref, main_call6.v12.ref, main_call6.v13.ref, main_call6.v14.ref, main_call6.v15.ref]

theorem wD2_sub : (wD2 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Operations 108 … 130. -/
abbrev wE : List (HloOp τ sig (Elt F)) :=
  [ StableHlo.nullary main_v19 (iotaInDim S4096 32 0),
    StableHlo.unary main_v2 main_v20 ((extui 32 · natLt_1_32) : (⟨S64x64, .i1⟩ : BufTy).Contents (Elt F) → (⟨S64x64, .i32⟩ : BufTy).Contents (Elt F)),
    StableHlo.nullary main_c_9 (constantI S_ 32 0#32),
    StableHlo.binary main_v20 main_c_9 main_v21 ((fun x v => Host.reduce IntOp.addi x v reducesTo_S64x64_S_d0_1 h_S_) : (⟨S64x64, .i32⟩ : BufTy).Contents (Elt F) → (⟨S_, .i32⟩ : BufTy).Contents (Elt F) → (⟨S_, .i32⟩ : BufTy).Contents (Elt F)),
    StableHlo.unary main_v21 main_v22 (broadcastInDim S4096 ![] bcast_S_S4096 : (⟨S_, .i32⟩ : BufTy).Contents (Elt F) → (⟨S4096, .i32⟩ : BufTy).Contents (Elt F)),
    StableHlo.binary main_v19 main_v22 main_v23 (cmpi .sge : (⟨S4096, .i32⟩ : BufTy).Contents (Elt F) → (⟨S4096, .i32⟩ : BufTy).Contents (Elt F) → (⟨S4096, .i1⟩ : BufTy).Contents (Elt F)),
    StableHlo.nullary main_c_10 (constantI S_ 32 0#32),
    StableHlo.TRef.unary (StableHlo.TRef.of main_c_10 : StableHlo.TRef sig ⟨S_, .i32⟩) main_call7.v0 id,
    StableHlo.TRef.unary main_call7.v0 main_call7.v1 (broadcastInDim S4096 ![] bcast_S_S4096),
    StableHlo.TRef.ternary (StableHlo.TRef.of main_v23 : StableHlo.TRef sig ⟨S4096, .i1⟩) main_call7.v1 (StableHlo.TRef.of main_v16 : StableHlo.TRef sig ⟨S4096, .i32⟩) main_call7.v2 select,
    StableHlo.nullary main_c_11 (constantI S_ 32 0#32),
    StableHlo.TRef.unary (StableHlo.TRef.of main_c_11 : StableHlo.TRef sig ⟨S_, .i32⟩) main_call8.v0 id,
    StableHlo.TRef.unary main_call8.v0 main_call8.v1 (broadcastInDim S4096 ![] bcast_S_S4096),
    StableHlo.TRef.ternary (StableHlo.TRef.of main_v23 : StableHlo.TRef sig ⟨S4096, .i1⟩) main_call8.v1 (StableHlo.TRef.of main_v18 : StableHlo.TRef sig ⟨S4096, .i32⟩) main_call8.v2 select,
    StableHlo.TRef.nullary main_call9.c (constantI S_ 32 0#32),
    StableHlo.TRef.unary main_call9.c main_call9.v0 (broadcastInDim S64x64 ![] bcast_S_S64x64),
    StableHlo.TRef.binary (StableHlo.TRef.of main_arg1 : StableHlo.TRef sig ⟨S64x64, .i32⟩) main_call9.v0 main_call9.v1 (cmpi .ne),
    StableHlo.TRef.unary main_call9.v1 main_call9.v2 (extui 32 · natLt_1_32),
    StableHlo.TRef.nullary main_call9.c_0 (constantI S_ 32 0#32),
    StableHlo.TRef.binary main_call9.v2 main_call9.c_0 main_call9.v3 (fun x v => Host.reduce IntOp.addi x v reducesTo_S64x64_S_d0_1 h_S_),
    StableHlo.nullary main_v27 (iotaInDim S4096 32 0),
    StableHlo.unary main_v26 main_v28 (broadcastInDim S4096 ![] bcast_S_S4096 : (⟨S_, .i32⟩ : BufTy).Contents (Elt F) → (⟨S4096, .i32⟩ : BufTy).Contents (Elt F)),
    StableHlo.binary main_v27 main_v28 main_v29 (cmpi .slt : (⟨S4096, .i32⟩ : BufTy).Contents (Elt F) → (⟨S4096, .i32⟩ : BufTy).Contents (Elt F) → (⟨S4096, .i1⟩ : BufTy).Contents (Elt F)) ]

/-- The buffers operations 108 … 130 write, in order. -/
abbrev wE_writes : List (Ref sig .tc) :=
  [main_v19, main_v20, main_c_9, main_v21, main_v22, main_v23, main_c_10, main_call7.v0.ref, main_call7.v1.ref, main_call7.v2.ref, main_c_11, main_call8.v0.ref, main_call8.v1.ref, main_call8.v2.ref, main_call9.c.ref, main_call9.v0.ref, main_call9.v1.ref, main_call9.v2.ref, main_call9.c_0.ref, main_call9.v3.ref, main_v27, main_v28, main_v29]

theorem wE_sub : (wE : List (HloOp τ sig (Elt F))).Forall fun op => op.bufs ⊆ tcRefs τ sig :=
  ⟨nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., binary_bufs_sub .., nullary_bufs_sub .., unary_bufs_sub .., binary_bufs_sub ..⟩

/-- Operations 131 … 152. -/
abbrev wF : List (HloOp τ sig (Elt F)) :=
  [ StableHlo.nullary main_v30 (iotaInDim S128 32 0),
    StableHlo.nullary main_c_12 (constantI S_ 32 64#32),
    StableHlo.unary main_c_12 main_v31 (broadcastInDim S128 ![] bcast_S_S128 : (⟨S_, .i32⟩ : BufTy).Contents (Elt F) → (⟨S128, .i32⟩ : BufTy).Contents (Elt F)),
    StableHlo.binary main_v30 main_v31 main_v32 (muli : (⟨S128, .i32⟩ : BufTy).Contents (Elt F) → (⟨S128, .i32⟩ : BufTy).Contents (Elt F) → (⟨S128, .i32⟩ : BufTy).Contents (Elt F)),
    StableHlo.unary main_v24 main_v33 (broadcastInDim S1x4096 ![1] bcast_S4096_S1x4096_1 : (⟨S4096, .i32⟩ : BufTy).Contents (Elt F) → (⟨S1x4096, .i32⟩ : BufTy).Contents (Elt F)),
    StableHlo.unary main_v32 main_v34 (broadcastInDim S128x1 ![0] bcast_S128_S128x1_0 : (⟨S128, .i32⟩ : BufTy).Contents (Elt F) → (⟨S128x1, .i32⟩ : BufTy).Contents (Elt F)),
    StableHlo.unary main_v33 main_v35 (broadcastInDim S128x4096 ![0, 1] bcast_S1x4096_S128x4096_0_1 : (⟨S1x4096, .i32⟩ : BufTy).Contents (Elt F) → (⟨S128x4096, .i32⟩ : BufTy).Contents (Elt F)),
    StableHlo.unary main_v34 main_v36 (broadcastInDim S128x4096 ![0, 1] bcast_S128x1_S128x4096_0_1 : (⟨S128x1, .i32⟩ : BufTy).Contents (Elt F) → (⟨S128x4096, .i32⟩ : BufTy).Contents (Elt F)),
    StableHlo.binary main_v35 main_v36 main_v37 (addi : (⟨S128x4096, .i32⟩ : BufTy).Contents (Elt F) → (⟨S128x4096, .i32⟩ : BufTy).Contents (Elt F) → (⟨S128x4096, .i32⟩ : BufTy).Contents (Elt F)),
    StableHlo.reshape main_v37 main_v38 rfl shapeCasts_S128x4096_S524288,
    StableHlo.unary main_v25 main_v39 (broadcastInDim S1x4096 ![1] bcast_S4096_S1x4096_1 : (⟨S4096, .i32⟩ : BufTy).Contents (Elt F) → (⟨S1x4096, .i32⟩ : BufTy).Contents (Elt F)),
    StableHlo.unary main_v32 main_v40 (broadcastInDim S128x1 ![0] bcast_S128_S128x1_0 : (⟨S128, .i32⟩ : BufTy).Contents (Elt F) → (⟨S128x1, .i32⟩ : BufTy).Contents (Elt F)),
    StableHlo.unary main_v39 main_v41 (broadcastInDim S128x4096 ![0, 1] bcast_S1x4096_S128x4096_0_1 : (⟨S1x4096, .i32⟩ : BufTy).Contents (Elt F) → (⟨S128x4096, .i32⟩ : BufTy).Contents (Elt F)),
    StableHlo.unary main_v40 main_v42 (broadcastInDim S128x4096 ![0, 1] bcast_S128x1_S128x4096_0_1 : (⟨S128x1, .i32⟩ : BufTy).Contents (Elt F) → (⟨S128x4096, .i32⟩ : BufTy).Contents (Elt F)),
    StableHlo.binary main_v41 main_v42 main_v43 (addi : (⟨S128x4096, .i32⟩ : BufTy).Contents (Elt F) → (⟨S128x4096, .i32⟩ : BufTy).Contents (Elt F) → (⟨S128x4096, .i32⟩ : BufTy).Contents (Elt F)),
    StableHlo.reshape main_v43 main_v44 rfl shapeCasts_S128x4096_S524288,
    StableHlo.unary main_v29 main_v45 (broadcastInDim S1x4096 ![1] bcast_S4096_S1x4096_1 : (⟨S4096, .i1⟩ : BufTy).Contents (Elt F) → (⟨S1x4096, .i1⟩ : BufTy).Contents (Elt F)),
    StableHlo.unary main_v45 main_v46 (broadcastInDim S128x4096 ![0, 1] bcast_S1x4096_S128x4096_0_1 : (⟨S1x4096, .i1⟩ : BufTy).Contents (Elt F) → (⟨S128x4096, .i1⟩ : BufTy).Contents (Elt F)),
    StableHlo.reshape main_v46 main_v47 rfl shapeCasts_S128x4096_S524288,
    StableHlo.nullary main_v48 (iotaInDim S8192 32 0),
    StableHlo.binary main_v38 main_v48 main_v49 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)),
    StableHlo.binary main_v44 main_v48 main_v50 ((fun a b => concatenate S532480 0 [⟨S524288, a⟩, ⟨S8192, b⟩] concatenates_S524288_S8192_S532480_d0) : (⟨S524288, .i32⟩ : BufTy).Contents (Elt F) → (⟨S8192, .i32⟩ : BufTy).Contents (Elt F) → (⟨S532480, .i32⟩ : BufTy).Contents (Elt F)) ]

/-- The buffers operations 131 … 152 write, in order. -/
abbrev wF_writes : List (Ref sig .tc) :=
  [main_v30, main_c_12, main_v31, main_v32, main_v33, main_v34, main_v35, main_v36, main_v37, main_v38, main_v39, main_v40, main_v41, main_v42, main_v43, main_v44, main_v45, main_v46, main_v47, main_v48, main_v49, main_v50]

theorem wF_sub : (wF : List (HloOp τ sig (Elt F))).Forall fun op => op.bufs ⊆ tcRefs τ sig :=
  ⟨nullary_bufs_sub .., nullary_bufs_sub .., unary_bufs_sub .., binary_bufs_sub .., unary_bufs_sub .., unary_bufs_sub .., unary_bufs_sub .., unary_bufs_sub .., binary_bufs_sub .., reshape_bufs_sub .., unary_bufs_sub .., unary_bufs_sub .., unary_bufs_sub .., unary_bufs_sub .., binary_bufs_sub .., reshape_bufs_sub .., unary_bufs_sub .., unary_bufs_sub .., reshape_bufs_sub .., nullary_bufs_sub .., binary_bufs_sub .., binary_bufs_sub ..⟩

/-- Operations 153 … 167. -/
abbrev wG : List (HloOp τ sig (Elt F)) :=
  [ StableHlo.unary main_v47 main_v51 (uitofp .f32 : (⟨S524288, .i1⟩ : BufTy).Contents (Elt F) → (⟨S524288, .f32⟩ : BufTy).Contents (Elt F)),
    StableHlo.nullary main_cst (constant S_ .f32 0x3F800000#32),
    StableHlo.unary main_cst main_v52 (broadcastInDim S8192 ![] bcast_S_S8192 : (⟨S_, .f32⟩ : BufTy).Contents (Elt F) → (⟨S8192, .f32⟩ : BufTy).Contents (Elt F)),
    StableHlo.binary main_v51 main_v52 main_v53 ((fun a b => concatenate S532480 0 [⟨S524288, a⟩, ⟨S8192, b⟩] concatenates_S524288_S8192_S532480_d0) : (⟨S524288, .f32⟩ : BufTy).Contents (Elt F) → (⟨S8192, .f32⟩ : BufTy).Contents (Elt F) → (⟨S532480, .f32⟩ : BufTy).Contents (Elt F)),
    StableHlo.nullary main_cst_13 (constant S_ .f32 0x00000000#32),
    StableHlo.unary main_cst_13 main_v54 (broadcastInDim S8192 ![] bcast_S_S8192 : (⟨S_, .f32⟩ : BufTy).Contents (Elt F) → (⟨S8192, .f32⟩ : BufTy).Contents (Elt F)),
    StableHlo.nullary main_c_14 (constantI S_ 32 0#32),
    StableHlo.unary main_c_14 main_v55 (broadcastInDim S532480 ![] bcast_S_S532480 : (⟨S_, .i32⟩ : BufTy).Contents (Elt F) → (⟨S532480, .i32⟩ : BufTy).Contents (Elt F)),
    StableHlo.binary main_v50 main_v55 main_v56 (cmpi .slt : (⟨S532480, .i32⟩ : BufTy).Contents (Elt F) → (⟨S532480, .i32⟩ : BufTy).Contents (Elt F) → (⟨S532480, .i1⟩ : BufTy).Contents (Elt F)),
    StableHlo.nullary main_c_15 (constantI S_ 32 8192#32),
    StableHlo.unary main_c_15 main_v57 (broadcastInDim S532480 ![] bcast_S_S532480 : (⟨S_, .i32⟩ : BufTy).Contents (Elt F) → (⟨S532480, .i32⟩ : BufTy).Contents (Elt F)),
    StableHlo.binary main_v50 main_v57 main_v58 (addi : (⟨S532480, .i32⟩ : BufTy).Contents (Elt F) → (⟨S532480, .i32⟩ : BufTy).Contents (Elt F) → (⟨S532480, .i32⟩ : BufTy).Contents (Elt F)),
    StableHlo.ternary main_v56 main_v58 main_v50 main_v59 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    StableHlo.unary main_v59 main_v60 (broadcastInDim S532480x1 ![0] bcast_S532480_S532480x1_0 : (⟨S532480, .i32⟩ : BufTy).Contents (Elt F) → (⟨S532480x1, .i32⟩ : BufTy).Contents (Elt F)),
    StableHlo.ternary main_v54 main_v60 main_v53 main_v61 ((fun x i u => Host.scatterAdd scatter_S8192_S532480x1_S532480_n_0_0_1 x i u) : (⟨S8192, .f32⟩ : BufTy).Contents (Elt F) → (⟨S532480x1, .i32⟩ : BufTy).Contents (Elt F) → (⟨S532480, .f32⟩ : BufTy).Contents (Elt F) → (⟨S8192, .f32⟩ : BufTy).Contents (Elt F)) ]

/-- The buffers operations 153 … 167 write, in order. -/
abbrev wG_writes : List (Ref sig .tc) :=
  [main_v51, main_cst, main_v52, main_v53, main_cst_13, main_v54, main_c_14, main_v55, main_v56, main_c_15, main_v57, main_v58, main_v59, main_v60, main_v61]

theorem wG_sub : (wG : List (HloOp τ sig (Elt F))).Forall fun op => op.bufs ⊆ tcRefs τ sig :=
  ⟨unary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

/-- Operations 168 … 178. -/
abbrev wH : List (HloOp τ sig (Elt F)) :=
  [ StableHlo.nullary main_cst_16 (constant S_ .f32 0x00000000#32),
    StableHlo.unary main_cst_16 main_v62 (broadcastInDim S8192 ![] bcast_S_S8192 : (⟨S_, .f32⟩ : BufTy).Contents (Elt F) → (⟨S8192, .f32⟩ : BufTy).Contents (Elt F)),
    StableHlo.binary main_v61 main_v62 main_v63 (cmpf .ogt : (⟨S8192, .f32⟩ : BufTy).Contents (Elt F) → (⟨S8192, .f32⟩ : BufTy).Contents (Elt F) → (⟨S8192, .i1⟩ : BufTy).Contents (Elt F)),
    StableHlo.nullary main_cst_17 (constant S_ .f32 0x2B8CBCCC#32),
    StableHlo.unary main_cst_17 main_v64 (broadcastInDim S8192 ![] bcast_S_S8192 : (⟨S_, .f32⟩ : BufTy).Contents (Elt F) → (⟨S8192, .f32⟩ : BufTy).Contents (Elt F)),
    StableHlo.binary main_v61 main_v64 main_v65 (maximumf : (⟨S8192, .f32⟩ : BufTy).Contents (Elt F) → (⟨S8192, .f32⟩ : BufTy).Contents (Elt F) → (⟨S8192, .f32⟩ : BufTy).Contents (Elt F)),
    StableHlo.unary main_v65 main_v66 (Host.rsqrt : (⟨S8192, .f32⟩ : BufTy).Contents (Elt F) → (⟨S8192, .f32⟩ : BufTy).Contents (Elt F)),
    StableHlo.nullary main_cst_18 (constant S_ .f32 0x00000000#32),
    StableHlo.TRef.unary (StableHlo.TRef.of main_cst_18 : StableHlo.TRef sig ⟨S_, .f32⟩) main_call10.v0 id,
    StableHlo.TRef.unary main_call10.v0 main_call10.v1 (broadcastInDim S8192 ![] bcast_S_S8192),
    StableHlo.TRef.ternary (StableHlo.TRef.of main_v63 : StableHlo.TRef sig ⟨S8192, .i1⟩) (StableHlo.TRef.of main_v66 : StableHlo.TRef sig ⟨S8192, .f32⟩) main_call10.v1 main_call10.v2 select ]

/-- The buffers operations 168 … 178 write, in order. -/
abbrev wH_writes : List (Ref sig .tc) :=
  [main_cst_16, main_v62, main_v63, main_cst_17, main_v64, main_v65, main_v66, main_cst_18, main_call10.v0.ref, main_call10.v1.ref, main_call10.v2.ref]

theorem wH_sub : (wH : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- Operations 179 … 198. -/
abbrev wI : List (HloOp τ sig (Elt F)) :=
  [ StableHlo.nullary main_c_19 (constantI S_ 32 0#32),
    StableHlo.unary main_c_19 main_v68 (broadcastInDim S532480 ![] bcast_S_S532480 : (⟨S_, .i32⟩ : BufTy).Contents (Elt F) → (⟨S532480, .i32⟩ : BufTy).Contents (Elt F)),
    StableHlo.binary main_v49 main_v68 main_v69 (cmpi .slt : (⟨S532480, .i32⟩ : BufTy).Contents (Elt F) → (⟨S532480, .i32⟩ : BufTy).Contents (Elt F) → (⟨S532480, .i1⟩ : BufTy).Contents (Elt F)),
    StableHlo.nullary main_c_20 (constantI S_ 32 8192#32),
    StableHlo.unary main_c_20 main_v70 (broadcastInDim S532480 ![] bcast_S_S532480 : (⟨S_, .i32⟩ : BufTy).Contents (Elt F) → (⟨S532480, .i32⟩ : BufTy).Contents (Elt F)),
    StableHlo.binary main_v49 main_v70 main_v71 (addi : (⟨S532480, .i32⟩ : BufTy).Contents (Elt F) → (⟨S532480, .i32⟩ : BufTy).Contents (Elt F) → (⟨S532480, .i32⟩ : BufTy).Contents (Elt F)),
    StableHlo.ternary main_v69 main_v71 main_v49 main_v72 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    StableHlo.unary main_v72 main_v73 (broadcastInDim S532480x1 ![0] bcast_S532480_S532480x1_0 : (⟨S532480, .i32⟩ : BufTy).Contents (Elt F) → (⟨S532480x1, .i32⟩ : BufTy).Contents (Elt F)),
    StableHlo.binary main_v67 main_v73 main_v74 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    StableHlo.nullary main_c_21 (constantI S_ 32 0#32),
    StableHlo.unary main_c_21 main_v75 (broadcastInDim S532480 ![] bcast_S_S532480 : (⟨S_, .i32⟩ : BufTy).Contents (Elt F) → (⟨S532480, .i32⟩ : BufTy).Contents (Elt F)),
    StableHlo.binary main_v50 main_v75 main_v76 (cmpi .slt : (⟨S532480, .i32⟩ : BufTy).Contents (Elt F) → (⟨S532480, .i32⟩ : BufTy).Contents (Elt F) → (⟨S532480, .i1⟩ : BufTy).Contents (Elt F)),
    StableHlo.nullary main_c_22 (constantI S_ 32 8192#32),
    StableHlo.unary main_c_22 main_v77 (broadcastInDim S532480 ![] bcast_S_S532480 : (⟨S_, .i32⟩ : BufTy).Contents (Elt F) → (⟨S532480, .i32⟩ : BufTy).Contents (Elt F)),
    StableHlo.binary main_v50 main_v77 main_v78 (addi : (⟨S532480, .i32⟩ : BufTy).Contents (Elt F) → (⟨S532480, .i32⟩ : BufTy).Contents (Elt F) → (⟨S532480, .i32⟩ : BufTy).Contents (Elt F)),
    StableHlo.ternary main_v76 main_v78 main_v50 main_v79 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    StableHlo.unary main_v79 main_v80 (broadcastInDim S532480x1 ![0] bcast_S532480_S532480x1_0 : (⟨S532480, .i32⟩ : BufTy).Contents (Elt F) → (⟨S532480x1, .i32⟩ : BufTy).Contents (Elt F)),
    StableHlo.binary main_v67 main_v80 main_v81 ((fun x i => Host.gather gather_S8192_S532480x1_S532480_n_0_n_n_0_1_1 x i) : (⟨S8192, .f32⟩ : BufTy).Contents (Elt F) → (⟨S532480x1, .i32⟩ : BufTy).Contents (Elt F) → (⟨S532480, .f32⟩ : BufTy).Contents (Elt F)),
    StableHlo.binary main_v74 main_v81 main_v82 (mulf : (⟨S532480, .f32⟩ : BufTy).Contents (Elt F) → (⟨S532480, .f32⟩ : BufTy).Contents (Elt F) → (⟨S532480, .f32⟩ : BufTy).Contents (Elt F)),
    StableHlo.binary main_v0 main_arg2 main_v83 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)) ]

/-- The buffers operations 179 … 198 write, in order. -/
abbrev wI_writes : List (Ref sig .tc) :=
  [main_c_19, main_v68, main_v69, main_c_20, main_v70, main_v71, main_v72, main_v73, main_v74, main_c_21, main_v75, main_v76, main_c_22, main_v77, main_v78, main_v79, main_v80, main_v81, main_v82, main_v83]

theorem wI_sub : (wI : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

/-- Operations 199 … 211. -/
abbrev wJ : List (HloOp τ sig (Elt F)) :=
  [ StableHlo.nullary main_c_23 (constantI S_ 32 0#32),
    StableHlo.unary main_c_23 main_v84 (broadcastInDim S532480 ![] bcast_S_S532480 : (⟨S_, .i32⟩ : BufTy).Contents (Elt F) → (⟨S532480, .i32⟩ : BufTy).Contents (Elt F)),
    StableHlo.binary main_v49 main_v84 main_v85 (cmpi .slt : (⟨S532480, .i32⟩ : BufTy).Contents (Elt F) → (⟨S532480, .i32⟩ : BufTy).Contents (Elt F) → (⟨S532480, .i1⟩ : BufTy).Contents (Elt F)),
    StableHlo.nullary main_c_24 (constantI S_ 32 8192#32),
    StableHlo.unary main_c_24 main_v86 (broadcastInDim S532480 ![] bcast_S_S532480 : (⟨S_, .i32⟩ : BufTy).Contents (Elt F) → (⟨S532480, .i32⟩ : BufTy).Contents (Elt F)),
    StableHlo.binary main_v49 main_v86 main_v87 (addi : (⟨S532480, .i32⟩ : BufTy).Contents (Elt F) → (⟨S532480, .i32⟩ : BufTy).Contents (Elt F) → (⟨S532480, .i32⟩ : BufTy).Contents (Elt F)),
    StableHlo.ternary main_v85 main_v87 main_v49 main_v88 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    StableHlo.unary main_v88 main_v89 (broadcastInDim S532480x1 ![0] bcast_S532480_S532480x1_0 : (⟨S532480, .i32⟩ : BufTy).Contents (Elt F) → (⟨S532480x1, .i32⟩ : BufTy).Contents (Elt F)),
    StableHlo.binary main_v83 main_v89 main_v90 ((fun x i => Host.gather gather_S8192x128_S532480x1_S532480x128_1_0_n_n_0_1_1128 x i) : (⟨S8192x128, .f32⟩ : BufTy).Contents (Elt F) → (⟨S532480x1, .i32⟩ : BufTy).Contents (Elt F) → (⟨S532480x128, .f32⟩ : BufTy).Contents (Elt F)),
    StableHlo.binary main_v82 main_v53 main_v91 (mulf : (⟨S532480, .f32⟩ : BufTy).Contents (Elt F) → (⟨S532480, .f32⟩ : BufTy).Contents (Elt F) → (⟨S532480, .f32⟩ : BufTy).Contents (Elt F)),
    StableHlo.unary main_v91 main_v92 (broadcastInDim S532480x1 ![0] bcast_S532480_S532480x1_0 : (⟨S532480, .f32⟩ : BufTy).Contents (Elt F) → (⟨S532480x1, .f32⟩ : BufTy).Contents (Elt F)),
    StableHlo.unary main_v92 main_v93 (broadcastInDim S532480x128 ![0, 1] bcast_S532480x1_S532480x128_0_1 : (⟨S532480x1, .f32⟩ : BufTy).Contents (Elt F) → (⟨S532480x128, .f32⟩ : BufTy).Contents (Elt F)),
    StableHlo.binary main_v90 main_v93 main_v94 (mulf : (⟨S532480x128, .f32⟩ : BufTy).Contents (Elt F) → (⟨S532480x128, .f32⟩ : BufTy).Contents (Elt F) → (⟨S532480x128, .f32⟩ : BufTy).Contents (Elt F)) ]

/-- The buffers operations 199 … 211 write, in order. -/
abbrev wJ_writes : List (Ref sig .tc) :=
  [main_c_23, main_v84, main_v85, main_c_24, main_v86, main_v87, main_v88, main_v89, main_v90, main_v91, main_v92, main_v93, main_v94]

theorem wJ_sub : (wJ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub ..⟩

/-- Operations 212 … 230. -/
abbrev wK : List (HloOp τ sig (Elt F)) :=
  [ StableHlo.nullary main_cst_25 (constant S_ .f32 0x00000000#32),
    StableHlo.unary main_cst_25 main_v95 (broadcastInDim S8192x128 ![] bcast_S_S8192x128 : (⟨S_, .f32⟩ : BufTy).Contents (Elt F) → (⟨S8192x128, .f32⟩ : BufTy).Contents (Elt F)),
    StableHlo.nullary main_c_26 (constantI S_ 32 0#32),
    StableHlo.unary main_c_26 main_v96 (broadcastInDim S532480 ![] bcast_S_S532480 : (⟨S_, .i32⟩ : BufTy).Contents (Elt F) → (⟨S532480, .i32⟩ : BufTy).Contents (Elt F)),
    StableHlo.binary main_v50 main_v96 main_v97 (cmpi .slt : (⟨S532480, .i32⟩ : BufTy).Contents (Elt F) → (⟨S532480, .i32⟩ : BufTy).Contents (Elt F) → (⟨S532480, .i1⟩ : BufTy).Contents (Elt F)),
    StableHlo.nullary main_c_27 (constantI S_ 32 8192#32),
    StableHlo.unary main_c_27 main_v98 (broadcastInDim S532480 ![] bcast_S_S532480 : (⟨S_, .i32⟩ : BufTy).Contents (Elt F) → (⟨S532480, .i32⟩ : BufTy).Contents (Elt F)),
    StableHlo.binary main_v50 main_v98 main_v99 (addi : (⟨S532480, .i32⟩ : BufTy).Contents (Elt F) → (⟨S532480, .i32⟩ : BufTy).Contents (Elt F) → (⟨S532480, .i32⟩ : BufTy).Contents (Elt F)),
    StableHlo.ternary main_v97 main_v99 main_v50 main_v100 (select : (⟨S532480, .i1⟩ : BufTy).Contents (Elt F) → (⟨S532480, .i32⟩ : BufTy).Contents (Elt F) → (⟨S532480, .i32⟩ : BufTy).Contents (Elt F) → (⟨S532480, .i32⟩ : BufTy).Contents (Elt F)),
    StableHlo.unary main_v100 main_v101 (broadcastInDim S532480x1 ![0] bcast_S532480_S532480x1_0 : (⟨S532480, .i32⟩ : BufTy).Contents (Elt F) → (⟨S532480x1, .i32⟩ : BufTy).Contents (Elt F)),
    StableHlo.ternary main_v95 main_v101 main_v94 main_v102 ((fun x i u => Host.scatterAdd scatter_S8192x128_S532480x1_S532480x128_1_0_0_1 x i u) : (⟨S8192x128, .f32⟩ : BufTy).Contents (Elt F) → (⟨S532480x1, .i32⟩ : BufTy).Contents (Elt F) → (⟨S532480x128, .f32⟩ : BufTy).Contents (Elt F) → (⟨S8192x128, .f32⟩ : BufTy).Contents (Elt F)),
    StableHlo.unary main_arg3 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S8192x128 ![0, 1] bcast_S1x128_S8192x128_0_1 : (⟨S1x128, .f32⟩ : BufTy).Contents (Elt F) → (⟨S8192x128, .f32⟩ : BufTy).Contents (Elt F)),
    StableHlo.binary main_v102 main_v104 main_v105 (addf : (⟨S8192x128, .f32⟩ : BufTy).Contents (Elt F) → (⟨S8192x128, .f32⟩ : BufTy).Contents (Elt F) → (⟨S8192x128, .f32⟩ : BufTy).Contents (Elt F)),
    StableHlo.TRef.nullary main_call11.cst (constant S_ .f32 0x00000000#32),
    StableHlo.TRef.unary main_call11.cst main_call11.v0 (broadcastInDim S8192x128 ![] bcast_S_S8192x128),
    StableHlo.TRef.binary (StableHlo.TRef.of main_v105 : StableHlo.TRef sig ⟨S8192x128, .f32⟩) main_call11.v0 main_call11.v1 maximumf,
    StableHlo.binary main_v106 main_v0 main_v107 (addf : (⟨S8192x128, .f32⟩ : BufTy).Contents (Elt F) → (⟨S8192x128, .f32⟩ : BufTy).Contents (Elt F) → (⟨S8192x128, .f32⟩ : BufTy).Contents (Elt F)),
    StableHlo.reshape main_v107 main_v108 rfl shapeCasts_S8192x128_S128x64x128 ]

/-- The buffers operations 212 … 230 write, in order. -/
abbrev wK_writes : List (Ref sig .tc) :=
  [main_cst_25, main_v95, main_c_26, main_v96, main_v97, main_c_27, main_v98, main_v99, main_v100, main_v101, main_v102, main_v103, main_v104, main_v105, main_call11.cst.ref, main_call11.v0.ref, main_call11.v1.ref, main_v107, main_v108]

theorem wK_sub : (wK : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub .., binary_bufs_sub .., reshape_bufs_sub ..⟩

/-- @main's 230 operations, in order. -/
abbrev ops : List (HloOp τ sig (Elt F)) :=
  wA ++ wB ++ wC1 ++ wC2 ++ wD1 ++ wD2 ++ wE ++ wF ++ wG ++ wH ++ wI ++ wJ ++ wK

end Cert.ReferenceIdeal.RefOps

end
-- ==== Proof.RefRunLib.lean ====
/-
  Shared facts about a straight line of host operations: the contents after two lines in a row, and that an
  operation whose written set is one buffer of a list writes inside the list.
-/
import Idealize.ShloMosaic.Lib.StableHlo.Run

noncomputable section

namespace Cert.ReferenceIdeal.RefRun

open Idealize.ShloMosaic Idealize.ShloMosaic.TcCoe Idealize.SL.Sem Idealize.ShloMosaic.StableHlo

variable {τ : Topo} {sig : RefSig} {Val : EltTy → Type}

/-- The contents after two lines in a row are the second line's after the first's. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- An operation whose written set is one listed buffer writes inside the list. -/
theorem writes_sub_of_mem {op : HloOp τ sig Val} {L : List (Ref sig .tc)} {y : Ref sig .tc}
    (h : op.writes = {Proc.devRef .tc y}) (hy : y ∈ L) :
    op.writes ⊆ (L.map (Proc.devRef (τ := τ) .tc)).toFinset := by
  rw [h, Finset.singleton_subset_iff, List.mem_toFinset]
  exact List.mem_map_of_mem hy

/-- Every operation of a literal list writes one buffer of a literal list: one case per operation. -/
macro "writes_listed" : tactic =>
  `(tactic| (rw [List.forall_iff_forall_mem]; intro op h
             (repeat (cases h with | head => exact writes_sub_of_mem rfl (by decide) | tail _ h => ?_))
             exact nomatch h))

/-- Every operation of a literal list determines its result: one case per operation. -/
macro "none_fresh" : tactic =>
  `(tactic| (intro _ h; (repeat (cases h with | head => rfl | tail _ h => ?_)); exact nomatch h))

end Cert.ReferenceIdeal.RefRun

end
-- ==== Proof.RefRunMain.lean ====
/-
  @main is a straight line.

  With the called functions' bodies written at their calls, @main is its 230 host operations run in order; each
  touches TensorCore buffers only and determines its result, and the signature scopes nothing.  So every weakly fair
  execution terminates and leaves every buffer at the fold of the operations' results over the launch contents.
-/
import proofs.«175083_g12077448036551_cont_sun_c4_50_15_alg».proof.Proof.RefOps
import proofs.«175083_g12077448036551_cont_sun_c4_50_15_alg».proof.Proof.RefRunLib

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

theorem wA_fresh : ∀ op ∈ (wA : List (HloOp τ sig (Elt F))), op.fresh = ∅ := by none_fresh
theorem wB_fresh : ∀ op ∈ (wB : List (HloOp τ sig (Elt F))), op.fresh = ∅ := by none_fresh
theorem wC1_fresh : ∀ op ∈ (wC1 : List (HloOp τ sig (Elt F))), op.fresh = ∅ := by none_fresh
theorem wC2_fresh : ∀ op ∈ (wC2 : List (HloOp τ sig (Elt F))), op.fresh = ∅ := by none_fresh
theorem wD1_fresh : ∀ op ∈ (wD1 : List (HloOp τ sig (Elt F))), op.fresh = ∅ := by none_fresh
theorem wD2_fresh : ∀ op ∈ (wD2 : List (HloOp τ sig (Elt F))), op.fresh = ∅ := by none_fresh
theorem wE_fresh : ∀ op ∈ (wE : List (HloOp τ sig (Elt F))), op.fresh = ∅ := by none_fresh
theorem wF_fresh : ∀ op ∈ (wF : List (HloOp τ sig (Elt F))), op.fresh = ∅ := by none_fresh
theorem wG_fresh : ∀ op ∈ (wG : List (HloOp τ sig (Elt F))), op.fresh = ∅ := by none_fresh
theorem wH_fresh : ∀ op ∈ (wH : List (HloOp τ sig (Elt F))), op.fresh = ∅ := by none_fresh
theorem wI_fresh : ∀ op ∈ (wI : List (HloOp τ sig (Elt F))), op.fresh = ∅ := by none_fresh
theorem wJ_fresh : ∀ op ∈ (wJ : List (HloOp τ sig (Elt F))), op.fresh = ∅ := by none_fresh
theorem wK_fresh : ∀ op ∈ (wK : List (HloOp τ sig (Elt F))), op.fresh = ∅ := by none_fresh

/-- The whole line touches TensorCore references only. -/
theorem ops_sub : (ops : List (HloOp τ sig (Elt F))).Forall fun op => op.bufs ⊆ tcRefs τ sig := by
  have hA := List.forall_iff_forall_mem.mp (wA_sub (F := F))
  have hB := List.forall_iff_forall_mem.mp (wB_sub (F := F))
  have hC1 := List.forall_iff_forall_mem.mp (wC1_sub (F := F))
  have hC2 := List.forall_iff_forall_mem.mp (wC2_sub (F := F))
  have hD1 := List.forall_iff_forall_mem.mp (wD1_sub (F := F))
  have hD2 := List.forall_iff_forall_mem.mp (wD2_sub (F := F))
  have hE := List.forall_iff_forall_mem.mp (wE_sub (F := F))
  have hF := List.forall_iff_forall_mem.mp (wF_sub (F := F))
  have hG := List.forall_iff_forall_mem.mp (wG_sub (F := F))
  have hH := List.forall_iff_forall_mem.mp (wH_sub (F := F))
  have hI := List.forall_iff_forall_mem.mp (wI_sub (F := F))
  have hJ := List.forall_iff_forall_mem.mp (wJ_sub (F := F))
  have hK := List.forall_iff_forall_mem.mp (wK_sub (F := F))
  rw [List.forall_iff_forall_mem]
  simp only [ops, List.mem_append]
  rintro op ((((((((((((h | h) | h) | h) | h) | h) | h) | h) | h) | h) | h) | h) | h)
  exacts [hA op h, hB op h, hC1 op h, hC2 op h, hD1 op h, hD2 op h, hE op h, hF op h, hG op h, hH op h, hI op h, hJ op h, hK op h]

/-- No operation of the whole line leaves its result undetermined. -/
theorem ops_fresh : ∀ op ∈ (ops : List (HloOp τ sig (Elt F))), op.fresh = ∅ := by
  simp only [ops, List.mem_append]
  rintro op ((((((((((((h | h) | h) | h) | h) | h) | h) | h) | h) | h) | h) | h) | h)
  exacts [wA_fresh op h, wB_fresh op h, wC1_fresh op h, wC2_fresh op h, wD1_fresh op h, wD2_fresh op h, wE_fresh op h, wF_fresh op h, wG_fresh op h, wH_fresh op h, wI_fresh op h, wJ_fresh op h, wK_fresh op h]

theorem scopedRefs_eq : (Finset.univ.filter fun b : Ref sig .tc => b.isScoped) = ∅ := by decide
theorem scopedSems_eq : (Finset.univ.filter fun sm : SemLoc sig => sm.isScoped .tc) = ∅ := by decide

-- the chain of 230 binds is re-associated under one rewrite per statement
set_option maxRecDepth 65536 in
set_option maxHeartbeats 20000000 in
/-- @main is that straight line: the three parts and the functions' definitions unfolded at their calls, both sides
    are one chain of host steps once sequencing is re-associated. -/
theorem main_eq (c : Dev nD) : main (F := F) c = seq ops := by
  simp only [main, main_part0, main_part1, main_part2, fn_cumsum.body, fn_cumsum_0.body, fn_clip.body, fn_cumsum_1.body,
    fn_where.body, fn_floor_divide.body, fn_where_2.body, fn_remainder.body, fn_where_3.body, fn_count_nonzero.body,
    fn_where_4.body, fn_relu.body, ops, wA, wB, wC1, wC2, wD1, wD2, wE, wF, wG, wH, wI, wJ, wK, seq_append, seq, bind_assoc, pure_bind]

/-- From any memory with zero counters every weakly fair execution of @main terminates, and each TensorCore buffer
    ends at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRunW1.lean ====
/-
  The first two stretches of the reference program: the nonzero mask of the adjacency with its running count, and
  the flat positions of the nonzero entries (the counts of positions per running-count value, summed along).
-/
import proofs.«175083_g12077448036551_cont_sun_c4_50_15_alg».proof.Proof.RefOps
import proofs.«175083_g12077448036551_cont_sun_c4_50_15_alg».proof.Proof.RefFn
import proofs.«175083_g12077448036551_cont_sun_c4_50_15_alg».proof.Proof.RefRunLib

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-- Each operation of the stretch writes one of its listed buffers. -/
theorem wA_hW : (wA : List (HloOp τ sig (Elt F))).Forall fun op =>
    op.writes ⊆ (wA_writes.map (Proc.devRef (τ := τ) .tc)).toFinset := by writes_listed
/-- A buffer outside the list holds after the stretch what it held before. -/
theorem wA_frame {r : Ref sig .tc} (W : Valuation τ sig (Elt F)) (hr : r ∉ wA_writes) :
    after wA W (Proc.devRef .tc r) = W (Proc.devRef .tc r) := after_of_writes_sub wA W wA_hW hr

/-- Each operation of the stretch writes one of its listed buffers. -/
theorem wB_hW : (wB : List (HloOp τ sig (Elt F))).Forall fun op =>
    op.writes ⊆ (wB_writes.map (Proc.devRef (τ := τ) .tc)).toFinset := by writes_listed
/-- A buffer outside the list holds after the stretch what it held before. -/
theorem wB_frame {r : Ref sig .tc} (W : Valuation τ sig (Elt F)) (hr : r ∉ wB_writes) :
    after wB W (Proc.devRef .tc r) = W (Proc.devRef .tc r) := after_of_writes_sub wB W wB_hW hr

section
-- the folds over whole arrays stay closed while a stretch's operations are composed: the two sides agree as written
attribute [local irreducible] Host.reduceWindow Host.reduce Host.scatter Host.scatterAdd Host.gather concatenate shapeCast
  broadcastInDim iotaInDim

/-- The node features as an 8192 × 128 matrix. -/
theorem wA_v0 (W : Valuation τ sig (Elt F)) :
    after wA W (main_v0 : DevRef τ sig) = RefFn.xFlat (F := F) (W (main_arg0 : DevRef τ sig)) := by
  simp only [after_cons, after_nil]
  rfl

/-- Where the adjacency is nonzero. -/
theorem wA_v2 (W : Valuation τ sig (Elt F)) :
    after wA W (main_v2 : DevRef τ sig) = RefFn.nzMask (W (main_arg1 : DevRef τ sig)) := by
  simp only [after_cons, after_nil]
  rfl

/-- The running count of nonzero entries. -/
theorem wA_v3 (W : Valuation τ sig (Elt F)) :
    after wA W (main_v3 : DevRef τ sig) = RefFn.cum1 (W (main_arg1 : DevRef τ sig)) := by
  simp only [after_cons, after_nil]
  rfl

/-- The running sum of the counts per running-count value. -/
theorem wB_v14 (W : Valuation τ sig (Elt F)) :
    after wB W (main_v14 : DevRef τ sig) = RefFn.csum (RefFn.bins (W (main_v3 : DevRef τ sig))) := by
  simp only [after_cons, after_nil]
  rfl

end

end Cert.ReferenceIdeal.RefRun

end
-- ==== Proof.RefRunW2.lean ====
/-
  The third to sixth stretches of the reference program: the flat position of each nonzero entry divided by 64 (jnp's
  floor division) and that quotient modulo 64 (jnp's remainder): its row; and the same with the division by 1: its column.
-/
import proofs.«175083_g12077448036551_cont_sun_c4_50_15_alg».proof.Proof.RefOps
import proofs.«175083_g12077448036551_cont_sun_c4_50_15_alg».proof.Proof.RefFn
import proofs.«175083_g12077448036551_cont_sun_c4_50_15_alg».proof.Proof.RefRunLib

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-- Each operation of the stretch writes one of its listed buffers. -/
theorem wC1_hW : (wC1 : List (HloOp τ sig (Elt F))).Forall fun op =>
    op.writes ⊆ (wC1_writes.map (Proc.devRef (τ := τ) .tc)).toFinset := by writes_listed
/-- A buffer outside the list holds after the stretch what it held before. -/
theorem wC1_frame {r : Ref sig .tc} (W : Valuation τ sig (Elt F)) (hr : r ∉ wC1_writes) :
    after wC1 W (Proc.devRef .tc r) = W (Proc.devRef .tc r) := after_of_writes_sub wC1 W wC1_hW hr

/-- Each operation of the stretch writes one of its listed buffers. -/
theorem wC2_hW : (wC2 : List (HloOp τ sig (Elt F))).Forall fun op =>
    op.writes ⊆ (wC2_writes.map (Proc.devRef (τ := τ) .tc)).toFinset := by writes_listed
/-- A buffer outside the list holds after the stretch what it held before. -/
theorem wC2_frame {r : Ref sig .tc} (W : Valuation τ sig (Elt F)) (hr : r ∉ wC2_writes) :
    after wC2 W (Proc.devRef .tc r) = W (Proc.devRef .tc r) := after_of_writes_sub wC2 W wC2_hW hr

/-- Each operation of the stretch writes one of its listed buffers. -/
theorem wD1_hW : (wD1 : List (HloOp τ sig (Elt F))).Forall fun op =>
    op.writes ⊆ (wD1_writes.map (Proc.devRef (τ := τ) .tc)).toFinset := by writes_listed
/-- A buffer outside the list holds after the stretch what it held before. -/
theorem wD1_frame {r : Ref sig .tc} (W : Valuation τ sig (Elt F)) (hr : r ∉ wD1_writes) :
    after wD1 W (Proc.devRef .tc r) = W (Proc.devRef .tc r) := after_of_writes_sub wD1 W wD1_hW hr

/-- Each operation of the stretch writes one of its listed buffers. -/
theorem wD2_hW : (wD2 : List (HloOp τ sig (Elt F))).Forall fun op =>
    op.writes ⊆ (wD2_writes.map (Proc.devRef (τ := τ) .tc)).toFinset := by writes_listed
/-- A buffer outside the list holds after the stretch what it held before. -/
theorem wD2_frame {r : Ref sig .tc} (W : Valuation τ sig (Elt F)) (hr : r ∉ wD2_writes) :
    after wD2 W (Proc.devRef .tc r) = W (Proc.devRef .tc r) := after_of_writes_sub wD2 W wD2_hW hr

section
-- the folds over whole arrays stay closed while a stretch's operations are composed: the two sides agree as written
attribute [local irreducible] Host.reduceWindow Host.reduce Host.scatter Host.scatterAdd Host.gather concatenate shapeCast
  broadcastInDim iotaInDim

/-- The floor quotient by 64. -/
theorem wC1_v15 (W : Valuation τ sig (Elt F)) :
    after wC1 W (main_v15 : DevRef τ sig) = RefFn.floorDiv (W (main_v14 : DevRef τ sig)) (constantI S_ 32 64#32) := by
  simp only [after_cons, after_nil]
  rfl

/-- The remainder by 64. -/
theorem wC2_v16 (W : Valuation τ sig (Elt F)) :
    after wC2 W (main_v16 : DevRef τ sig) = RefFn.remW (W (main_v15 : DevRef τ sig)) (constantI S_ 32 64#32) := by
  simp only [after_cons, after_nil]
  rfl

/-- The floor quotient by 1. -/
theorem wD1_v17 (W : Valuation τ sig (Elt F)) :
    after wD1 W (main_v17 : DevRef τ sig) = RefFn.floorDiv (W (main_v14 : DevRef τ sig)) (constantI S_ 32 1#32) := by
  simp only [after_cons, after_nil]
  rfl

/-- The remainder by 64. -/
theorem wD2_v18 (W : Valuation τ sig (Elt F)) :
    after wD2 W (main_v18 : DevRef τ sig) = RefFn.remW (W (main_v17 : DevRef τ sig)) (constantI S_ 32 64#32) := by
  simp only [after_cons, after_nil]
  rfl

end

end Cert.ReferenceIdeal.RefRun

end
-- ==== Proof.RefRunW3.lean ====
/-
  The seventh to ninth stretches of the reference program: the fill of rows and columns past the last nonzero entry and
  the validity bits; the edge list of all 128 copies with one self loop per node (sources, targets, the validity bits
  spread over the copies); the weights and their sums at the targets (the degrees).
-/
import proofs.«175083_g12077448036551_cont_sun_c4_50_15_alg».proof.Proof.RefOps
import proofs.«175083_g12077448036551_cont_sun_c4_50_15_alg».proof.Proof.RefFn
import proofs.«175083_g12077448036551_cont_sun_c4_50_15_alg».proof.Proof.RefRunLib

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-- Each operation of the stretch writes one of its listed buffers. -/
theorem wE_hW : (wE : List (HloOp τ sig (Elt F))).Forall fun op =>
    op.writes ⊆ (wE_writes.map (Proc.devRef (τ := τ) .tc)).toFinset := by writes_listed
/-- A buffer outside the list holds after the stretch what it held before. -/
theorem wE_frame {r : Ref sig .tc} (W : Valuation τ sig (Elt F)) (hr : r ∉ wE_writes) :
    after wE W (Proc.devRef .tc r) = W (Proc.devRef .tc r) := after_of_writes_sub wE W wE_hW hr

/-- Each operation of the stretch writes one of its listed buffers. -/
theorem wF_hW : (wF : List (HloOp τ sig (Elt F))).Forall fun op =>
    op.writes ⊆ (wF_writes.map (Proc.devRef (τ := τ) .tc)).toFinset := by writes_listed
/-- A buffer outside the list holds after the stretch what it held before. -/
theorem wF_frame {r : Ref sig .tc} (W : Valuation τ sig (Elt F)) (hr : r ∉ wF_writes) :
    after wF W (Proc.devRef .tc r) = W (Proc.devRef .tc r) := after_of_writes_sub wF W wF_hW hr

/-- Each operation of the stretch writes one of its listed buffers. -/
theorem wG_hW : (wG : List (HloOp τ sig (Elt F))).Forall fun op =>
    op.writes ⊆ (wG_writes.map (Proc.devRef (τ := τ) .tc)).toFinset := by writes_listed
/-- A buffer outside the list holds after the stretch what it held before. -/
theorem wG_frame {r : Ref sig .tc} (W : Valuation τ sig (Elt F)) (hr : r ∉ wG_writes) :
    after wG W (Proc.devRef .tc r) = W (Proc.devRef .tc r) := after_of_writes_sub wG W wG_hW hr

/-- Positions from the number of set bits of a 64 × 64 mask on. -/
def fillOf (mk : IVec S64x64 1) : IVec S4096 1 :=
  cmpi .sge (iotaInDim S4096 32 0)
    (broadcastInDim S4096 ![] bcast_S_S4096
      (Host.reduce IntOp.addi (extui 32 mk natLt_1_32) (constantI S_ 32 0#32) reducesTo_S64x64_S_d0_1 h_S_))

/-- Weights from the spread validity bits: the bit as a float, then 1 for every self loop. -/
def wOf (vm : IVec S524288 1) : FVec F S532480 .f32 :=
  concatenate S532480 0 [⟨S524288, uitofp (F := F) .f32 vm⟩, ⟨S8192, RefFn.splatN (F := F) 0x3F800000#32⟩]
    concatenates_S524288_S8192_S532480_d0

/-- The weights summed at the targets. -/
def degOf (t : IVec S532480 32) (w : FVec F S532480 .f32) : FVec F S8192 .f32 :=
  Host.scatterAdd scatter_S8192_S532480x1_S532480_n_0_0_1 (RefFn.splatN (F := F) 0x00000000#32) (RefFn.wrapIdx t) w

section
-- the folds over whole arrays stay closed while a stretch's operations are composed: the two sides agree as written
attribute [local irreducible] Host.reduceWindow Host.reduce Host.scatter Host.scatterAdd Host.gather concatenate shapeCast
  broadcastInDim iotaInDim

/-- Rows, 0 past the last nonzero entry. -/
theorem wE_v24 (W : Valuation τ sig (Elt F)) :
    after wE W (main_v24 : DevRef τ sig) = select (fillOf (W (main_v2 : DevRef τ sig))) (RefFn.splat4096 0#32) (W (main_v16 : DevRef τ sig)) := by
  simp only [after_cons, after_nil]
  rfl

/-- Columns, 0 past the last nonzero entry. -/
theorem wE_v25 (W : Valuation τ sig (Elt F)) :
    after wE W (main_v25 : DevRef τ sig) = select (fillOf (W (main_v2 : DevRef τ sig))) (RefFn.splat4096 0#32) (W (main_v18 : DevRef τ sig)) := by
  simp only [after_cons, after_nil]
  rfl

/-- Positions below the number of nonzero entries. -/
theorem wE_v29 (W : Valuation τ sig (Elt F)) :
    after wE W (main_v29 : DevRef τ sig) = RefFn.validM (W (main_arg1 : DevRef τ sig)) := by
  simp only [after_cons, after_nil]
  rfl

/-- Sources of all copies, then the self loops. -/
theorem wF_v49 (W : Valuation τ sig (Elt F)) :
    after wF W (main_v49 : DevRef τ sig) = RefFn.withLoops (RefFn.spread (W (main_v24 : DevRef τ sig))) := by
  simp only [after_cons, after_nil]
  rfl

/-- Targets of all copies, then the self loops. -/
theorem wF_v50 (W : Valuation τ sig (Elt F)) :
    after wF W (main_v50 : DevRef τ sig) = RefFn.withLoops (RefFn.spread (W (main_v25 : DevRef τ sig))) := by
  simp only [after_cons, after_nil]
  rfl

/-- The validity bits of all copies. -/
theorem wF_v47 (W : Valuation τ sig (Elt F)) :
    after wF W (main_v47 : DevRef τ sig) = RefFn.spreadM (W (main_v29 : DevRef τ sig)) := by
  simp only [after_cons, after_nil]
  rfl

/-- The weights. -/
theorem wG_v53 (W : Valuation τ sig (Elt F)) :
    after wG W (main_v53 : DevRef τ sig) = wOf (F := F) (W (main_v47 : DevRef τ sig)) := by
  simp only [after_cons, after_nil]
  rfl

/-- The degrees. -/
theorem wG_v61 (W : Valuation τ sig (Elt F)) :
    after wG W (main_v61 : DevRef τ sig) = degOf (F := F) (W (main_v50 : DevRef τ sig)) (wOf (F := F) (W (main_v47 : DevRef τ sig))) := by
  simp only [after_cons, after_nil]
  rfl

end

end Cert.ReferenceIdeal.RefRun

end
-- ==== Proof.RefRunW4.lean ====
/-
  The last four stretches of the reference program: the reciprocal square roots of the degrees; per edge the product
  of both ends' and the product x · W; the messages; their sums at the targets with bias, maximum with 0 and residual.
-/
import proofs.«175083_g12077448036551_cont_sun_c4_50_15_alg».proof.Proof.RefOps
import proofs.«175083_g12077448036551_cont_sun_c4_50_15_alg».proof.Proof.RefFn
import proofs.«175083_g12077448036551_cont_sun_c4_50_15_alg».proof.Proof.RefRunLib

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-- Each operation of the stretch writes one of its listed buffers. -/
theorem wH_hW : (wH : List (HloOp τ sig (Elt F))).Forall fun op =>
    op.writes ⊆ (wH_writes.map (Proc.devRef (τ := τ) .tc)).toFinset := by writes_listed
/-- A buffer outside the list holds after the stretch what it held before. -/
theorem wH_frame {r : Ref sig .tc} (W : Valuation τ sig (Elt F)) (hr : r ∉ wH_writes) :
    after wH W (Proc.devRef .tc r) = W (Proc.devRef .tc r) := after_of_writes_sub wH W wH_hW hr

/-- Each operation of the stretch writes one of its listed buffers. -/
theorem wI_hW : (wI : List (HloOp τ sig (Elt F))).Forall fun op =>
    op.writes ⊆ (wI_writes.map (Proc.devRef (τ := τ) .tc)).toFinset := by writes_listed
/-- A buffer outside the list holds after the stretch what it held before. -/
theorem wI_frame {r : Ref sig .tc} (W : Valuation τ sig (Elt F)) (hr : r ∉ wI_writes) :
    after wI W (Proc.devRef .tc r) = W (Proc.devRef .tc r) := after_of_writes_sub wI W wI_hW hr

/-- Each operation of the stretch writes one of its listed buffers. -/
theorem wJ_hW : (wJ : List (HloOp τ sig (Elt F))).Forall fun op =>
    op.writes ⊆ (wJ_writes.map (Proc.devRef (τ := τ) .tc)).toFinset := by writes_listed
/-- A buffer outside the list holds after the stretch what it held before. -/
theorem wJ_frame {r : Ref sig .tc} (W : Valuation τ sig (Elt F)) (hr : r ∉ wJ_writes) :
    after wJ W (Proc.devRef .tc r) = W (Proc.devRef .tc r) := after_of_writes_sub wJ W wJ_hW hr

/-- Each operation of the stretch writes one of its listed buffers. -/
theorem wK_hW : (wK : List (HloOp τ sig (Elt F))).Forall fun op =>
    op.writes ⊆ (wK_writes.map (Proc.devRef (τ := τ) .tc)).toFinset := by writes_listed
/-- A buffer outside the list holds after the stretch what it held before. -/
theorem wK_frame {r : Ref sig .tc} (W : Valuation τ sig (Elt F)) (hr : r ∉ wK_writes) :
    after wK W (Proc.devRef .tc r) = W (Proc.devRef .tc r) := after_of_writes_sub wK W wK_hW hr

/-- d^(-1/2) where d is positive, else 0. -/
def disOf (d : FVec F S8192 .f32) : FVec F S8192 .f32 :=
  select (cmpf .ogt d (RefFn.splatN (F := F) 0x00000000#32))
    (Host.rsqrt (maximumf d (RefFn.splatN (F := F) 0x2B8CBCCC#32)))
    (RefFn.splatN (F := F) 0x00000000#32)

/-- Per edge, the product of the node values at its source and at its target. -/
def normOf (d : FVec F S8192 .f32) (s t : IVec S532480 32) : FVec F S532480 .f32 :=
  mulf (Host.gather gather_S8192_S532480x1_S532480_n_0_n_n_0_1_1 d (RefFn.wrapIdx s))
       (Host.gather gather_S8192_S532480x1_S532480_n_0_n_n_0_1_1 d (RefFn.wrapIdx t))

/-- Per edge and feature, the row of xw at the source scaled by the edge's factor nw · w. -/
def msgOf (xw : FVec F S8192x128 .f32) (s : IVec S532480 32) (nw w : FVec F S532480 .f32) : FVec F S532480x128 .f32 :=
  mulf (Host.gather gather_S8192x128_S532480x1_S532480x128_1_0_n_n_0_1_1128 xw (RefFn.wrapIdx s))
       (broadcastInDim S532480x128 ![0, 1] bcast_S532480x1_S532480x128_0_1
         (broadcastInDim S532480x1 ![0] bcast_S532480_S532480x1_0 (mulf nw w)))

/-- The messages summed at the targets, the bias added, the maximum with 0, the residual added, at 128 × 64 × 128. -/
def resOf (t : IVec S532480 32) (msg : FVec F S532480x128 .f32) (b : FVec F S128 .f32) (xf : FVec F S8192x128 .f32) :
    FVec F S128x64x128 .f32 :=
  shapeCast S128x64x128
    (addf (maximumf (addf (Host.scatterAdd scatter_S8192x128_S532480x1_S532480x128_1_0_0_1
                (broadcastInDim S8192x128 ![] bcast_S_S8192x128 (constant S_ .f32 0x00000000#32)) (RefFn.wrapIdx t) msg)
              (broadcastInDim S8192x128 ![0, 1] bcast_S1x128_S8192x128_0_1 (broadcastInDim S1x128 ![1] bcast_S128_S1x128_1 b)))
            (broadcastInDim S8192x128 ![] bcast_S_S8192x128 (constant S_ .f32 0x00000000#32)))
          xf)
    shapeCasts_S8192x128_S128x64x128

section
-- the folds over whole arrays stay closed while a stretch's operations are composed: the two sides agree as written
attribute [local irreducible] Host.reduceWindow Host.reduce Host.scatter Host.scatterAdd Host.gather concatenate shapeCast
  broadcastInDim iotaInDim

/-- The reciprocal square roots of the degrees. -/
theorem wH_v67 (W : Valuation τ sig (Elt F)) :
    after wH W (main_v67 : DevRef τ sig) = disOf (F := F) (W (main_v61 : DevRef τ sig)) := by
  simp only [after_cons, after_nil]
  rfl

/-- Per edge, the product of both ends' values. -/
theorem wI_v82 (W : Valuation τ sig (Elt F)) :
    after wI W (main_v82 : DevRef τ sig) = normOf (F := F) (W (main_v67 : DevRef τ sig)) (W (main_v49 : DevRef τ sig)) (W (main_v50 : DevRef τ sig)) := by
  simp only [after_cons, after_nil]
  rfl

/-- The product of the flattened features with the weight matrix. -/
theorem wI_v83 (W : Valuation τ sig (Elt F)) :
    after wI W (main_v83 : DevRef τ sig) = Host.dotGeneral (F := F) dot_S8192x128_S128x128_S8192x128_1_0_0_1_n_n none (W (main_v0 : DevRef τ sig)) (W (main_arg2 : DevRef τ sig)) := by
  simp only [after_cons, after_nil]
  rfl

/-- The messages. -/
theorem wJ_v94 (W : Valuation τ sig (Elt F)) :
    after wJ W (main_v94 : DevRef τ sig) = msgOf (F := F) (W (main_v83 : DevRef τ sig)) (W (main_v49 : DevRef τ sig)) (W (main_v82 : DevRef τ sig)) (W (main_v53 : DevRef τ sig)) := by
  simp only [after_cons, after_nil]
  rfl

/-- The result. -/
theorem wK_v108 (W : Valuation τ sig (Elt F)) :
    after wK W (main_v108 : DevRef τ sig) = resOf (F := F) (W (main_v50 : DevRef τ sig)) (W (main_v94 : DevRef τ sig)) (W (main_arg3 : DevRef τ sig)) (W (main_v0 : DevRef τ sig)) := by
  simp only [after_cons, after_nil]
  rfl

end

end Cert.ReferenceIdeal.RefRun

end
-- ==== Proof.RefRun.lean ====
/-
  The reference program's run.

  @main is a straight line of host operations once the functions it calls are unfolded at their calls: every weakly
  fair execution terminates without a fault, leaves the four argument arrays as they were, and leaves in the result
  buffer the composition of the operations applied to the arguments, which is `RefFn.res`.

  The line is read in thirteen stretches.  After each, every buffer a later stretch reads is a named function of the
  arguments: the buffers the stretch writes by composing its operations on what the stretches before left, the others
  because the stretch does not write them.
-/
import proofs.«175083_g12077448036551_cont_sun_c4_50_15_alg».proof.Proof.RefFn
import proofs.«175083_g12077448036551_cont_sun_c4_50_15_alg».proof.Proof.Gen.ReferenceIdeal
import Idealize.ShloMosaic.Lib.StableHlo.Run
import proofs.«175083_g12077448036551_cont_sun_c4_50_15_alg».proof.Proof.RefOps
import proofs.«175083_g12077448036551_cont_sun_c4_50_15_alg».proof.Proof.RefRunLib
import proofs.«175083_g12077448036551_cont_sun_c4_50_15_alg».proof.Proof.RefRunMain
import proofs.«175083_g12077448036551_cont_sun_c4_50_15_alg».proof.Proof.RefRunW1
import proofs.«175083_g12077448036551_cont_sun_c4_50_15_alg».proof.Proof.RefRunW2
import proofs.«175083_g12077448036551_cont_sun_c4_50_15_alg».proof.Proof.RefRunW3
import proofs.«175083_g12077448036551_cont_sun_c4_50_15_alg».proof.Proof.RefRunW4

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-! ## The contents after each stretch -/

/-- The buffers' contents after the first stretch, the first two, … , all thirteen. -/
def VA (V : Valuation τ sig (Elt F)) : Valuation τ sig (Elt F) := after wA V
def VB (V : Valuation τ sig (Elt F)) : Valuation τ sig (Elt F) := after wB (VA V)
def VC1 (V : Valuation τ sig (Elt F)) : Valuation τ sig (Elt F) := after wC1 (VB V)
def VC2 (V : Valuation τ sig (Elt F)) : Valuation τ sig (Elt F) := after wC2 (VC1 V)
def VD1 (V : Valuation τ sig (Elt F)) : Valuation τ sig (Elt F) := after wD1 (VC2 V)
def VD2 (V : Valuation τ sig (Elt F)) : Valuation τ sig (Elt F) := after wD2 (VD1 V)
def VE (V : Valuation τ sig (Elt F)) : Valuation τ sig (Elt F) := after wE (VD2 V)
def VF (V : Valuation τ sig (Elt F)) : Valuation τ sig (Elt F) := after wF (VE V)
def VG (V : Valuation τ sig (Elt F)) : Valuation τ sig (Elt F) := after wG (VF V)
def VH (V : Valuation τ sig (Elt F)) : Valuation τ sig (Elt F) := after wH (VG V)
def VI (V : Valuation τ sig (Elt F)) : Valuation τ sig (Elt F) := after wI (VH V)
def VJ (V : Valuation τ sig (Elt F)) : Valuation τ sig (Elt F) := after wJ (VI V)
def VK (V : Valuation τ sig (Elt F)) : Valuation τ sig (Elt F) := after wK (VJ V)

/-- A buffer no stretch so far writes holds what it held at the start. -/
theorem keptA {r : Ref sig .tc} (V : Valuation τ sig (Elt F)) (h : r ∉ wA_writes) :
    VA V (Proc.devRef .tc r) = V (Proc.devRef .tc r) := wA_frame V h
theorem keptB {r : Ref sig .tc} (V : Valuation τ sig (Elt F)) (h : (r ∉ wA_writes) ∧ r ∉ wB_writes) :
    VB V (Proc.devRef .tc r) = V (Proc.devRef .tc r) := (wB_frame (VA V) h.2).trans (keptA V h.1)
theorem keptC1 {r : Ref sig .tc} (V : Valuation τ sig (Elt F)) (h : ((r ∉ wA_writes) ∧ r ∉ wB_writes) ∧ r ∉ wC1_writes) :
    VC1 V (Proc.devRef .tc r) = V (Proc.devRef .tc r) := (wC1_frame (VB V) h.2).trans (keptB V h.1)
theorem keptC2 {r : Ref sig .tc} (V : Valuation τ sig (Elt F)) (h : (((r ∉ wA_writes) ∧ r ∉ wB_writes) ∧ r ∉ wC1_writes) ∧ r ∉ wC2_writes) :
    VC2 V (Proc.devRef .tc r) = V (Proc.devRef .tc r) := (wC2_frame (VC1 V) h.2).trans (keptC1 V h.1)
theorem keptD1 {r : Ref sig .tc} (V : Valuation τ sig (Elt F)) (h : ((((r ∉ wA_writes) ∧ r ∉ wB_writes) ∧ r ∉ wC1_writes) ∧ r ∉ wC2_writes) ∧ r ∉ wD1_writes) :
    VD1 V (Proc.devRef .tc r) = V (Proc.devRef .tc r) := (wD1_frame (VC2 V) h.2).trans (keptC2 V h.1)
theorem keptD2 {r : Ref sig .tc} (V : Valuation τ sig (Elt F)) (h : (((((r ∉ wA_writes) ∧ r ∉ wB_writes) ∧ r ∉ wC1_writes) ∧ r ∉ wC2_writes) ∧ r ∉ wD1_writes) ∧ r ∉ wD2_writes) :
    VD2 V (Proc.devRef .tc r) = V (Proc.devRef .tc r) := (wD2_frame (VD1 V) h.2).trans (keptD1 V h.1)
theorem keptE {r : Ref sig .tc} (V : Valuation τ sig (Elt F)) (h : ((((((r ∉ wA_writes) ∧ r ∉ wB_writes) ∧ r ∉ wC1_writes) ∧ r ∉ wC2_writes) ∧ r ∉ wD1_writes) ∧ r ∉ wD2_writes) ∧ r ∉ wE_writes) :
    VE V (Proc.devRef .tc r) = V (Proc.devRef .tc r) := (wE_frame (VD2 V) h.2).trans (keptD2 V h.1)
theorem keptF {r : Ref sig .tc} (V : Valuation τ sig (Elt F)) (h : (((((((r ∉ wA_writes) ∧ r ∉ wB_writes) ∧ r ∉ wC1_writes) ∧ r ∉ wC2_writes) ∧ r ∉ wD1_writes) ∧ r ∉ wD2_writes) ∧ r ∉ wE_writes) ∧ r ∉ wF_writes) :
    VF V (Proc.devRef .tc r) = V (Proc.devRef .tc r) := (wF_frame (VE V) h.2).trans (keptE V h.1)
theorem keptG {r : Ref sig .tc} (V : Valuation τ sig (Elt F)) (h : ((((((((r ∉ wA_writes) ∧ r ∉ wB_writes) ∧ r ∉ wC1_writes) ∧ r ∉ wC2_writes) ∧ r ∉ wD1_writes) ∧ r ∉ wD2_writes) ∧ r ∉ wE_writes) ∧ r ∉ wF_writes) ∧ r ∉ wG_writes) :
    VG V (Proc.devRef .tc r) = V (Proc.devRef .tc r) := (wG_frame (VF V) h.2).trans (keptF V h.1)
theorem keptH {r : Ref sig .tc} (V : Valuation τ sig (Elt F)) (h : (((((((((r ∉ wA_writes) ∧ r ∉ wB_writes) ∧ r ∉ wC1_writes) ∧ r ∉ wC2_writes) ∧ r ∉ wD1_writes) ∧ r ∉ wD2_writes) ∧ r ∉ wE_writes) ∧ r ∉ wF_writes) ∧ r ∉ wG_writes) ∧ r ∉ wH_writes) :
    VH V (Proc.devRef .tc r) = V (Proc.devRef .tc r) := (wH_frame (VG V) h.2).trans (keptG V h.1)
theorem keptI {r : Ref sig .tc} (V : Valuation τ sig (Elt F)) (h : ((((((((((r ∉ wA_writes) ∧ r ∉ wB_writes) ∧ r ∉ wC1_writes) ∧ r ∉ wC2_writes) ∧ r ∉ wD1_writes) ∧ r ∉ wD2_writes) ∧ r ∉ wE_writes) ∧ r ∉ wF_writes) ∧ r ∉ wG_writes) ∧ r ∉ wH_writes) ∧ r ∉ wI_writes) :
    VI V (Proc.devRef .tc r) = V (Proc.devRef .tc r) := (wI_frame (VH V) h.2).trans (keptH V h.1)
theorem keptJ {r : Ref sig .tc} (V : Valuation τ sig (Elt F)) (h : (((((((((((r ∉ wA_writes) ∧ r ∉ wB_writes) ∧ r ∉ wC1_writes) ∧ r ∉ wC2_writes) ∧ r ∉ wD1_writes) ∧ r ∉ wD2_writes) ∧ r ∉ wE_writes) ∧ r ∉ wF_writes) ∧ r ∉ wG_writes) ∧ r ∉ wH_writes) ∧ r ∉ wI_writes) ∧ r ∉ wJ_writes) :
    VJ V (Proc.devRef .tc r) = V (Proc.devRef .tc r) := (wJ_frame (VI V) h.2).trans (keptI V h.1)
theorem keptK {r : Ref sig .tc} (V : Valuation τ sig (Elt F)) (h : ((((((((((((r ∉ wA_writes) ∧ r ∉ wB_writes) ∧ r ∉ wC1_writes) ∧ r ∉ wC2_writes) ∧ r ∉ wD1_writes) ∧ r ∉ wD2_writes) ∧ r ∉ wE_writes) ∧ r ∉ wF_writes) ∧ r ∉ wG_writes) ∧ r ∉ wH_writes) ∧ r ∉ wI_writes) ∧ r ∉ wJ_writes) ∧ r ∉ wK_writes) :
    VK V (Proc.devRef .tc r) = V (Proc.devRef .tc r) := (wK_frame (VJ V) h.2).trans (keptJ V h.1)

/-! ## The facts the stretches leave, as functions of the arguments -/

theorem A_v0 (V : Valuation τ sig (Elt F)) : VA V (main_v0 : DevRef τ sig) = RefFn.xFlat (F := F) (V (main_arg0 : DevRef τ sig)) := wA_v0 V
theorem A_v2 (V : Valuation τ sig (Elt F)) : VA V (main_v2 : DevRef τ sig) = RefFn.nzMask (V (main_arg1 : DevRef τ sig)) := wA_v2 V
theorem A_v3 (V : Valuation τ sig (Elt F)) : VA V (main_v3 : DevRef τ sig) = RefFn.cum1 (V (main_arg1 : DevRef τ sig)) := wA_v3 V

theorem B_v14 (V : Valuation τ sig (Elt F)) : VB V (main_v14 : DevRef τ sig) = RefFn.flat (V (main_arg1 : DevRef τ sig)) := by
  rw [VB, wB_v14, A_v3]; try rfl
theorem B_v0 (V : Valuation τ sig (Elt F)) : VB V (main_v0 : DevRef τ sig) = RefFn.xFlat (F := F) (V (main_arg0 : DevRef τ sig)) :=
  (wB_frame (r := main_v0) (VA V) (by decide)).trans (A_v0 V)
theorem B_v2 (V : Valuation τ sig (Elt F)) : VB V (main_v2 : DevRef τ sig) = RefFn.nzMask (V (main_arg1 : DevRef τ sig)) :=
  (wB_frame (r := main_v2) (VA V) (by decide)).trans (A_v2 V)

theorem C1_v15 (V : Valuation τ sig (Elt F)) : VC1 V (main_v15 : DevRef τ sig) = RefFn.floorDiv (RefFn.flat (V (main_arg1 : DevRef τ sig))) (constantI S_ 32 64#32) := by
  rw [VC1, wC1_v15, B_v14]; try rfl
theorem C1_v14 (V : Valuation τ sig (Elt F)) : VC1 V (main_v14 : DevRef τ sig) = RefFn.flat (V (main_arg1 : DevRef τ sig)) :=
  (wC1_frame (r := main_v14) (VB V) (by decide)).trans (B_v14 V)
theorem C1_v0 (V : Valuation τ sig (Elt F)) : VC1 V (main_v0 : DevRef τ sig) = RefFn.xFlat (F := F) (V (main_arg0 : DevRef τ sig)) :=
  (wC1_frame (r := main_v0) (VB V) (by decide)).trans (B_v0 V)
theorem C1_v2 (V : Valuation τ sig (Elt F)) : VC1 V (main_v2 : DevRef τ sig) = RefFn.nzMask (V (main_arg1 : DevRef τ sig)) :=
  (wC1_frame (r := main_v2) (VB V) (by decide)).trans (B_v2 V)

theorem C2_v16 (V : Valuation τ sig (Elt F)) : VC2 V (main_v16 : DevRef τ sig) = RefFn.rowRaw (V (main_arg1 : DevRef τ sig)) := by
  rw [VC2, wC2_v16, C1_v15]; try rfl
theorem C2_v14 (V : Valuation τ sig (Elt F)) : VC2 V (main_v14 : DevRef τ sig) = RefFn.flat (V (main_arg1 : DevRef τ sig)) :=
  (wC2_frame (r := main_v14) (VC1 V) (by decide)).trans (C1_v14 V)
theorem C2_v0 (V : Valuation τ sig (Elt F)) : VC2 V (main_v0 : DevRef τ sig) = RefFn.xFlat (F := F) (V (main_arg0 : DevRef τ sig)) :=
  (wC2_frame (r := main_v0) (VC1 V) (by decide)).trans (C1_v0 V)
theorem C2_v2 (V : Valuation τ sig (Elt F)) : VC2 V (main_v2 : DevRef τ sig) = RefFn.nzMask (V (main_arg1 : DevRef τ sig)) :=
  (wC2_frame (r := main_v2) (VC1 V) (by decide)).trans (C1_v2 V)

theorem D1_v17 (V : Valuation τ sig (Elt F)) : VD1 V (main_v17 : DevRef τ sig) = RefFn.floorDiv (RefFn.flat (V (main_arg1 : DevRef τ sig))) (constantI S_ 32 1#32) := by
  rw [VD1, wD1_v17, C2_v14]; try rfl
theorem D1_v16 (V : Valuation τ sig (Elt F)) : VD1 V (main_v16 : DevRef τ sig) = RefFn.rowRaw (V (main_arg1 : DevRef τ sig)) :=
  (wD1_frame (r := main_v16) (VC2 V) (by decide)).trans (C2_v16 V)
theorem D1_v0 (V : Valuation τ sig (Elt F)) : VD1 V (main_v0 : DevRef τ sig) = RefFn.xFlat (F := F) (V (main_arg0 : DevRef τ sig)) :=
  (wD1_frame (r := main_v0) (VC2 V) (by decide)).trans (C2_v0 V)
theorem D1_v2 (V : Valuation τ sig (Elt F)) : VD1 V (main_v2 : DevRef τ sig) = RefFn.nzMask (V (main_arg1 : DevRef τ sig)) :=
  (wD1_frame (r := main_v2) (VC2 V) (by decide)).trans (C2_v2 V)

theorem D2_v18 (V : Valuation τ sig (Elt F)) : VD2 V (main_v18 : DevRef τ sig) = RefFn.colRaw (V (main_arg1 : DevRef τ sig)) := by
  rw [VD2, wD2_v18, D1_v17]; try rfl
theorem D2_v16 (V : Valuation τ sig (Elt F)) : VD2 V (main_v16 : DevRef τ sig) = RefFn.rowRaw (V (main_arg1 : DevRef τ sig)) :=
  (wD2_frame (r := main_v16) (VD1 V) (by decide)).trans (D1_v16 V)
theorem D2_v0 (V : Valuation τ sig (Elt F)) : VD2 V (main_v0 : DevRef τ sig) = RefFn.xFlat (F := F) (V (main_arg0 : DevRef τ sig)) :=
  (wD2_frame (r := main_v0) (VD1 V) (by decide)).trans (D1_v0 V)
theorem D2_v2 (V : Valuation τ sig (Elt F)) : VD2 V (main_v2 : DevRef τ sig) = RefFn.nzMask (V (main_arg1 : DevRef τ sig)) :=
  (wD2_frame (r := main_v2) (VD1 V) (by decide)).trans (D1_v2 V)
theorem D2_arg1 (V : Valuation τ sig (Elt F)) : VD2 V (main_arg1 : DevRef τ sig) = V (main_arg1 : DevRef τ sig) := keptD2 (r := main_arg1) V (by decide)

theorem E_v24 (V : Valuation τ sig (Elt F)) : VE V (main_v24 : DevRef τ sig) = RefFn.rowW (V (main_arg1 : DevRef τ sig)) := by
  rw [VE, wE_v24, D2_v2, D2_v16]; try rfl
theorem E_v25 (V : Valuation τ sig (Elt F)) : VE V (main_v25 : DevRef τ sig) = RefFn.colW (V (main_arg1 : DevRef τ sig)) := by
  rw [VE, wE_v25, D2_v2, D2_v18]; try rfl
theorem E_v29 (V : Valuation τ sig (Elt F)) : VE V (main_v29 : DevRef τ sig) = RefFn.validM (V (main_arg1 : DevRef τ sig)) := by
  rw [VE, wE_v29, D2_arg1]; try rfl
theorem E_v0 (V : Valuation τ sig (Elt F)) : VE V (main_v0 : DevRef τ sig) = RefFn.xFlat (F := F) (V (main_arg0 : DevRef τ sig)) :=
  (wE_frame (r := main_v0) (VD2 V) (by decide)).trans (D2_v0 V)

theorem F_v49 (V : Valuation τ sig (Elt F)) : VF V (main_v49 : DevRef τ sig) = RefFn.sAll (V (main_arg1 : DevRef τ sig)) := by
  rw [VF, wF_v49, E_v24]; try rfl
theorem F_v50 (V : Valuation τ sig (Elt F)) : VF V (main_v50 : DevRef τ sig) = RefFn.tAll (V (main_arg1 : DevRef τ sig)) := by
  rw [VF, wF_v50, E_v25]; try rfl
theorem F_v47 (V : Valuation τ sig (Elt F)) : VF V (main_v47 : DevRef τ sig) = RefFn.spreadM (RefFn.validM (V (main_arg1 : DevRef τ sig))) := by
  rw [VF, wF_v47, E_v29]; try rfl
theorem F_v0 (V : Valuation τ sig (Elt F)) : VF V (main_v0 : DevRef τ sig) = RefFn.xFlat (F := F) (V (main_arg0 : DevRef τ sig)) :=
  (wF_frame (r := main_v0) (VE V) (by decide)).trans (E_v0 V)

theorem G_v53 (V : Valuation τ sig (Elt F)) : VG V (main_v53 : DevRef τ sig) = RefFn.wAll (F := F) (V (main_arg1 : DevRef τ sig)) := by
  rw [VG, wG_v53, F_v47]; try rfl
theorem G_v61 (V : Valuation τ sig (Elt F)) : VG V (main_v61 : DevRef τ sig) = RefFn.degV (F := F) (V (main_arg1 : DevRef τ sig)) := by
  rw [VG, wG_v61, F_v50, F_v47]; try rfl
theorem G_v49 (V : Valuation τ sig (Elt F)) : VG V (main_v49 : DevRef τ sig) = RefFn.sAll (V (main_arg1 : DevRef τ sig)) :=
  (wG_frame (r := main_v49) (VF V) (by decide)).trans (F_v49 V)
theorem G_v50 (V : Valuation τ sig (Elt F)) : VG V (main_v50 : DevRef τ sig) = RefFn.tAll (V (main_arg1 : DevRef τ sig)) :=
  (wG_frame (r := main_v50) (VF V) (by decide)).trans (F_v50 V)
theorem G_v0 (V : Valuation τ sig (Elt F)) : VG V (main_v0 : DevRef τ sig) = RefFn.xFlat (F := F) (V (main_arg0 : DevRef τ sig)) :=
  (wG_frame (r := main_v0) (VF V) (by decide)).trans (F_v0 V)

theorem H_v67 (V : Valuation τ sig (Elt F)) : VH V (main_v67 : DevRef τ sig) = RefFn.disV (F := F) (V (main_arg1 : DevRef τ sig)) := by
  rw [VH, wH_v67, G_v61]; try rfl
theorem H_v53 (V : Valuation τ sig (Elt F)) : VH V (main_v53 : DevRef τ sig) = RefFn.wAll (F := F) (V (main_arg1 : DevRef τ sig)) :=
  (wH_frame (r := main_v53) (VG V) (by decide)).trans (G_v53 V)
theorem H_v49 (V : Valuation τ sig (Elt F)) : VH V (main_v49 : DevRef τ sig) = RefFn.sAll (V (main_arg1 : DevRef τ sig)) :=
  (wH_frame (r := main_v49) (VG V) (by decide)).trans (G_v49 V)
theorem H_v50 (V : Valuation τ sig (Elt F)) : VH V (main_v50 : DevRef τ sig) = RefFn.tAll (V (main_arg1 : DevRef τ sig)) :=
  (wH_frame (r := main_v50) (VG V) (by decide)).trans (G_v50 V)
theorem H_v0 (V : Valuation τ sig (Elt F)) : VH V (main_v0 : DevRef τ sig) = RefFn.xFlat (F := F) (V (main_arg0 : DevRef τ sig)) :=
  (wH_frame (r := main_v0) (VG V) (by decide)).trans (G_v0 V)
theorem H_arg2 (V : Valuation τ sig (Elt F)) : VH V (main_arg2 : DevRef τ sig) = V (main_arg2 : DevRef τ sig) := keptH (r := main_arg2) V (by decide)

theorem I_v82 (V : Valuation τ sig (Elt F)) : VI V (main_v82 : DevRef τ sig) = RefFn.normV (F := F) (V (main_arg1 : DevRef τ sig)) := by
  rw [VI, wI_v82, H_v67, H_v49, H_v50]; try rfl
theorem I_v83 (V : Valuation τ sig (Elt F)) : VI V (main_v83 : DevRef τ sig) = RefFn.xwV (F := F) (V (main_arg0 : DevRef τ sig)) (V (main_arg2 : DevRef τ sig)) := by
  rw [VI, wI_v83, H_v0, H_arg2]; try rfl
theorem I_v53 (V : Valuation τ sig (Elt F)) : VI V (main_v53 : DevRef τ sig) = RefFn.wAll (F := F) (V (main_arg1 : DevRef τ sig)) :=
  (wI_frame (r := main_v53) (VH V) (by decide)).trans (H_v53 V)
theorem I_v49 (V : Valuation τ sig (Elt F)) : VI V (main_v49 : DevRef τ sig) = RefFn.sAll (V (main_arg1 : DevRef τ sig)) :=
  (wI_frame (r := main_v49) (VH V) (by decide)).trans (H_v49 V)
theorem I_v50 (V : Valuation τ sig (Elt F)) : VI V (main_v50 : DevRef τ sig) = RefFn.tAll (V (main_arg1 : DevRef τ sig)) :=
  (wI_frame (r := main_v50) (VH V) (by decide)).trans (H_v50 V)
theorem I_v0 (V : Valuation τ sig (Elt F)) : VI V (main_v0 : DevRef τ sig) = RefFn.xFlat (F := F) (V (main_arg0 : DevRef τ sig)) :=
  (wI_frame (r := main_v0) (VH V) (by decide)).trans (H_v0 V)

theorem J_v94 (V : Valuation τ sig (Elt F)) : VJ V (main_v94 : DevRef τ sig) = RefFn.msgV (F := F) (V (main_arg0 : DevRef τ sig)) (V (main_arg1 : DevRef τ sig)) (V (main_arg2 : DevRef τ sig)) := by
  rw [VJ, wJ_v94, I_v83, I_v49, I_v82, I_v53]; try rfl
theorem J_v50 (V : Valuation τ sig (Elt F)) : VJ V (main_v50 : DevRef τ sig) = RefFn.tAll (V (main_arg1 : DevRef τ sig)) :=
  (wJ_frame (r := main_v50) (VI V) (by decide)).trans (I_v50 V)
theorem J_v0 (V : Valuation τ sig (Elt F)) : VJ V (main_v0 : DevRef τ sig) = RefFn.xFlat (F := F) (V (main_arg0 : DevRef τ sig)) :=
  (wJ_frame (r := main_v0) (VI V) (by decide)).trans (I_v0 V)
theorem J_arg3 (V : Valuation τ sig (Elt F)) : VJ V (main_arg3 : DevRef τ sig) = V (main_arg3 : DevRef τ sig) := keptJ (r := main_arg3) V (by decide)

theorem K_v108 (V : Valuation τ sig (Elt F)) : VK V (main_v108 : DevRef τ sig) = RefFn.res (F := F) (V (main_arg0 : DevRef τ sig)) (V (main_arg1 : DevRef τ sig)) (V (main_arg2 : DevRef τ sig)) (V (main_arg3 : DevRef τ sig)) := by
  rw [VK, wK_v108, J_v50, J_v94, J_arg3, J_v0]; try rfl

/-! ## The whole line -/

/-- The contents after the whole line are those after the thirteenth stretch. -/
theorem after_ops (V : Valuation τ sig (Elt F)) : after ops V = VK V := by
  simp only [ops, after_app]
  rfl

/-- The result buffer after the whole line. -/
theorem value (V : Valuation τ sig (Elt F)) :
    after ops V (main_v108 : DevRef τ sig) = RefFn.res (F := F) (V (main_arg0 : DevRef τ sig)) (V (main_arg1 : DevRef τ sig)) (V (main_arg2 : DevRef τ sig)) (V (main_arg3 : DevRef τ sig)) := by
  rw [after_ops]; exact K_v108 V

/-- The four arguments after the whole line. -/
theorem arg0_kept (V : Valuation τ sig (Elt F)) : after ops V (main_arg0 : DevRef τ sig) = V (main_arg0 : DevRef τ sig) := by
  rw [after_ops]; exact keptK (r := main_arg0) V (by decide)
theorem arg1_kept (V : Valuation τ sig (Elt F)) : after ops V (main_arg1 : DevRef τ sig) = V (main_arg1 : DevRef τ sig) := by
  rw [after_ops]; exact keptK (r := main_arg1) V (by decide)
theorem arg2_kept (V : Valuation τ sig (Elt F)) : after ops V (main_arg2 : DevRef τ sig) = V (main_arg2 : DevRef τ sig) := by
  rw [after_ops]; exact keptK (r := main_arg2) V (by decide)
theorem arg3_kept (V : Valuation τ sig (Elt F)) : after ops V (main_arg3 : DevRef τ sig) = V (main_arg3 : DevRef τ sig) := by
  rw [after_ops]; exact keptK (r := main_arg3) V (by decide)

/-- Every weakly fair execution of @main terminates; the result buffer ends at `RefFn.res` of the arguments' launch
    contents and the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108)
          = RefFn.res (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v108).trans (value (launchContents m c)),
      (h c main_arg0).trans (arg0_kept (launchContents m c)),
      (h c main_arg1).trans (arg1_kept (launchContents m c)),
      (h c main_arg2).trans (arg2_kept (launchContents m c)),
      (h c main_arg3).trans (arg3_kept (launchContents m c))⟩)
    (run_main m ρ)

end Cert.ReferenceIdeal.RefRun

end
-- ==== Proof.LibCount.lean ====
/-
  Counting marked positions of a finite sequence.

  For a marking m of the positions 0 … n-1: the running count at j is the number of marked positions up to and
  including j; `posOf m k` is the number of positions whose running count is at most k.  The running count rises by
  one exactly at the marked positions, so for k below the number of marked positions `posOf m k` is the position
  of the (k+1)-th marked one, and k ↦ posOf m k runs through the marked positions once each.
-/
import Idealize.ShloMosaic.PureOps.Ideal
import Mathlib.Order.Interval.Finset.Fin
import Mathlib.Data.Finset.Max
import Mathlib.Algebra.BigOperators.Group.Finset.Basic

noncomputable section

open scoped BigOperators

namespace Cert.LibCount

variable {n : ℕ}

/-- The number of marked positions up to and including j. -/
def runCount (m : Fin n → Bool) (j : Fin n) : ℕ := (Finset.univ.filter fun i : Fin n => i ≤ j ∧ m i = true).card

/-- The number of marked positions. -/
def total (m : Fin n → Bool) : ℕ := (Finset.univ.filter fun i : Fin n => m i = true).card

/-- The number of positions whose running count is at most k. -/
def posOf (m : Fin n → Bool) (k : ℕ) : ℕ := (Finset.univ.filter fun j : Fin n => runCount m j ≤ k).card

/-- The number of marked positions strictly below the bound t (a natural number, possibly n itself). -/
def cntLt (m : Fin n → Bool) (t : ℕ) : ℕ := (Finset.univ.filter fun i : Fin n => i.val < t ∧ m i = true).card

/-- The running count never exceeds the number of marked positions: the marked positions up to j are among all
    the marked positions. -/
theorem runCount_le_total (m : Fin n → Bool) (j : Fin n) : runCount m j ≤ total m := by
  unfold runCount total
  apply Finset.card_le_card
  intro i hi
  rw [Finset.mem_filter] at hi ⊢
  exact ⟨hi.1, hi.2.2⟩

/-- There are at most n marked positions among n positions. -/
theorem total_le (m : Fin n → Bool) : total m ≤ n := by
  unfold total
  calc (Finset.univ.filter fun i : Fin n => m i = true).card
      ≤ (Finset.univ : Finset (Fin n)).card := Finset.card_filter_le _ _
    _ = n := by simp

/-- The running count does not decrease along the positions. -/
theorem runCount_mono (m : Fin n → Bool) {i j : Fin n} (h : i ≤ j) : runCount m i ≤ runCount m j := by
  unfold runCount
  apply Finset.card_le_card
  intro a ha
  rw [Finset.mem_filter] at ha ⊢
  exact ⟨ha.1, le_trans ha.2.1 h, ha.2.2⟩

/-- The running count at j is the number of marked positions strictly before j, plus one if j itself is marked. -/
theorem runCount_eq_cntLt (m : Fin n → Bool) (j : Fin n) :
    runCount m j = cntLt m j.val + (if m j = true then 1 else 0) := by
  classical
  unfold runCount cntLt
  by_cases hm : m j = true
  · have hset : (Finset.univ.filter fun i : Fin n => i ≤ j ∧ m i = true)
        = insert j (Finset.univ.filter fun i : Fin n => i.val < j.val ∧ m i = true) := by
      ext i
      simp only [Finset.mem_filter, Finset.mem_univ, true_and, Finset.mem_insert]
      constructor
      · rintro ⟨h1, h2⟩
        rcases lt_or_eq_of_le h1 with h | h
        · exact Or.inr ⟨Fin.lt_def.mp h, h2⟩
        · exact Or.inl h
      · rintro (h | ⟨h1, h2⟩)
        · rw [h]; exact ⟨le_refl _, hm⟩
        · exact ⟨le_of_lt (Fin.lt_def.mpr h1), h2⟩
    have hnot : j ∉ (Finset.univ.filter fun i : Fin n => i.val < j.val ∧ m i = true) := by
      intro hj
      rw [Finset.mem_filter] at hj
      exact lt_irrefl _ hj.2.1
    rw [hset, Finset.card_insert_of_notMem hnot, if_pos hm]
  · have hset : (Finset.univ.filter fun i : Fin n => i ≤ j ∧ m i = true)
        = (Finset.univ.filter fun i : Fin n => i.val < j.val ∧ m i = true) := by
      ext i
      simp only [Finset.mem_filter, Finset.mem_univ, true_and]
      constructor
      · rintro ⟨h1, h2⟩
        refine ⟨Fin.lt_def.mp (lt_of_le_of_ne h1 ?_), h2⟩
        intro h
        rw [h] at h2
        exact hm h2
      · rintro ⟨h1, h2⟩
        exact ⟨le_of_lt (Fin.lt_def.mpr h1), h2⟩
    rw [hset, if_neg hm, add_zero]

/-- All n positions lie below the bound n, so the marked positions below n are all the marked positions. -/
theorem total_eq_cntLt (m : Fin n → Bool) : total m = cntLt m n := by
  unfold total cntLt
  refine congrArg Finset.card (Finset.filter_congr fun i _ => ?_)
  exact ⟨fun h => ⟨i.isLt, h⟩, fun h => h.2⟩

/-- If every position below the bound t has running count at most k, then at most k marked positions lie below t:
    the largest marked position below t (if there is one) has all of them up to itself. -/
theorem cntLt_le (m : Fin n → Bool) (t k : ℕ) (h : ∀ i : Fin n, i.val < t → runCount m i ≤ k) :
    cntLt m t ≤ k := by
  classical
  unfold cntLt
  rcases (Finset.univ.filter fun i : Fin n => i.val < t ∧ m i = true).eq_empty_or_nonempty with h0 | hne
  · rw [h0]; simp
  · have hmem := Finset.mem_filter.mp (Finset.max'_mem _ hne)
    refine le_trans ?_ (h _ hmem.2.1)
    unfold runCount
    apply Finset.card_le_card
    intro i hi
    have hi' := Finset.mem_filter.mp hi
    rw [Finset.mem_filter]
    exact ⟨hi'.1, Finset.le_max' _ i hi, hi'.2.2⟩

/-- A set of positions that with a position contains every smaller one is an initial segment: it consists of the
    positions below its own size. -/
theorem mem_iff_lt_card_of_lower {S : Finset (Fin n)} (hS : ∀ a ∈ S, ∀ b : Fin n, b ≤ a → b ∈ S) (j : Fin n) :
    j ∈ S ↔ j.val < S.card := by
  classical
  constructor
  · intro hj
    have hsub : Finset.Iic j ⊆ S := fun b hb => hS j hj b (Finset.mem_Iic.mp hb)
    have hc := Finset.card_le_card hsub
    rw [Fin.card_Iic] at hc
    omega
  · intro hlt
    by_contra hj
    have hsub : S ⊆ Finset.Iio j := by
      intro a ha
      rw [Finset.mem_Iio]
      by_contra hna
      exact hj (hS a ha j (not_lt.mp hna))
    have hc := Finset.card_le_card hsub
    rw [Fin.card_Iio] at hc
    omega

/-- The positions with running count at most k are exactly the positions below `posOf m k`. -/
theorem runCount_le_iff (m : Fin n → Bool) (k : ℕ) (j : Fin n) : runCount m j ≤ k ↔ j.val < posOf m k := by
  have h := mem_iff_lt_card_of_lower (S := Finset.univ.filter fun j : Fin n => runCount m j ≤ k)
    (by
      intro a ha b hb
      rw [Finset.mem_filter] at ha ⊢
      exact ⟨Finset.mem_univ _, le_trans (runCount_mono m hb) ha.2⟩) j
  rw [Finset.mem_filter] at h
  unfold posOf
  exact ⟨fun hj => h.mp ⟨Finset.mem_univ _, hj⟩, fun hj => (h.mpr hj).2⟩

/-- Counting the positions by their running count: those with count at most k are those with count 0, 1, …, k. -/
theorem posOf_eq_sum (m : Fin n → Bool) (k : ℕ) :
    posOf m k = ∑ v ∈ Finset.range (k + 1), (Finset.univ.filter fun j : Fin n => runCount m j = v).card := by
  classical
  unfold posOf
  have H : Set.MapsTo (runCount m) (↑(Finset.univ.filter fun j : Fin n => runCount m j ≤ k) : Set (Fin n))
      (↑(Finset.range (k + 1)) : Set ℕ) := by
    intro j hj
    rw [Finset.mem_coe, Finset.mem_filter] at hj
    rw [Finset.mem_coe, Finset.mem_range]
    omega
  refine (Finset.card_eq_sum_card_fiberwise H).trans (Finset.sum_congr rfl ?_)
  intro v hv
  rw [Finset.mem_range] at hv
  refine congrArg Finset.card ?_
  ext j
  simp only [Finset.mem_filter, Finset.mem_univ, true_and]
  constructor
  · rintro ⟨_, h⟩
    exact h
  · intro h
    exact ⟨by omega, h⟩

/-- Below the number of marked positions, `posOf` is a position. -/
theorem posOf_lt (m : Fin n → Bool) {k : ℕ} (hk : k < total m) : posOf m k < n := by
  by_contra hge
  have hall : ∀ i : Fin n, i.val < n → runCount m i ≤ k := fun i _ =>
    (runCount_le_iff m k i).mpr (lt_of_lt_of_le i.isLt (not_lt.mp hge))
  have hc := cntLt_le m n k hall
  rw [← total_eq_cntLt] at hc
  omega

/-- Below the number of marked positions, the position `posOf m k` is marked and its running count is k + 1: its
    count exceeds k (it is the first position not counted by `posOf m k`), while the positions before it hold at
    most k marked ones. -/
theorem posOf_spec (m : Fin n → Bool) {k : ℕ} (hk : k < total m) :
    m ⟨posOf m k, posOf_lt m hk⟩ = true ∧ runCount m ⟨posOf m k, posOf_lt m hk⟩ = k + 1 := by
  have hgt : ¬ runCount m ⟨posOf m k, posOf_lt m hk⟩ ≤ k := by
    rw [runCount_le_iff]
    exact lt_irrefl _
  have hbelow : cntLt m (posOf m k) ≤ k :=
    cntLt_le m _ k fun i hi => (runCount_le_iff m k i).mpr hi
  have heq : runCount m ⟨posOf m k, posOf_lt m hk⟩
      = cntLt m (posOf m k) + (if m ⟨posOf m k, posOf_lt m hk⟩ = true then 1 else 0) :=
    runCount_eq_cntLt m ⟨posOf m k, posOf_lt m hk⟩
  by_cases hm : m ⟨posOf m k, posOf_lt m hk⟩ = true
  · rw [if_pos hm] at heq
    exact ⟨hm, by omega⟩
  · rw [if_neg hm] at heq
    exact absurd (by omega) hgt

/-- … and a marked one. -/
theorem marked_posOf (m : Fin n → Bool) {k : ℕ} (hk : k < total m) : m ⟨posOf m k, posOf_lt m hk⟩ = true :=
  (posOf_spec m hk).1

/-- A marked position j is the `posOf` of its own running count less one: the positions with a smaller running
    count are exactly those before j. -/
theorem posOf_runCount_pred (m : Fin n → Bool) (j : Fin n) (hm : m j = true) :
    posOf m (runCount m j - 1) = j.val := by
  have heq := runCount_eq_cntLt m j
  rw [if_pos hm] at heq
  have hset : (Finset.univ.filter fun i : Fin n => runCount m i ≤ runCount m j - 1) = Finset.Iio j := by
    ext i
    rw [Finset.mem_filter, Finset.mem_Iio]
    constructor
    · rintro ⟨_, hi⟩
      by_contra hn
      have hmono := runCount_mono m (not_lt.mp hn)
      omega
    · intro hi
      refine ⟨Finset.mem_univ _, ?_⟩
      have hle : runCount m i ≤ cntLt m j.val := by
        unfold runCount cntLt
        apply Finset.card_le_card
        intro a ha
        rw [Finset.mem_filter] at ha ⊢
        exact ⟨ha.1, lt_of_le_of_lt (Fin.le_def.mp ha.2.1) (Fin.lt_def.mp hi), ha.2.2⟩
      omega
  unfold posOf
  rw [hset, Fin.card_Iio]

/-- k ↦ posOf m k, for k below the number of marked positions, runs through the marked positions once each: a sum
    over those k of a function of the position is the sum over the marked positions. -/
theorem sum_posOf {M : Type} [AddCommMonoid M] (m : Fin n → Bool) (φ : Fin n → M) :
    (∑ k : Fin n, if h : k.val < total m then φ ⟨posOf m k.val, posOf_lt m h⟩ else 0)
      = ∑ j : Fin n, if m j = true then φ j else 0 := by
  classical
  have hlt : ∀ k : Fin n,
      (if h : k.val < total m then φ ⟨posOf m k.val, posOf_lt m h⟩ else 0) ≠ 0 → k.val < total m := by
    intro k hk
    by_contra h
    exact hk (dif_neg h)
  refine Finset.sum_bij_ne_zero
    (fun k _ hk => (⟨posOf m k.val, posOf_lt m (hlt k hk)⟩ : Fin n)) ?_ ?_ ?_ ?_
  · intro k _ _
    exact Finset.mem_univ _
  · -- distinct k give distinct positions: the running count at posOf m k is k + 1
    intro k₁ _ h₁ k₂ _ h₂ heq
    have e₁ := (posOf_spec m (hlt k₁ h₁)).2
    have e₂ := (posOf_spec m (hlt k₂ h₂)).2
    have e : k₁.val + 1 = k₂.val + 1 := e₁.symm.trans ((congrArg (runCount m) heq).trans e₂)
    exact Fin.ext (by omega)
  · -- every marked position j is reached, from k = (running count at j) - 1
    intro j _ hj
    have hm : m j = true := by
      by_contra h
      exact hj (if_neg h)
    have hr := runCount_eq_cntLt m j
    rw [if_pos hm] at hr
    have hle := runCount_le_total m j
    have htot := total_le m
    have hk : runCount m j - 1 < total m := by omega
    have hn : runCount m j - 1 < n := by omega
    have hP : (⟨posOf m (runCount m j - 1), posOf_lt m hk⟩ : Fin n) = j :=
      Fin.ext (posOf_runCount_pred m j hm)
    have hfa : (if h : (⟨runCount m j - 1, hn⟩ : Fin n).val < total m
        then φ ⟨posOf m (⟨runCount m j - 1, hn⟩ : Fin n).val, posOf_lt m h⟩ else 0) = φ j :=
      (dif_pos hk).trans (congrArg φ hP)
    refine ⟨⟨runCount m j - 1, hn⟩, Finset.mem_univ _, ?_, hP⟩
    intro h0
    exact hj ((if_pos hm).trans (hfa.symm.trans h0))
  · intro k _ hk
    have hk' := hlt k hk
    rw [dif_pos hk', if_pos (posOf_spec m hk').1]

end Cert.LibCount

end
-- ==== Proof.RefCsum.lean ====
/-
  The running sum and the count-by-value of a 4096-vector of words, read at a position.

  A window of 4096 padded 4095 low, ending at position j, covers exactly the positions 0 … j: the running sum at j is
  the sum of the entries up to j.  The scatter of ones at the (in-range) values counts, at k, the positions whose
  value is k; a value of 4096 is outside and is dropped.
-/
import proofs.«175083_g12077448036551_cont_sun_c4_50_15_alg».proof.Proof.RefFn
import Idealize.ShloMosaic.Lib.ValueIdx
import Idealize.ShloMosaic.Lib.StableHlo.Predicate
import Mathlib.Algebra.BigOperators.Fin
import Mathlib.Data.Fintype.BigOperators
import Mathlib.Algebra.BigOperators.Group.Finset.Piecewise

noncomputable section

open scoped BigOperators

namespace Cert.ReferenceIdeal.RefCsum

open Idealize.ShloMosaic Idealize.ShloMosaic.ValueIdx Cert.ReferenceIdeal Cert.ReferenceIdeal.Facts₀ Cert.ReferenceIdeal.Facts

/-! ## Folds of word addition -/

/-- A word is the word of its value. -/
private theorem ofNat_toNat_self (w : BitVec 32) : BitVec.ofNat 32 w.toNat = w :=
  BitVec.eq_of_toNat_eq (by rw [BitVec.toNat_ofNat]; exact Nat.mod_eq_of_lt w.isLt)

/-- A left fold of word addition from a over the terms t n is a plus the word of the sum of the terms' values:
    word addition is addition modulo 2³², and so is the word of a sum. -/
private theorem foldl_addi {ι : Type} (t : ι → BitVec 32) (l : List ι) (a : BitVec 32) :
    l.foldl (fun r n => IntOp.addi r (t n)) a = a + BitVec.ofNat 32 ((l.map fun n => (t n).toNat).sum) := by
  induction l generalizing a with
  | nil => simp
  | cons x l ih =>
    rw [List.foldl_cons, ih, List.map_cons, List.sum_cons, BitVec.ofNat_add, ofNat_toNat_self, ← BitVec.add_assoc]
    rfl

/-- A left fold over a list of update positions n, each adding the word 1 at the place ri n (or nowhere, when ri n is
    none), holds at k the start value plus the number of n in the list with ri n = some k. -/
private theorem foldl_count {ι I : Type} [DecidableEq I] (ri : ι → Option I)
    (step : (I → BitVec 32) → ι → (I → BitVec 32))
    (hnone : ∀ r n, ri n = none → step r n = r)
    (hsome : ∀ r n i, ri n = some i → step r n = fun i' => if i' = i then IntOp.addi (r i) 1#32 else r i')
    (l : List ι) (x : I → BitVec 32) (k : I) :
    l.foldl step x k = x k + BitVec.ofNat 32 ((l.map fun n => if ri n = some k then 1 else 0).sum) := by
  induction l generalizing x with
  | nil => simp
  | cons n l ih =>
    rw [List.foldl_cons, ih, List.map_cons, List.sum_cons]
    cases h : ri n with
    | none =>
      have hne : ¬ ((none : Option I) = some k) := fun e => by cases e
      rw [hnone x n h, if_neg hne, Nat.zero_add]
    | some i =>
      rw [hsome x n i h]
      by_cases hk : k = i
      · subst hk
        show (if k = k then IntOp.addi (x k) 1#32 else x k) + _ = _
        rw [if_pos rfl, if_pos rfl, BitVec.ofNat_add, ← BitVec.add_assoc]
        rfl
      · have hne : ¬ (some i = some k) := fun e => hk (Option.some.inj e).symm
        show (if k = i then IntOp.addi (x i) 1#32 else x k) + _ = _
        rw [if_neg hk, if_neg hne, Nat.zero_add]

/-- A sum over Fin N, when N = M, is the sum over Fin M of the same terms. -/
private theorem sum_fin_cast {N M : ℕ} (h : N = M) (f : Fin N → ℕ) :
    ∑ n : Fin N, f n = ∑ j : Fin M, f (j.cast h.symm) := by
  subst h; rfl

/-- Two dependent conditionals with equivalent conditions, equal values where both hold and the same default agree. -/
private theorem dite_congr_val {α : Type} {P Q : Prop} {dP : Decidable P} {dQ : Decidable Q} (hPQ : P ↔ Q)
    {f : P → α} {g : Q → α} {z : α} (hfg : ∀ hp hq, f hp = g hq) :
    (if h : P then f h else z) = (if h : Q then g h else z) := by
  by_cases hp : P
  · rw [dif_pos hp, dif_pos (hPQ.mp hp)]; exact hfg _ _
  · rw [dif_neg hp, dif_neg (fun hq => hp (hPQ.mpr hq))]

/-! ## The 4096-vector's positions -/

/-- A 4096-vector has 4096 positions. -/
private theorem numel_4096 : (⟨1, ![4096]⟩ : Shape).numel = 4096 := Shape.numel_rank1 _

/-- The n-th position in row-major order has coordinate n. -/
private theorem symm_val (n : Fin (⟨1, ![4096]⟩ : Shape).numel) :
    (((⟨1, ![4096]⟩ : Shape).rowMajor.symm n) 0).val = n.val := by
  have h := Shape.rowMajor_val_one ((⟨1, ![4096]⟩ : Shape).rowMajor.symm n)
  rw [Equiv.apply_symm_apply] at h
  exact h.symm

/-- The j-th position in row-major order is the index with coordinate j. -/
private theorem symm_eq (j : Fin 4096) :
    (⟨1, ![4096]⟩ : Shape).rowMajor.symm (j.cast numel_4096.symm) = ix1 j := by
  funext a
  obtain rfl : a = 0 := Subsingleton.elim _ _
  exact Fin.ext (symm_val _)

/-- An entry's value, 0 past the end. -/
private def vnat (v : IVec S4096 32) (i : ℕ) : ℕ := if h : i < 4096 then (v (ix1 ⟨i, h⟩)).toNat else 0

/-- The m-th term of the window ending at j: the entry at j + m - 4095 when that is a position, else the padding 0. -/
private def wterm (v : IVec S4096 32) (j : Fin 4096) (m : ℕ) : BitVec 32 :=
  if h : 4095 ≤ j.val + m ∧ j.val + m - 4095 < 4096 then v (ix1 ⟨j.val + m - 4095, h.2⟩) else 0#32

variable [Cert.ReferenceIdeal.Facts]

/-! ## The running sum -/

/-- The running sum at j as the fold of the window's 4096 terms. -/
private theorem csum_fold (v : IVec S4096 32) (j : Fin 4096) :
    RefFn.csum v (ix1 j)
      = (List.finRange (⟨1, ![4096]⟩ : Shape).numel).foldl (fun r n => IntOp.addi r (wterm v j n.val)) 0#32 := by
  unfold RefFn.csum Host.reduceWindow
  refine List.foldl_ext _ _ _ (fun r n _ => ?_)
  dsimp only
  congr 1
  unfold wterm
  refine dite_congr_val ?_ ?_
  · constructor
    · intro h
      have h0 : 4095 ≤ j.val * 1 + (((⟨1, ![4096]⟩ : Shape).rowMajor.symm n) 0).val
          ∧ j.val * 1 + (((⟨1, ![4096]⟩ : Shape).rowMajor.symm n) 0).val - 4095 < 4096 := h 0
      rw [symm_val] at h0
      omega
    · intro h a
      obtain rfl : a = 0 := Subsingleton.elim _ _
      show 4095 ≤ j.val * 1 + (((⟨1, ![4096]⟩ : Shape).rowMajor.symm n) 0).val
          ∧ j.val * 1 + (((⟨1, ![4096]⟩ : Shape).rowMajor.symm n) 0).val - 4095 < 4096
      rw [symm_val]
      omega
  · intro hp hq
    congr 1
    funext a
    obtain rfl : a = 0 := Subsingleton.elim _ _
    apply Fin.ext
    show j.val * 1 + (((⟨1, ![4096]⟩ : Shape).rowMajor.symm n) 0).val - 4095 = j.val + n.val - 4095
    rw [symm_val]
    omega

/-- The running sum at j is the sum of the entries up to and including j (as a word). -/
theorem csum_apply (v : IVec S4096 32) (j : Fin 4096) :
    RefFn.csum v (ix1 j) = BitVec.ofNat 32 (∑ i : Fin 4096, if i ≤ j then (v (ix1 i)).toNat else 0) := by
  have hj := j.isLt
  rw [csum_fold, foldl_addi, BitVec.zero_add]
  refine congrArg (BitVec.ofNat 32) ?_
  rw [← Fin.sum_univ_def, Fin.sum_univ_eq_sum_range (fun m => (wterm v j m).toNat), numel_4096]
  have hR : (∑ i : Fin 4096, if i ≤ j then (v (ix1 i)).toNat else 0)
      = ∑ i : Fin 4096, (fun m : ℕ => if m ≤ j.val then vnat v m else 0) i.val := by
    refine Finset.sum_congr rfl (fun i _ => ?_)
    show _ = if i.val ≤ j.val then vnat v i.val else 0
    unfold vnat
    rw [dif_pos i.isLt]
    rfl
  rw [hR, Fin.sum_univ_eq_sum_range (fun m : ℕ => if m ≤ j.val then vnat v m else 0)]
  have hL : ∀ m ∈ Finset.range 4096, (wterm v j m).toNat = if 4095 ≤ j.val + m then vnat v (j.val + m - 4095) else 0 := by
    intro m hm
    rw [Finset.mem_range] at hm
    unfold wterm vnat
    by_cases h : 4095 ≤ j.val + m
    · rw [dif_pos ⟨h, by omega⟩, if_pos h, dif_pos (by omega)]
    · rw [dif_neg (fun hh => h hh.1), if_neg h]
      rfl
  rw [Finset.sum_congr rfl hL, ← Finset.sum_filter, ← Finset.sum_filter]
  refine Finset.sum_nbij' (fun m => j.val + m - 4095) (fun i => i + 4095 - j.val) ?_ ?_ ?_ ?_ ?_
  · intro a ha
    simp only [Finset.mem_filter, Finset.mem_range] at ha ⊢
    omega
  · intro a ha
    simp only [Finset.mem_filter, Finset.mem_range] at ha ⊢
    omega
  · intro a ha
    simp only [Finset.mem_filter, Finset.mem_range] at ha
    show j.val + a - 4095 + 4095 - j.val = a
    omega
  · intro a ha
    simp only [Finset.mem_filter, Finset.mem_range] at ha
    show j.val + (a + 4095 - j.val) - 4095 = a
    omega
  · intro a _
    rfl

/-! ## The count by value -/

/-- A splat reads its word everywhere. -/
private theorem splat_apply (w : BitVec 32) (i : S4096.Idx) : RefFn.splat4096 w i = w := rfl

/-- A vector as a column reads, at (n, 0), the vector at n. -/
private theorem bcast_col (v : IVec S4096 32) (n : Fin 4096) :
    broadcastInDim S4096x1 ![0] bcast_S4096_S4096x1_0 v (ix2 n (0 : Fin 1)) = v (ix1 n) := by
  unfold broadcastInDim
  congr 1
  funext a
  obtain rfl : a = 0 := Subsingleton.elim _ _
  split
  · next h1 => exact absurd h1 (by decide)
  · rfl

/-- A word of value at most 4096 is non-negative as a signed number: the maximum with 0 keeps it, the compare with 0 is
    false, and the select keeps it. -/
private theorem word_keep (w : BitVec 32) (hw : w.toNat ≤ 4096) :
    Scalar.select (IntOp.cmpi .slt (IntOp.maxsi 0#32 w) 0#32) (IntOp.addi (IntOp.maxsi 0#32 w) 4096#32)
      (IntOp.maxsi 0#32 w) = w := by
  have hti : w.toInt = w.toNat := StableHlo.Predicate.toInt_eq_toNat_of_lt (by omega)
  have hslt : w.slt 0#32 = false := by
    rw [BitVec.slt, hti, show (0#32 : BitVec 32).toInt = 0 from rfl]
    exact decide_eq_false (by omega)
  have hmax : IntOp.maxsi 0#32 w = w := by
    unfold IntOp.maxsi
    rw [hslt]
    rfl
  rw [hmax]
  unfold IntOp.cmpi
  simp only [hslt]
  rfl

/-- The scatter index of a running count of value at most 4096 is the count itself. -/
private theorem binIdx_apply (c : IVec S4096 32) (n : Fin 4096) (hn : (c (ix1 n)).toNat ≤ 4096) :
    RefFn.binIdx c (ix2 n (0 : Fin 1)) = c (ix1 n) := by
  unfold RefFn.binIdx
  dsimp only
  rw [bcast_col]
  exact word_keep _ hn

/-- The update at position j lands at k exactly when its index word, read signed, is k: the start is not clamped,
    there is no window coordinate, and an index outside 0 … 4095 is dropped. -/
private theorem resultIdx_iff (idx : IVec S4096x1 32) (j k : Fin 4096) :
    scatter_S4096_S4096x1_S4096_n_0_0_1.resultIdx? (ix1 j) idx = some (ix1 k)
      ↔ (idx (ix2 j (0 : Fin 1))).toInt = (k.val : ℤ) := by
  have hk := k.isLt
  have hstart : ∀ a, scatter_S4096_S4096x1_S4096_n_0_0_1.start (ix1 j) idx a = (idx (ix2 j (0 : Fin 1))).toInt := by
    intro a
    obtain rfl : a = 0 := Subsingleton.elim _ _
    unfold ScatterDims.start
    split
    · next ha =>
      congr 2
      funext b
      refine Fin.ext ?_
      match b with
      | ⟨0, _⟩ => rfl
      | ⟨1, _⟩ => rfl
    · next ha => exact absurd (List.mem_singleton.mpr rfl) ha
  have hwin : ∀ a, scatter_S4096_S4096x1_S4096_n_0_0_1.window (ix1 j) a = 0 := by
    intro a
    obtain rfl : a = 0 := Subsingleton.elim _ _
    unfold ScatterDims.window
    split
    · next ha =>
      simp [ScatterDims.sKept, Shape.kept, scatter_S4096_S4096x1_S4096_n_0_0_1] at ha
    · rfl
  have hsize : ∀ a : Fin 1, S4096.size a = 4096 := by
    intro a
    obtain rfl : a = 0 := Subsingleton.elim _ _
    rfl
  unfold ScatterDims.resultIdx?
  split
  · next h =>
    have h0 := h 0
    rw [hstart, hwin] at h0
    constructor
    · intro e
      have e1 := congrFun (Option.some.inj e) 0
      have e2 : (scatter_S4096_S4096x1_S4096_n_0_0_1.start (ix1 j) idx 0
          + (scatter_S4096_S4096x1_S4096_n_0_0_1.window (ix1 j) 0 : ℤ)).toNat = k.val := congrArg Fin.val e1
      rw [hstart, hwin] at e2
      omega
    · intro e
      congr 1
      funext a
      obtain rfl : a = 0 := Subsingleton.elim _ _
      apply Fin.ext
      show (scatter_S4096_S4096x1_S4096_n_0_0_1.start (ix1 j) idx 0
          + (scatter_S4096_S4096x1_S4096_n_0_0_1.window (ix1 j) 0 : ℤ)).toNat = k.val
      rw [hstart, hwin]
      omega
  · next h =>
    constructor
    · intro e
      cases e
    · intro e
      exfalso
      apply h
      intro a
      rw [hstart, hwin, hsize]
      omega

/-- For running counts (values at most 4096), `bins` at k is the number of positions whose value is k. -/
theorem bins_apply (c : IVec S4096 32) (hc : ∀ j : Fin 4096, (c (ix1 j)).toNat ≤ 4096) (k : Fin 4096) :
    RefFn.bins c (ix1 k) = BitVec.ofNat 32 (Finset.univ.filter fun j : Fin 4096 => (c (ix1 j)).toNat = k.val).card := by
  unfold RefFn.bins Host.scatter
  refine (foldl_count
    (fun n => scatter_S4096_S4096x1_S4096_n_0_0_1.resultIdx? ((⟨1, ![4096]⟩ : Shape).rowMajor.symm n) (RefFn.binIdx c))
    _ ?_ ?_ _ _ _).trans ?_
  · intro r n h
    have h' : scatter_S4096_S4096x1_S4096_n_0_0_1.resultIdx? ((⟨1, ![4096]⟩ : Shape).rowMajor.symm n) (RefFn.binIdx c)
        = none := h
    simp only [h']
  · intro r n i h
    have h' : scatter_S4096_S4096x1_S4096_n_0_0_1.resultIdx? ((⟨1, ![4096]⟩ : Shape).rowMajor.symm n) (RefFn.binIdx c)
        = some i := h
    simp only [h']
    rfl
  · rw [splat_apply, BitVec.zero_add]
    refine congrArg (BitVec.ofNat 32) ?_
    rw [← Fin.sum_univ_def, sum_fin_cast numel_4096, Finset.card_filter]
    refine Finset.sum_congr rfl (fun j _ => ?_)
    refine if_congr ?_ rfl rfl
    have hw := hc j
    show scatter_S4096_S4096x1_S4096_n_0_0_1.resultIdx?
        ((⟨1, ![4096]⟩ : Shape).rowMajor.symm (j.cast numel_4096.symm)) (RefFn.binIdx c) = some (ix1 k) ↔ _
    rw [symm_eq, resultIdx_iff, binIdx_apply c j hw,
      StableHlo.Predicate.toInt_eq_toNat_of_lt (a := c (ix1 j)) (by omega)]
    omega

end Cert.ReferenceIdeal.RefCsum

end
-- ==== Proof.RefDivMod.lean ====
/-
  The small integer steps of the edge search, read at a position: floor division and remainder of a small
  non-negative word by 64 and by 1 are the natural-number quotient and remainder (no sign correction applies); the
  count of nonzero entries; and the two comparisons of a position with that count.
-/
import proofs.«175083_g12077448036551_cont_sun_c4_50_15_alg».proof.Proof.RefFn
import Idealize.ShloMosaic.Lib.ValueIdx
import Idealize.ShloMosaic.Lib.StableHlo.Predicate

noncomputable section

open scoped BigOperators

namespace Cert.ReferenceIdeal.RefDivMod

open Idealize.ShloMosaic Idealize.ShloMosaic.ValueIdx Cert.ReferenceIdeal Cert.ReferenceIdeal.Facts₀ Cert.ReferenceIdeal.Facts
open Idealize.ShloMosaic.StableHlo

/-! ## Words: a word below 2³¹ has a clear sign bit, and two such words divide as their values -/

/-- A word below 2³¹ has its sign bit clear. -/
private theorem msb_false_of_lt {x : BitVec 32} (h : x.toNat < 2 ^ 31) : x.msb = false :=
  BitVec.msb_eq_false_iff_two_mul_lt.mpr (by omega)

/-- A word with a positive value is not the zero word. -/
private theorem ne_zero_of_pos {d : BitVec 32} (h : 0 < d.toNat) : d ≠ 0 := by
  intro e; rw [e] at h; simp at h

/-- A non-negative dividend and a positive divisor meet no corner of signed division. -/
private theorem not_corner {x d : BitVec 32} (hd0 : 0 < d.toNat) (hd : d.toNat < 2 ^ 31) : ¬ IntOp.SDivCorner x d := by
  rintro (hc | ⟨_, hc⟩)
  · exact ne_zero_of_pos hd0 hc
  · rw [hc] at hd; revert hd; decide

/-- The value of the word of a number below 2³². -/
private theorem toNat_ofNat_lt {n : ℕ} (h : n < 2 ^ 32) : (BitVec.ofNat 32 n).toNat = n := by
  rw [BitVec.toNat_ofNat]; exact Nat.mod_eq_of_lt h

/-- Signed division of a non-negative word by a positive one is the quotient of the values. -/
private theorem divsi_small (u : ArithUnit) (x d : BitVec 32) (hx : x.toNat < 2 ^ 31) (hd0 : 0 < d.toNat)
    (hd : d.toNat < 2 ^ 31) : IntOp.divsi u x d = BitVec.ofNat 32 (x.toNat / d.toNat) := by
  have hle : x.toNat / d.toNat ≤ x.toNat := Nat.div_le_self _ _
  apply BitVec.eq_of_toNat_eq
  rw [toNat_ofNat_lt (by omega)]
  simp only [IntOp.divsi, if_neg (not_corner hd0 hd), BitVec.sdiv_eq, msb_false_of_lt hx, msb_false_of_lt hd, BitVec.udiv_eq,
    BitVec.toNat_udiv]

/-- Signed remainder of a non-negative word by a positive one is the remainder of the values. -/
private theorem remsi_small (u : ArithUnit) (x d : BitVec 32) (hx : x.toNat < 2 ^ 31) (hd0 : 0 < d.toNat)
    (hd : d.toNat < 2 ^ 31) : IntOp.remsi u x d = BitVec.ofNat 32 (x.toNat % d.toNat) := by
  have hle : x.toNat % d.toNat < d.toNat := Nat.mod_lt _ hd0
  apply BitVec.eq_of_toNat_eq
  rw [toNat_ofNat_lt (by omega)]
  simp only [IntOp.remsi, if_neg (not_corner hd0 hd), BitVec.srem_eq, msb_false_of_lt hx, msb_false_of_lt hd, BitVec.toNat_umod]

/-- The sign word: 0 at zero, −1 under a set sign bit, else 1. -/
private def sgnW (x : BitVec 32) : BitVec 32 := if x = 0 then 0 else if x.msb then -1 else 1

/-- Floor division of words: the truncated quotient, less one where the signs differ and the remainder is nonzero. -/
private def floorDivW (x d : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

/-- The floor remainder of words: the truncated remainder by the divisor (by 1 for a zero divisor), plus the divisor
    where the remainder is nonzero and of the other sign. -/
private def remWW (q d : BitVec 32) : BitVec 32 :=
  let d' : BitVec 32 := Scalar.select (IntOp.cmpi .eq d 0#32) 1#32 d
  let v4 : BitVec 32 := IntOp.remsi .host q d'
  Scalar.select
    (IntOp.andi (IntOp.cmpi .ne (IntOp.cmpi .slt v4 0#32) (IntOp.cmpi .slt d' 0#32)) (IntOp.cmpi .ne v4 0#32))
    (IntOp.addi v4 d') v4

/-- For a non-negative dividend and a positive divisor no correction applies: floor division is the quotient. -/
private theorem floorDivW_small (x d : BitVec 32) (hx : x.toNat < 2 ^ 31) (hd0 : 0 < d.toNat) (hd : d.toNat < 2 ^ 31) :
    floorDivW x d = BitVec.ofNat 32 (x.toNat / d.toNat) := by
  have hcond : IntOp.andi (IntOp.cmpi .ne (sgnW x) (sgnW d)) (IntOp.cmpi .ne (IntOp.remsi .host x d) 0#32) = 0#1 := by
    have hsd : sgnW d = 1 := by
      unfold sgnW; rw [if_neg (ne_zero_of_pos hd0), msb_false_of_lt hd]; rfl
    by_cases hx0 : x = 0
    · -- a zero dividend leaves a zero remainder
      subst hx0
      rw [remsi_small .host _ _ hx hd0 hd]
      have : (0 : BitVec 32).toNat % d.toNat = 0 := by simp
      rw [this]
      show (_ : BitVec 1) &&& BitVec.ofBool (BitVec.ofNat 32 0 != 0#32) = 0#1
      simp
    · -- a positive dividend has the divisor's sign
      have hsx : sgnW x = 1 := by
        unfold sgnW; rw [if_neg hx0, msb_false_of_lt hx]; rfl
      rw [hsx, hsd]
      show BitVec.ofBool ((1 : BitVec 32) != 1) &&& (_ : BitVec 1) = 0#1
      simp
  unfold floorDivW
  rw [hcond, select_zero, divsi_small .host x d hx hd0 hd]

/-- For a non-negative word the floor remainder by 64 is the remainder of the value. -/
private theorem remWW_64 (q : BitVec 32) (hq : q.toNat < 2 ^ 31) : remWW q 64#32 = BitVec.ofNat 32 (q.toNat % 64) := by
  have hd' : Scalar.select (IntOp.cmpi .eq (64#32 : BitVec 32) 0#32) 1#32 64#32 = 64#32 := by decide
  have h64 : (64#32 : BitVec 32).toNat = 64 := by decide
  have hrem : IntOp.remsi .host q 64#32 = BitVec.ofNat 32 (q.toNat % 64) := by
    rw [remsi_small .host q 64#32 hq (by rw [h64]; omega) (by rw [h64]; omega), h64]
  have hlt : (BitVec.ofNat 32 (q.toNat % 64)).toNat < 2 ^ 31 := by
    rw [toNat_ofNat_lt (by omega)]; omega
  have hneg : IntOp.cmpi .slt (BitVec.ofNat 32 (q.toNat % 64)) 0#32 = 0#1 := by
    apply eq_zero_of_ne_one
    intro h1
    have := (Predicate.slt_iff_toNat hlt (by decide)).mp h1
    simp at this
  unfold remWW
  simp only [hd', hrem, hneg]
  have hc : IntOp.cmpi .ne (0#1 : BitVec 1) (IntOp.cmpi .slt (64#32 : BitVec 32) 0#32) = 0#1 := by decide
  rw [hc]
  show Scalar.select ((0#1 : BitVec 1) &&& _) _ _ = _
  rw [BitVec.zero_and, select_zero]

variable [Cert.ReferenceIdeal.Facts]

/-- Floor division by a scalar, read at a position, is the floor division of the words. -/
private theorem floorDiv_apply (a : IVec S4096 32) (d : BitVec 32) (i : S4096.Idx) :
    RefFn.floorDiv a (constantI S_ 32 d) i = floorDivW (a i) d := rfl

/-- The floor remainder by a scalar, read at a position, is the floor remainder of the words. -/
private theorem remW_apply (a : IVec S4096 32) (d : BitVec 32) (i : S4096.Idx) :
    RefFn.remW a (constantI S_ 32 d) i = remWW (a i) d := rfl

/-- The nonzero mask at a position. -/
private theorem nzMask_apply (g : IVec S64x64 32) (p : S64x64.Idx) :
    RefFn.nzMask g p = BitVec.ofBool (g p != 0#32) := rfl

/-- The value of a widened mask bit: 1 at a nonzero entry, else 0. -/
private theorem toNat_mask (g : IVec S64x64 32) (p : S64x64.Idx) :
    ((RefFn.nzMask g p).setWidth 32).toNat = if g p ≠ 0#32 then 1 else 0 := by
  rw [nzMask_apply]
  by_cases h : g p = 0#32
  · rw [if_neg (not_not.mpr h), h]; rfl
  · have hb : (g p != 0#32) = true := by simpa using h
    rw [if_pos h, hb]; rfl

/-- The flattened mask at flat position j is the mask at row j / 64, column j % 64. -/
theorem maskWords_apply (g : IVec S64x64 32) (j : Fin 4096) :
    RefFn.maskWords g (ix1 j)
      = if g (ix2 (⟨j.val / 64, by omega⟩ : Fin 64) (⟨j.val % 64, by omega⟩ : Fin 64)) = 0#32 then 0#32 else 1#32 := by
  have hk : (S64x64.rowMajor (ix2 (⟨j.val / 64, by omega⟩ : Fin 64) (⟨j.val % 64, by omega⟩ : Fin 64))).val
      = (S4096.rowMajor (ix1 j)).val := by
    rw [Shape.rowMajor_val_two, Shape.rowMajor_val_one]
    show j.val / 64 * 64 + j.val % 64 = j.val
    omega
  have hcast : shapeCast S4096 (RefFn.nzMask g) shapeCasts_S64x64_S4096 (ix1 j)
      = RefFn.nzMask g (ix2 (⟨j.val / 64, by omega⟩ : Fin 64) (⟨j.val % 64, by omega⟩ : Fin 64)) := by
    unfold shapeCast
    exact congrArg _ (Shape.reshapeEquiv_eq_of_rowMajor _ hk)
  show (shapeCast S4096 (RefFn.nzMask g) shapeCasts_S64x64_S4096 (ix1 j)).setWidth 32 = _
  rw [hcast, nzMask_apply]
  by_cases h : g (ix2 (⟨j.val / 64, by omega⟩ : Fin 64) (⟨j.val % 64, by omega⟩ : Fin 64)) = 0#32
  · rw [if_pos h, h]; rfl
  · rw [if_neg h]
    have : (g (ix2 (⟨j.val / 64, by omega⟩ : Fin 64) (⟨j.val % 64, by omega⟩ : Fin 64)) != 0#32) = true := by
      simpa using h
    rw [this]; rfl

/-- (a / 64) % 64 for a small non-negative word a. -/
theorem rowRaw_apply (a : IVec S4096 32) (k : Fin 4096) (ha : (a (ix1 k)).toNat ≤ 4096) :
    RefFn.remW (RefFn.floorDiv a (constantI S_ 32 64#32)) (constantI S_ 32 64#32) (ix1 k)
      = BitVec.ofNat 32 ((a (ix1 k)).toNat / 64 % 64) := by
  have h64 : (64#32 : BitVec 32).toNat = 64 := by decide
  rw [remW_apply, floorDiv_apply, floorDivW_small _ _ (by omega) (by rw [h64]; omega) (by rw [h64]; omega), h64]
  have hq : (BitVec.ofNat 32 ((a (ix1 k)).toNat / 64)).toNat = (a (ix1 k)).toNat / 64 := toNat_ofNat_lt (by omega)
  rw [remWW_64 _ (by rw [hq]; omega), hq]

/-- (a / 1) % 64 for a small non-negative word a. -/
theorem colRaw_apply (a : IVec S4096 32) (k : Fin 4096) (ha : (a (ix1 k)).toNat ≤ 4096) :
    RefFn.remW (RefFn.floorDiv a (constantI S_ 32 1#32)) (constantI S_ 32 64#32) (ix1 k)
      = BitVec.ofNat 32 ((a (ix1 k)).toNat % 64) := by
  have h1 : (1#32 : BitVec 32).toNat = 1 := by decide
  rw [remW_apply, floorDiv_apply, floorDivW_small _ _ (by omega) (by rw [h1]; omega) (by rw [h1]; omega), h1, Nat.div_one]
  have hq : (BitVec.ofNat 32 (a (ix1 k)).toNat).toNat = (a (ix1 k)).toNat := toNat_ofNat_lt (by omega)
  rw [remWW_64 _ (by rw [hq]; omega), hq]

/-- The count of nonzero entries, as a word. -/
theorem total_apply (g : IVec S64x64 32) :
    RefFn.total g ix0 = BitVec.ofNat 32 (Finset.univ.filter fun p : S64x64.Idx => g p ≠ 0#32).card := by
  -- the widened bits sum to the number of nonzero entries
  have hsum : ∑ i : S64x64.Idx, (extui 32 (RefFn.nzMask g) natLt_1_32 i).toNat
      = (Finset.univ.filter fun p : S64x64.Idx => g p ≠ 0#32).card := by
    rw [Finset.card_filter]
    exact Finset.sum_congr rfl (fun i _ => toNat_mask g i)
  have hcard : (Finset.univ.filter fun p : S64x64.Idx => g p ≠ 0#32).card ≤ 4096 := by
    refine (Finset.card_le_univ _).trans ?_
    rw [Shape.card_idx]; decide
  unfold RefFn.total
  -- every entry reduces to the one scalar position
  rw [Host.reduce_eq_fold, Finset.filter_true_of_mem (fun i _ => eq_ix0 _)]
  apply BitVec.eq_of_toNat_eq
  show (Finset.fold IntOp.addi 0#32 (extui 32 (RefFn.nzMask g) natLt_1_32) Finset.univ).toNat = _
  rw [Predicate.toNat_fold_addi _ _ (by rw [hsum]; omega), hsum, toNat_ofNat_lt (by omega)]

/-- The count laid along the positions reads the count at every position. -/
private theorem bcast_total (g : IVec S64x64 32) (k : Fin 4096) :
    broadcastInDim S4096 ![] bcast_S_S4096 (RefFn.total g) (ix1 k) = RefFn.total g ix0 := by
  rw [Predicate.bcast_scalar bcast_S_S4096 h_S_, eq_ix0 (Shape.Idx.first h_S_)]

/-- Position k is filled exactly when it is at or past the count. -/
theorem fillM_apply (g : IVec S64x64 32) (n : ℕ) (hn : n ≤ 4096) (ht : RefFn.total g ix0 = BitVec.ofNat 32 n) (k : Fin 4096) :
    RefFn.fillM g (ix1 k) = if n ≤ k.val then 1#1 else 0#1 := by
  have hk := k.isLt
  have e : RefFn.fillM g (ix1 k)
      = IntOp.cmpi .sge (BitVec.ofNat 32 k.val) (broadcastInDim S4096 ![] bcast_S_S4096 (RefFn.total g) (ix1 k)) := rfl
  rw [e, bcast_total, ht]
  have key := Predicate.sge_iff_toNat (a := BitVec.ofNat 32 k.val) (b := BitVec.ofNat 32 n)
    (by rw [toNat_ofNat_lt (by omega)]; omega) (by rw [toNat_ofNat_lt (by omega)]; omega)
  rw [toNat_ofNat_lt (by omega), toNat_ofNat_lt (by omega)] at key
  by_cases h : n ≤ k.val
  · rw [if_pos h]; exact key.mpr h
  · rw [if_neg h]; exact eq_zero_of_ne_one (fun h1 => h (key.mp h1))

/-- Position k is a real edge exactly when it is below the count. -/
theorem validM_apply (g : IVec S64x64 32) (n : ℕ) (hn : n ≤ 4096) (ht : RefFn.total g ix0 = BitVec.ofNat 32 n) (k : Fin 4096) :
    RefFn.validM g (ix1 k) = if k.val < n then 1#1 else 0#1 := by
  have hk := k.isLt
  have e : RefFn.validM g (ix1 k)
      = IntOp.cmpi .slt (BitVec.ofNat 32 k.val) (broadcastInDim S4096 ![] bcast_S_S4096 (RefFn.total g) (ix1 k)) := rfl
  rw [e, bcast_total, ht]
  have key := Predicate.slt_iff_toNat (a := BitVec.ofNat 32 k.val) (b := BitVec.ofNat 32 n)
    (by rw [toNat_ofNat_lt (by omega)]; omega) (by rw [toNat_ofNat_lt (by omega)]; omega)
  rw [toNat_ofNat_lt (by omega), toNat_ofNat_lt (by omega)] at key
  by_cases h : k.val < n
  · rw [if_pos h]; exact key.mpr h
  · rw [if_neg h]; exact eq_zero_of_ne_one (fun h1 => h (key.mp h1))

end Cert.ReferenceIdeal.RefDivMod

end
-- ==== Proof.RefNonzero.lean ====
/-
  The edge search finds every nonzero entry of the adjacency exactly once.

  The valid positions k carry a row and a column; as k runs over them, (row, column) runs once through the entries
  (r, c) with a nonzero word.  Stated as a sum: a sum over the valid positions of any function of (row, column) is
  the sum of that function over the nonzero entries.

  Mark the flat position j = 64 r + c when the word at (r, c) is nonzero.  The first running sum is the running count
  of marked positions; the count-by-value followed by the second running sum gives, at k, the number of positions whose
  running count is at most k, which for k below the number of marked positions is the flat position of the (k+1)-th
  marked one.  Its quotient and remainder by 64 are the row and the column.
-/
import proofs.«175083_g12077448036551_cont_sun_c4_50_15_alg».proof.Proof.RefFn
import Idealize.ShloMosaic.Lib.ValueIdx
import proofs.«175083_g12077448036551_cont_sun_c4_50_15_alg».proof.Proof.LibCount
import proofs.«175083_g12077448036551_cont_sun_c4_50_15_alg».proof.Proof.RefCsum
import proofs.«175083_g12077448036551_cont_sun_c4_50_15_alg».proof.Proof.RefDivMod

noncomputable section

open scoped BigOperators

namespace Cert.ReferenceIdeal.RefNonzero

open Idealize.ShloMosaic Idealize.ShloMosaic.ValueIdx Cert.ReferenceIdeal Cert.ReferenceIdeal.Facts₀ Cert.ReferenceIdeal.Facts

/-! ## The 64 × 64 grid and its row-major positions -/

/-- Row-major position 64 r + c of the entry (r, c); back, row j / 64 and column j % 64. -/
def flatEquiv : Fin 64 × Fin 64 ≃ Fin 4096 where
  toFun p := ⟨64 * p.1.val + p.2.val, by have h1 := p.1.isLt; have h2 := p.2.isLt; omega⟩
  invFun j := (⟨j.val / 64, by have h := j.isLt; omega⟩, ⟨j.val % 64, by omega⟩)
  left_inv := by
    rintro ⟨⟨a, ha⟩, ⟨b, hb⟩⟩
    refine Prod.ext (Fin.ext ?_) (Fin.ext ?_)
    · show (64 * a + b) / 64 = a
      omega
    · show (64 * a + b) % 64 = b
      omega
  right_inv := by
    rintro ⟨j, hj⟩
    refine Fin.ext ?_
    show 64 * (j / 64) + j % 64 = j
    omega

/-- A sum over the flat positions of a function of (row, column) is the double sum over rows and columns. -/
theorem sum_flat {M : Type} [AddCommMonoid M] (f : Fin 64 → Fin 64 → M) :
    (∑ j : Fin 4096, f (⟨j.val / 64, by omega⟩ : Fin 64) (⟨j.val % 64, by omega⟩ : Fin 64))
      = ∑ r : Fin 64, ∑ c : Fin 64, f r c := by
  have h := Equiv.sum_comp flatEquiv.symm (fun p : Fin 64 × Fin 64 => f p.1 p.2)
  rw [Fintype.sum_prod_type] at h
  exact h

/-- A small natural number is the value of its word. -/
theorem toNat_ofNat_small (a : ℕ) (ha : a ≤ 4096) : (BitVec.ofNat 32 a).toNat = a := by
  rw [BitVec.toNat_ofNat]
  exact Nat.mod_eq_of_lt (by omega)

/-- A set of positions has at most 4096 elements. -/
theorem card_filter_le_4096 (p : Fin 4096 → Prop) [DecidablePred p] : (Finset.univ.filter p).card ≤ 4096 := by
  calc (Finset.univ.filter p).card ≤ (Finset.univ : Finset (Fin 4096)).card := Finset.card_filter_le _ _
    _ = 4096 := by rw [Finset.card_univ, Fintype.card_fin]

/-- The number of positions with running count at most k is at most 4096. -/
theorem posOf_le (m : Fin 4096 → Bool) (k : ℕ) : LibCount.posOf m k ≤ 4096 := by
  unfold LibCount.posOf
  exact card_filter_le_4096 _

/-- The running count is at most 4096. -/
theorem runCount_le (m : Fin 4096 → Bool) (j : Fin 4096) : LibCount.runCount m j ≤ 4096 :=
  le_trans (LibCount.runCount_le_total m j) (LibCount.total_le m)

/-- Flat position j is marked when the adjacency word at row j / 64, column j % 64 is nonzero. -/
def mark (g : IVec S64x64 32) (j : Fin 4096) : Bool :=
  decide (g (ix2 (⟨j.val / 64, by omega⟩ : Fin 64) (⟨j.val % 64, by omega⟩ : Fin 64)) ≠ 0#32)

theorem mark_iff (g : IVec S64x64 32) (j : Fin 4096) :
    mark g j = true ↔ g (ix2 (⟨j.val / 64, by omega⟩ : Fin 64) (⟨j.val % 64, by omega⟩ : Fin 64)) ≠ 0#32 := by
  unfold mark
  exact decide_eq_true_iff

/-- The nonzero entries of the grid are as many as the marked flat positions. -/
theorem card_nonzero (g : IVec S64x64 32) :
    (Finset.univ.filter fun p : S64x64.Idx => g p ≠ 0#32).card = LibCount.total (mark g) := by
  have e1 : (Finset.univ.filter fun p : S64x64.Idx => g p ≠ 0#32).card
      = ∑ r : Fin 64, ∑ c : Fin 64, (if g (ix2 r c) ≠ 0#32 then 1 else 0) := by
    rw [Finset.card_filter]
    exact sum_idx2 (n0 := 64) (n1 := 64) (fun p => if g p ≠ 0#32 then 1 else 0)
  have e2 : LibCount.total (mark g)
      = ∑ j : Fin 4096, (if g (ix2 (⟨j.val / 64, by omega⟩ : Fin 64) (⟨j.val % 64, by omega⟩ : Fin 64)) ≠ 0#32
          then 1 else 0) := by
    unfold LibCount.total
    rw [Finset.card_filter]
    refine Finset.sum_congr rfl fun j _ => ?_
    by_cases hg : g (ix2 (⟨j.val / 64, by omega⟩ : Fin 64) (⟨j.val % 64, by omega⟩ : Fin 64)) ≠ 0#32
    · rw [if_pos hg, if_pos ((mark_iff g j).mpr hg)]
    · rw [if_neg hg, if_neg (fun h => hg ((mark_iff g j).mp h))]
  rw [e1, e2]
  exact (sum_flat (fun r c => if g (ix2 r c) ≠ 0#32 then 1 else 0)).symm

/-- The number of positions whose running count is v. -/
def cntEq (m : Fin 4096 → Bool) (v : ℕ) : ℕ := (Finset.univ.filter fun j : Fin 4096 => LibCount.runCount m j = v).card

/-- The counts by value, summed over the values up to k (as a sum over all 4096 values, cut at k), give the number of
    positions whose running count is at most k. -/
theorem sum_cntEq (m : Fin 4096 → Bool) (k : Fin 4096) :
    (∑ i : Fin 4096, if i ≤ k then cntEq m i.val else 0) = LibCount.posOf m k.val := by
  have h1 : (∑ i : Fin 4096, if i ≤ k then cntEq m i.val else 0)
      = ∑ i : Fin 4096, (if i.val ≤ k.val then cntEq m i.val else 0) := by
    refine Finset.sum_congr rfl fun i _ => ?_
    by_cases h : i ≤ k
    · rw [if_pos h, if_pos (Fin.le_def.mp h)]
    · rw [if_neg h, if_neg (fun h' => h (Fin.le_def.mpr h'))]
  have h2 : (∑ i : Fin 4096, (if i.val ≤ k.val then cntEq m i.val else 0))
      = ∑ v ∈ Finset.range 4096, (if v ≤ k.val then cntEq m v else 0) :=
    Fin.sum_univ_eq_sum_range (fun v => if v ≤ k.val then cntEq m v else 0) 4096
  have h3 : (∑ v ∈ Finset.range 4096, (if v ≤ k.val then cntEq m v else 0))
      = ∑ v ∈ Finset.range (k.val + 1), cntEq m v := by
    rw [← Finset.sum_filter]
    refine Finset.sum_congr ?_ fun _ _ => rfl
    ext v
    rw [Finset.mem_filter, Finset.mem_range, Finset.mem_range]
    have hk := k.isLt
    omega
  rw [h1, h2, h3, LibCount.posOf_eq_sum]
  rfl

variable [Cert.ReferenceIdeal.Facts]

/-! ## The reference's steps, read at a position -/

/-- The first running sum is the running count of marked positions. -/
theorem cum1_apply (g : IVec S64x64 32) (j : Fin 4096) :
    RefFn.cum1 g (ix1 j) = BitVec.ofNat 32 (LibCount.runCount (mark g) j) := by
  unfold RefFn.cum1
  rw [RefCsum.csum_apply]
  refine congrArg (BitVec.ofNat 32) ?_
  unfold LibCount.runCount
  rw [Finset.card_filter]
  refine Finset.sum_congr rfl fun i _ => ?_
  rw [RefDivMod.maskWords_apply]
  by_cases hi : i ≤ j
  · by_cases hg : g (ix2 (⟨i.val / 64, by omega⟩ : Fin 64) (⟨i.val % 64, by omega⟩ : Fin 64)) = 0#32
    · rw [if_pos hi, if_pos hg, if_neg (fun h => (mark_iff g i).mp h.2 hg)]
      rfl
    · rw [if_pos hi, if_neg hg, if_pos ⟨hi, (mark_iff g i).mpr hg⟩]
      rfl
  · rw [if_neg hi, if_neg (fun h => hi h.1)]

theorem cum1_toNat (g : IVec S64x64 32) (j : Fin 4096) :
    (RefFn.cum1 g (ix1 j)).toNat = LibCount.runCount (mark g) j := by
  rw [cum1_apply]
  exact toNat_ofNat_small _ (runCount_le _ _)

/-- The count-by-value of the running counts. -/
theorem bins_cum1_apply (g : IVec S64x64 32) (k : Fin 4096) :
    RefFn.bins (RefFn.cum1 g) (ix1 k) = BitVec.ofNat 32 (cntEq (mark g) k.val) := by
  rw [RefCsum.bins_apply (RefFn.cum1 g) (fun j => by rw [cum1_toNat]; exact runCount_le _ _) k]
  refine congrArg (fun S : Finset (Fin 4096) => BitVec.ofNat 32 S.card) ?_
  exact Finset.filter_congr fun j _ => by rw [cum1_toNat]

theorem bins_cum1_toNat (g : IVec S64x64 32) (k : Fin 4096) :
    (RefFn.bins (RefFn.cum1 g) (ix1 k)).toNat = cntEq (mark g) k.val := by
  rw [bins_cum1_apply]
  exact toNat_ofNat_small _ (card_filter_le_4096 _)

/-- The second running sum at k is the number of positions whose running count is at most k. -/
theorem flat_apply (g : IVec S64x64 32) (k : Fin 4096) :
    RefFn.flat g (ix1 k) = BitVec.ofNat 32 (LibCount.posOf (mark g) k.val) := by
  unfold RefFn.flat
  rw [RefCsum.csum_apply]
  refine congrArg (BitVec.ofNat 32) ?_
  rw [← sum_cntEq (mark g) k]
  refine Finset.sum_congr rfl fun i _ => ?_
  rw [bins_cum1_toNat]

theorem flat_toNat (g : IVec S64x64 32) (k : Fin 4096) :
    (RefFn.flat g (ix1 k)).toNat = LibCount.posOf (mark g) k.val := by
  rw [flat_apply]
  exact toNat_ofNat_small _ (posOf_le _ _)

/-- The count of nonzero entries is the number of marked positions. -/
theorem total_word (g : IVec S64x64 32) : RefFn.total g ix0 = BitVec.ofNat 32 (LibCount.total (mark g)) := by
  rw [RefDivMod.total_apply, card_nonzero]

theorem rowRaw_eq (g : IVec S64x64 32) (k : Fin 4096) :
    RefFn.rowRaw g (ix1 k) = BitVec.ofNat 32 (LibCount.posOf (mark g) k.val / 64 % 64) := by
  unfold RefFn.rowRaw
  rw [RefDivMod.rowRaw_apply (RefFn.flat g) k (by rw [flat_toNat]; exact posOf_le _ _), flat_toNat]

theorem colRaw_eq (g : IVec S64x64 32) (k : Fin 4096) :
    RefFn.colRaw g (ix1 k) = BitVec.ofNat 32 (LibCount.posOf (mark g) k.val % 64) := by
  unfold RefFn.colRaw
  rw [RefDivMod.colRaw_apply (RefFn.flat g) k (by rw [flat_toNat]; exact posOf_le _ _), flat_toNat]

/-- Rows with the fill: 0 from the number of marked positions on. -/
theorem rowW_eq (g : IVec S64x64 32) (k : Fin 4096) :
    RefFn.rowW g (ix1 k)
      = if LibCount.total (mark g) ≤ k.val then 0#32 else BitVec.ofNat 32 (LibCount.posOf (mark g) k.val / 64 % 64) := by
  unfold RefFn.rowW
  rw [select_apply, RefDivMod.fillM_apply g _ (LibCount.total_le _) (total_word g) k, rowRaw_eq]
  by_cases h : LibCount.total (mark g) ≤ k.val
  · rw [if_pos h, if_pos h, select_one]
    rfl
  · rw [if_neg h, if_neg h, select_zero]

/-- Columns with the fill. -/
theorem colW_eq (g : IVec S64x64 32) (k : Fin 4096) :
    RefFn.colW g (ix1 k)
      = if LibCount.total (mark g) ≤ k.val then 0#32 else BitVec.ofNat 32 (LibCount.posOf (mark g) k.val % 64) := by
  unfold RefFn.colW
  rw [select_apply, RefDivMod.fillM_apply g _ (LibCount.total_le _) (total_word g) k, colRaw_eq]
  by_cases h : LibCount.total (mark g) ≤ k.val
  · rw [if_pos h, if_pos h, select_one]
    rfl
  · rw [if_neg h, if_neg h, select_zero]

/-! ## Rows, columns and validity as numbers -/

/-- The row of the k-th edge: the (k+1)-th marked position divided by 64 (0 past the last edge). -/
def rowN (g : IVec S64x64 32) (k : Fin 4096) : Fin 64 :=
  if h : k.val < LibCount.total (mark g) then
    ⟨LibCount.posOf (mark g) k.val / 64, by have h' := LibCount.posOf_lt (mark g) h; omega⟩
  else 0

/-- The column of the k-th edge: the (k+1)-th marked position modulo 64 (0 past the last edge). -/
def colN (g : IVec S64x64 32) (k : Fin 4096) : Fin 64 :=
  if h : k.val < LibCount.total (mark g) then ⟨LibCount.posOf (mark g) k.val % 64, by omega⟩ else 0

theorem rowN_val_of_lt (g : IVec S64x64 32) (k : Fin 4096) (h : k.val < LibCount.total (mark g)) :
    (rowN g k).val = LibCount.posOf (mark g) k.val / 64 := by
  unfold rowN
  rw [dif_pos h]

theorem colN_val_of_lt (g : IVec S64x64 32) (k : Fin 4096) (h : k.val < LibCount.total (mark g)) :
    (colN g k).val = LibCount.posOf (mark g) k.val % 64 := by
  unfold colN
  rw [dif_pos h]

theorem rowN_val_of_not_lt (g : IVec S64x64 32) (k : Fin 4096) (h : ¬ k.val < LibCount.total (mark g)) :
    (rowN g k).val = 0 := by
  unfold rowN
  rw [dif_neg h]
  rfl

theorem colN_val_of_not_lt (g : IVec S64x64 32) (k : Fin 4096) (h : ¬ k.val < LibCount.total (mark g)) :
    (colN g k).val = 0 := by
  unfold colN
  rw [dif_neg h]
  rfl

/-- The rows, columns and validity bits the reference computes, and the sum they index. -/
theorem edges_spec (g : IVec S64x64 32) :
    ∃ (rowN colN : Fin 4096 → Fin 64) (valid : Fin 4096 → Bool),
      (∀ k : Fin 4096, RefFn.validM g (ix1 k) = if valid k = true then 1#1 else 0#1) ∧
      (∀ k : Fin 4096, RefFn.rowW g (ix1 k) = BitVec.ofNat 32 (rowN k).val) ∧
      (∀ k : Fin 4096, RefFn.colW g (ix1 k) = BitVec.ofNat 32 (colN k).val) ∧
      (∀ φ : Fin 64 → Fin 64 → EReal,
        (∑ k : Fin 4096, if valid k = true then φ (rowN k) (colN k) else 0)
          = ∑ r : Fin 64, ∑ c : Fin 64, if g (ix2 r c) = 0#32 then 0 else φ r c) := by
  refine ⟨rowN g, colN g, fun k => decide (k.val < LibCount.total (mark g)), ?_, ?_, ?_, ?_⟩
  · intro k
    rw [RefDivMod.validM_apply g _ (LibCount.total_le _) (total_word g) k]
    by_cases h : k.val < LibCount.total (mark g)
    · rw [if_pos h, if_pos (decide_eq_true h)]
    · rw [if_neg h, if_neg (fun hd => h (of_decide_eq_true hd))]
  · intro k
    rw [rowW_eq]
    by_cases h : k.val < LibCount.total (mark g)
    · have hp := LibCount.posOf_lt (mark g) h
      rw [if_neg (by omega), rowN_val_of_lt g k h, Nat.mod_eq_of_lt (by omega)]
    · rw [if_pos (by omega), rowN_val_of_not_lt g k h]
  · intro k
    rw [colW_eq]
    by_cases h : k.val < LibCount.total (mark g)
    · rw [if_neg (by omega), colN_val_of_lt g k h]
    · rw [if_pos (by omega), colN_val_of_not_lt g k h]
  · intro φ
    -- over the valid positions, (row, column) is the (k+1)-th marked position split by 64
    have t1 : ∀ k : Fin 4096,
        (if decide (k.val < LibCount.total (mark g)) = true then φ (rowN g k) (colN g k) else 0)
          = if h : k.val < LibCount.total (mark g) then
              φ (⟨LibCount.posOf (mark g) k.val / 64, by have h' := LibCount.posOf_lt (mark g) h; omega⟩ : Fin 64)
                (⟨LibCount.posOf (mark g) k.val % 64, by omega⟩ : Fin 64)
            else 0 := by
      intro k
      by_cases h : k.val < LibCount.total (mark g)
      · rw [if_pos (decide_eq_true h), dif_pos h]
        exact congrArg₂ φ (Fin.ext (rowN_val_of_lt g k h)) (Fin.ext (colN_val_of_lt g k h))
      · rw [if_neg (fun hd => h (of_decide_eq_true hd)), dif_neg h]
    -- the marked positions once each
    have t2 := LibCount.sum_posOf (M := EReal) (mark g)
      (fun j : Fin 4096 => φ (⟨j.val / 64, by omega⟩ : Fin 64) (⟨j.val % 64, by omega⟩ : Fin 64))
    -- a marked position is a nonzero entry
    have t3 : ∀ j : Fin 4096,
        (if mark g j = true then φ (⟨j.val / 64, by omega⟩ : Fin 64) (⟨j.val % 64, by omega⟩ : Fin 64) else 0)
          = if g (ix2 (⟨j.val / 64, by omega⟩ : Fin 64) (⟨j.val % 64, by omega⟩ : Fin 64)) = 0#32 then 0
            else φ (⟨j.val / 64, by omega⟩ : Fin 64) (⟨j.val % 64, by omega⟩ : Fin 64) := by
      intro j
      by_cases hg : g (ix2 (⟨j.val / 64, by omega⟩ : Fin 64) (⟨j.val % 64, by omega⟩ : Fin 64)) = 0#32
      · rw [if_pos hg, if_neg (fun h => (mark_iff g j).mp h hg)]
      · rw [if_neg hg, if_pos ((mark_iff g j).mpr hg)]
    have t4 := sum_flat (fun r c : Fin 64 => if g (ix2 r c) = 0#32 then (0 : EReal) else φ r c)
    calc (∑ k : Fin 4096, if decide (k.val < LibCount.total (mark g)) = true then φ (rowN g k) (colN g k) else 0)
        = ∑ k : Fin 4096, if h : k.val < LibCount.total (mark g) then
              φ (⟨LibCount.posOf (mark g) k.val / 64, by have h' := LibCount.posOf_lt (mark g) h; omega⟩ : Fin 64)
                (⟨LibCount.posOf (mark g) k.val % 64, by omega⟩ : Fin 64)
            else 0 := Finset.sum_congr rfl fun k _ => t1 k
      _ = ∑ j : Fin 4096,
            if mark g j = true then φ (⟨j.val / 64, by omega⟩ : Fin 64) (⟨j.val % 64, by omega⟩ : Fin 64) else 0 := t2
      _ = ∑ j : Fin 4096,
            if g (ix2 (⟨j.val / 64, by omega⟩ : Fin 64) (⟨j.val % 64, by omega⟩ : Fin 64)) = 0#32 then 0
            else φ (⟨j.val / 64, by omega⟩ : Fin 64) (⟨j.val % 64, by omega⟩ : Fin 64) :=
          Finset.sum_congr rfl fun j _ => t3 j
      _ = ∑ r : Fin 64, ∑ c : Fin 64, if g (ix2 r c) = 0#32 then 0 else φ r c := t4

end Cert.ReferenceIdeal.RefNonzero

end
-- ==== Proof.RefEdges.lean ====
/-
  The edge list read at an entry.

  Its 532480 entries are, in order, the 128 × 4096 per-copy edges — entry 4096 · i + k is copy i's k-th edge — and
  then the 8192 self loops, entry 524288 + n for node n.  A per-edge node number v k becomes v k + 64 · i in copy i;
  a self loop's node number is n; the weight is the validity bit on an edge and 1 on a self loop.
-/
import proofs.«175083_g12077448036551_cont_sun_c4_50_15_alg».proof.Proof.RefFn
import Idealize.ShloMosaic.Lib.ValueIdx
import Idealize.ShloMosaic.Lib.Pipeline.Value
import Idealize.ShloMosaic.Lib.StableHlo.Predicate
import Mathlib.Algebra.BigOperators.Fin
import Mathlib.Logic.Equiv.Fin.Basic

noncomputable section

open scoped BigOperators

namespace Cert.ReferenceIdeal.RefEdges

open Idealize.ShloMosaic Idealize.ShloMosaic.ValueIdx Cert.ReferenceIdeal Cert.ReferenceIdeal.Facts₀ Cert.ReferenceIdeal.Facts

/-! ## Sums over a vector's positions -/

/-- A vector's positions are the numbers below its length … -/
private def idxEquiv1 {n : Nat} : (⟨1, ![n]⟩ : Shape).Idx ≃ Fin n where
  toFun j := j 0
  invFun a := ix1 a
  left_inv j := (eq_ix1 j).symm
  right_inv _ := rfl

/-- … so a sum over them is the sum over those numbers. -/
private theorem sum_idx1 {M : Type} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The numbers below 532480 = 128 · 4096 + 8192 are the 4096 · i + k with i below 128 and k below 4096, followed by
    the 524288 + n with n below 8192. -/
private theorem sum_fin_edges {M : Type} [AddCommMonoid M] (f : Fin 532480 → M) :
    ∑ x, f x = (∑ i : Fin 128, ∑ k : Fin 4096, f ⟨4096 * i.val + k.val, by omega⟩)
      + ∑ n : Fin 8192, f ⟨524288 + n.val, by omega⟩ := by
  have h : 128 * 4096 + 8192 = 532480 := by norm_num
  rw [← Fin.sum_congr' f h, Fin.sum_univ_add, ← Equiv.sum_comp (finProdFinEquiv (m := 128) (n := 4096)),
    Fintype.sum_prod_type]
  refine congrArg₂ (· + ·) ?_ ?_
  · refine Finset.sum_congr rfl fun i _ => Finset.sum_congr rfl fun k _ => congrArg f (Fin.ext ?_)
    show k.val + 4096 * i.val = 4096 * i.val + k.val
    omega
  · refine Finset.sum_congr rfl fun n _ => congrArg f (Fin.ext ?_)
    show 128 * 4096 + n.val = 524288 + n.val
    omega

/-! ## Two spellings of one index -/

/-- Row p, column q, spelt either way. -/
private theorem ix2_eq_ij {n m : Nat} (p : Fin n) (q : Fin m) : ix2 p q = StableHlo.Predicate.ij p q := by
  funext d; match d with | ⟨0, _⟩ => rfl | ⟨1, _⟩ => rfl

/-- Position p of a vector, spelt either way. -/
private theorem ofFin_eq_ix1 {n : Nat} (p : Fin n) : Shape.Idx.ofFin p = ix1 p := by
  funext d; match d with | ⟨0, _⟩ => rfl

variable [Cert.ReferenceIdeal.Facts]

/-- Copy i's k-th edge. -/
def edgeIdx (i : Fin 128) (k : Fin 4096) : S532480.Idx := ix1 (⟨4096 * i.val + k.val, by omega⟩ : Fin 532480)

/-- Node n's self loop. -/
def loopIdx (n : Fin 8192) : S532480.Idx := ix1 (⟨524288 + n.val, by omega⟩ : Fin 532480)

/-- A sum over the edge list is the sum over the per-copy edges plus the sum over the self loops. -/
theorem sum_edges {M : Type} [AddCommMonoid M] (ψ : S532480.Idx → M) :
    ∑ e : S532480.Idx, ψ e = (∑ i : Fin 128, ∑ k : Fin 4096, ψ (edgeIdx i k)) + ∑ n : Fin 8192, ψ (loopIdx n) := by
  rw [sum_idx1 ψ, sum_fin_edges fun a => ψ (ix1 a)]
  rfl

/-! ## The layout operations read at an entry -/

/-- The per-copy list followed by the per-node list, read at a per-copy entry: the per-copy list there. -/
private theorem cat_left {α : Type} (a : S524288.Idx → α) (b : S8192.Idx → α) (i : Fin 128) (k : Fin 4096) :
    concatenate S532480 0 [⟨S524288, a⟩, ⟨S8192, b⟩] concatenates_S524288_S8192_S532480_d0 (edgeIdx i k)
      = a (ix1 (⟨4096 * i.val + k.val, by omega⟩ : Fin 524288)) :=
  concatenate_pair_apply_left (t := S532480) 0 a b _ _ rfl _ (fun c => by
    match c with
    | ⟨0, _⟩ => rfl)

/-- Read at a self loop's entry: the per-node list at the node. -/
private theorem cat_right {α : Type} (a : S524288.Idx → α) (b : S8192.Idx → α) (n : Fin 8192) :
    concatenate S532480 0 [⟨S524288, a⟩, ⟨S8192, b⟩] concatenates_S524288_S8192_S532480_d0 (loopIdx n) = b (ix1 n) :=
  concatenate_pair_apply_right (t := S532480) 0 a b _ (loopIdx n) rfl rfl (ix1 n)
    (fun c hc => by
      match c with
      | ⟨0, _⟩ => exact absurd rfl hc)
    (by show n.val + 524288 = 524288 + n.val; omega)

/-- A 128 × 4096 array laid out row by row: position 4096 · i + k holds entry (i, k). -/
private theorem flat_apply {α : Type} (A : S128x4096.Idx → α) (i : Fin 128) (k : Fin 4096) :
    shapeCast S524288 A shapeCasts_S128x4096_S524288 (ix1 (⟨4096 * i.val + k.val, by omega⟩ : Fin 524288))
      = A (ix2 i k) :=
  shapeCast_apply A _ _ (ix2 i k) (by
    rw [Shape.rowMajor_val_two, Shape.rowMajor_val_one]
    show i.val * 4096 + k.val = 4096 * i.val + k.val
    omega)

/-- A per-edge vector repeated for every copy holds, at (i, k), the vector's entry k. -/
private theorem rep_apply {α : Type} (v : S4096.Idx → α) (i : Fin 128) (k : Fin 4096) :
    broadcastInDim S128x4096 ![0, 1] bcast_S1x4096_S128x4096_0_1 (broadcastInDim S1x4096 ![1] bcast_S4096_S1x4096_1 v)
      (ix2 i k) = v (ix1 k) := by
  rw [ix2_eq_ij, ← ofFin_eq_ix1]
  exact StableHlo.Predicate.bcast_cols _ _ v i k

/-- A per-copy vector repeated along every copy's edges holds, at (i, k), the vector's entry i. -/
private theorem col_apply {α : Type} (o : S128.Idx → α) (i : Fin 128) (k : Fin 4096) :
    broadcastInDim S128x4096 ![0, 1] bcast_S128x1_S128x4096_0_1 (broadcastInDim S128x1 ![0] bcast_S128_S128x1_0 o)
      (ix2 i k) = o (ix1 i) := by
  rw [ix2_eq_ij, ← ofFin_eq_ix1]
  exact StableHlo.Predicate.bcast_rows _ _ o i k

/-- Copy i's node offset is the word 64 · i. -/
private theorem offs_apply (i : Fin 128) : RefFn.offs (ix1 i) = BitVec.ofNat 32 (64 * i.val) := by
  show BitVec.ofNat 32 i.val * BitVec.ofNat 32 64 = BitVec.ofNat 32 (64 * i.val)
  rw [BitVec.ofNat_mul_ofNat, Nat.mul_comm]

/-! ## The edge list's entries -/

/-- The node number of copy i's k-th edge. -/
theorem spread_edge (v : IVec S4096 32) (i : Fin 128) (k : Fin 4096) :
    RefFn.withLoops (RefFn.spread v) (edgeIdx i k) = v (ix1 k) + BitVec.ofNat 32 (64 * i.val) := by
  have hadd : ∀ (X Y : IVec S128x4096 32) (j : S128x4096.Idx), addi X Y j = X j + Y j := fun _ _ _ => rfl
  unfold RefFn.withLoops RefFn.spread
  rw [cat_left, flat_apply, hadd, rep_apply, col_apply, offs_apply]

/-- The node number of node n's self loop. -/
theorem spread_loop (v : IVec S4096 32) (n : Fin 8192) :
    RefFn.withLoops (RefFn.spread v) (loopIdx n) = BitVec.ofNat 32 n.val := by
  unfold RefFn.withLoops
  exact (cat_right _ _ n).trans rfl

/-- The weight of copy i's k-th edge: its validity bit. -/
theorem wAll_edge (g : IVec S64x64 32) (i : Fin 128) (k : Fin 4096) :
    RefFn.wAll (F := Ideal) g (edgeIdx i k) = if RefFn.validM g (ix1 k) = 1#1 then (1 : EReal) else 0 := by
  have hu : ∀ (x : IVec S524288 1) (j : S524288.Idx),
      (uitofp (F := Ideal) .f32 x) j = (((x j).toNat : ℝ) : EReal) := fun _ _ => rfl
  unfold RefFn.wAll RefFn.spreadM
  rw [cat_left, hu, flat_apply, rep_apply]
  rcases BitVec.eq_zero_or_eq_one (RefFn.validM g (ix1 k)) with h | h
  · have h01 : ¬ ((0#1 : BitVec 1) = 1#1) := by decide
    rw [h, if_neg h01]
    show (((0 : ℕ) : ℝ) : EReal) = 0
    simp
  · have h11 : (1#1 : BitVec 1) = 1#1 := rfl
    rw [h, if_pos h11]
    show (((1 : ℕ) : ℝ) : EReal) = 1
    simp

/-- The weight of a self loop. -/
theorem wAll_loop (g : IVec S64x64 32) (n : Fin 8192) : RefFn.wAll (F := Ideal) g (loopIdx n) = (1 : EReal) := by
  unfold RefFn.wAll
  rw [cat_right]
  show Ideal.ofBits .f32 0x3F800000#32 = 1
  simp [Ideal.ofBits, Ideal.ieee, -EReal.coe_mul]; norm_num

end Cert.ReferenceIdeal.RefEdges

end
-- ==== Proof.RefIdx.lean ====
/-
  Where an edge's update lands and what an edge reads.

  A node number below 8192 is a non-negative word, so the move-up of negative indices leaves it alone; read signed
  it is inside the 8192 nodes.  The scatter of the per-edge weights and the gather of a per-node value therefore name
  node n; for the 128-feature rows, entry (e, f) of the updates lands at (n, f) and the gather reads (n, f).
-/
import proofs.«175083_g12077448036551_cont_sun_c4_50_15_alg».proof.Proof.RefFn
import Idealize.ShloMosaic.Lib.ValueIdx
import Idealize.ShloMosaic.Lib.StableHlo.Predicate

noncomputable section

open scoped BigOperators

namespace Cert.ReferenceIdeal.RefIdx

open Idealize.ShloMosaic Idealize.ShloMosaic.ValueIdx Cert.ReferenceIdeal Cert.ReferenceIdeal.Facts₀ Cert.ReferenceIdeal.Facts

/-! ## Which axes are kept: membership facts on the literal axis lists -/

/-- With axis 0 of the nodes inserted, no operand axis is left for a window. -/
private theorem not_kept_1 : (0 : Fin 1) ∉ S8192.kept [0] := by decide

/-- Of the two axes of the node rows, axis 0 is not kept when it is the inserted (or collapsed) one. -/
private theorem not_kept_2 : (0 : Fin 2) ∉ S8192x128.kept [0] := by decide

/-- … and axis 1, the features, is kept. -/
private theorem kept_2 : (1 : Fin 2) ∈ S8192x128.kept [0] := by decide

private theorem not_kept_2' : (0 : Fin 2) ∉ S8192x128.kept ([0] ++ []) := by decide

private theorem kept_2' : (1 : Fin 2) ∈ S8192x128.kept ([0] ++ []) := by decide

private theorem one_ne_zero_fin2 : ¬ (1 : Fin 2) = 0 := by decide

/-! ## Words -/

/-- A node number is below 2³¹. -/
private theorem node_lt (n : Fin 8192) : n.val < 2 ^ 31 := lt_of_lt_of_le n.isLt (by norm_num)

/-- A node number read as a signed word is itself. -/
private theorem toInt_node (n : Fin 8192) : (BitVec.ofNat 32 n.val).toInt = (n.val : Int) :=
  StableHlo.Predicate.toInt_ofNat_small n.val (node_lt n)

/-- A node number is not below 0 as a signed word. -/
private theorem node_not_slt (n : Fin 8192) : (BitVec.ofNat 32 n.val).slt 0#32 = false := by
  rw [BitVec.slt_eq_decide, toInt_node, BitVec.toInt_zero]
  exact decide_eq_false (by omega)

variable [Cert.ReferenceIdeal.Facts]

/-! ## The column of index words -/

/-- The column laid from a vector of the edge list reads, at (e, 0), the vector at e. -/
private theorem col_apply {α : Type} (x : S532480.Idx → α) (e : Fin 532480) :
    broadcastInDim S532480x1 ![0] bcast_S532480_S532480x1_0 x (ix2 e (0 : Fin 1)) = x (ix1 e) := by
  simp only [broadcastInDim]
  congr 1
  funext a
  obtain rfl : a = 0 := Subsingleton.elim _ _
  apply Fin.ext
  split
  · next h1 => change 532480 = 1 at h1; omega
  · rfl

/-- The index word of entry e, after the move-up of negative indices, when it is the node number n. -/
theorem wrapIdx_apply (v : IVec S532480 32) (e : Fin 532480) (n : Fin 8192) (hv : v (ix1 e) = BitVec.ofNat 32 n.val) :
    RefFn.wrapIdx v (ix2 e (0 : Fin 1)) = BitVec.ofNat 32 n.val := by
  unfold RefFn.wrapIdx
  rw [col_apply]
  show Scalar.select (BitVec.ofBool ((v (ix1 e)).slt 0#32)) (IntOp.addi (v (ix1 e)) 8192#32) (v (ix1 e)) = _
  rw [hv, node_not_slt]
  exact select_zero _ _

/-! ## The scatter of the per-edge weights -/

/-- The start of entry e's window: the word at (e, 0), read signed. -/
private theorem scatter1_start (idx : IVec S532480x1 32) (e : Fin 532480) (a : Fin 1) :
    scatter_S8192_S532480x1_S532480_n_0_0_1.start (ix1 e) idx a = (idx (ix2 e (0 : Fin 1))).toInt := by
  obtain rfl : a = 0 := Subsingleton.elim _ _
  unfold ScatterDims.start
  rw [dif_pos (show (0 : Fin 1) ∈ scatter_S8192_S532480x1_S532480_n_0_0_1.scatterDimsToOperandDims from
    List.mem_singleton.mpr rfl)]
  refine congrArg (fun i => (idx i).toInt) ?_
  funext b
  refine Fin.ext ?_
  match b with
  | ⟨0, _⟩ => rfl
  | ⟨1, _⟩ => rfl

/-- The updates have no window axis: the window coordinate is 0. -/
private theorem scatter1_window (e : Fin 532480) (a : Fin 1) :
    scatter_S8192_S532480x1_S532480_n_0_0_1.window (ix1 e) a = 0 := by
  obtain rfl : a = 0 := Subsingleton.elim _ _
  unfold ScatterDims.window
  exact dif_neg (show (0 : Fin 1) ∉ scatter_S8192_S532480x1_S532480_n_0_0_1.sKept from not_kept_1)

/-- The per-edge weight at entry e lands on node n. -/
theorem scatter1_resultIdx (v : IVec S532480 32) (e : Fin 532480) (n : Fin 8192) (hv : v (ix1 e) = BitVec.ofNat 32 n.val) :
    scatter_S8192_S532480x1_S532480_n_0_0_1.resultIdx? (ix1 e) (RefFn.wrapIdx v) = some (ix1 n) := by
  have hn := n.isLt
  have h0 : scatter_S8192_S532480x1_S532480_n_0_0_1.start (ix1 e) (RefFn.wrapIdx v) 0
      + (scatter_S8192_S532480x1_S532480_n_0_0_1.window (ix1 e) 0 : Int) = (n.val : Int) := by
    rw [scatter1_start, scatter1_window, wrapIdx_apply v e n hv, toInt_node]; simp
  unfold ScatterDims.resultIdx?
  split
  · refine congrArg some ?_
    funext a
    obtain rfl : a = 0 := Subsingleton.elim _ _
    refine Fin.ext ?_
    show (scatter_S8192_S532480x1_S532480_n_0_0_1.start (ix1 e) (RefFn.wrapIdx v) 0
      + (scatter_S8192_S532480x1_S532480_n_0_0_1.window (ix1 e) 0 : Int)).toNat = n.val
    rw [h0]; omega
  · next h =>
    refine absurd (fun a => ?_) h
    obtain rfl : a = 0 := Subsingleton.elim _ _
    show 0 ≤ scatter_S8192_S532480x1_S532480_n_0_0_1.start (ix1 e) (RefFn.wrapIdx v) 0
        + (scatter_S8192_S532480x1_S532480_n_0_0_1.window (ix1 e) 0 : Int)
      ∧ scatter_S8192_S532480x1_S532480_n_0_0_1.start (ix1 e) (RefFn.wrapIdx v) 0
        + (scatter_S8192_S532480x1_S532480_n_0_0_1.window (ix1 e) 0 : Int) < ((8192 : Nat) : Int)
    rw [h0]; omega

/-! ## The gather of a per-node value -/

/-- The node read for entry e: the word at (e, 0), read signed and clamped into the 8192 nodes. -/
private theorem gather1_val (idx : IVec S532480x1 32) (e : Fin 532480) (a : Fin 1) :
    (gather_S8192_S532480x1_S532480_n_0_n_n_0_1_1.operandIdx (ix1 e) idx a).val
      = min (idx (ix2 e (0 : Fin 1))).toInt.toNat 8191 := by
  obtain rfl : a = 0 := Subsingleton.elim _ _
  show gather_S8192_S532480x1_S532480_n_0_n_n_0_1_1.start (ix1 e) idx 0
    + gather_S8192_S532480x1_S532480_n_0_n_n_0_1_1.batchCoord (ix1 e) 0
    + gather_S8192_S532480x1_S532480_n_0_n_n_0_1_1.offCoord (ix1 e) 0 = _
  rw [GatherDims.batchCoord_eq_zero _ _ _
      (show (0 : Fin 1) ∉ gather_S8192_S532480x1_S532480_n_0_n_n_0_1_1.operandBatchingDims from List.not_mem_nil),
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8192_S532480x1_S532480_n_0_n_n_0_1_1.startIndexMap from
    List.mem_singleton.mpr rfl)]
  have hsi : gather_S8192_S532480x1_S532480_n_0_n_n_0_1_1.siIdx (ix1 e)
      ⟨List.idxOf (0 : Fin 1) gather_S8192_S532480x1_S532480_n_0_n_n_0_1_1.startIndexMap,
        List.idxOf_lt_length_iff.2 (List.mem_singleton.mpr rfl)⟩ = ix2 e (0 : Fin 1) := by
    funext b
    refine Fin.ext ?_
    match b with
    | ⟨0, _⟩ => rfl
    | ⟨1, _⟩ => rfl
  rw [hsi]
  rfl

/-- The per-node value read for entry e is node n's. -/
theorem gather1_operandIdx (v : IVec S532480 32) (e : Fin 532480) (n : Fin 8192) (hv : v (ix1 e) = BitVec.ofNat 32 n.val) :
    gather_S8192_S532480x1_S532480_n_0_n_n_0_1_1.operandIdx (ix1 e) (RefFn.wrapIdx v) = ix1 n := by
  have hn := n.isLt
  funext a
  obtain rfl : a = 0 := Subsingleton.elim _ _
  refine Fin.ext ?_
  rw [gather1_val, wrapIdx_apply v e n hv, toInt_node]
  show min ((n.val : Int)).toNat 8191 = n.val
  omega

/-! ## The scatter of the messages -/

/-- On the node axis the window of entry (e, f) starts at the word at (e, 0), read signed. -/
private theorem scatter2_start0 (idx : IVec S532480x1 32) (e : Fin 532480) (f : Fin 128) :
    scatter_S8192x128_S532480x1_S532480x128_1_0_0_1.start (ix2 e f) idx 0 = (idx (ix2 e (0 : Fin 1))).toInt := by
  unfold ScatterDims.start
  rw [dif_pos (show (0 : Fin 2) ∈ scatter_S8192x128_S532480x1_S532480x128_1_0_0_1.scatterDimsToOperandDims from
    List.mem_singleton.mpr rfl)]
  refine congrArg (fun i => (idx i).toInt) ?_
  funext b
  refine Fin.ext ?_
  match b with
  | ⟨0, _⟩ => rfl
  | ⟨1, _⟩ => rfl

/-- The feature axis is not a scattered one: its start is 0. -/
private theorem scatter2_start1 (idx : IVec S532480x1 32) (e : Fin 532480) (f : Fin 128) :
    scatter_S8192x128_S532480x1_S532480x128_1_0_0_1.start (ix2 e f) idx 1 = 0 := by
  unfold ScatterDims.start
  exact dif_neg (show (1 : Fin 2) ∉ scatter_S8192x128_S532480x1_S532480x128_1_0_0_1.scatterDimsToOperandDims from
    fun h => one_ne_zero_fin2 (List.mem_singleton.mp h))

/-- The node axis is the inserted one: no window coordinate on it. -/
private theorem scatter2_window0 (e : Fin 532480) (f : Fin 128) :
    scatter_S8192x128_S532480x1_S532480x128_1_0_0_1.window (ix2 e f) 0 = 0 := by
  unfold ScatterDims.window
  exact dif_neg (show (0 : Fin 2) ∉ scatter_S8192x128_S532480x1_S532480x128_1_0_0_1.sKept from not_kept_2)

/-- On the feature axis the window coordinate is the update's own feature. -/
private theorem scatter2_window1 (e : Fin 532480) (f : Fin 128) :
    scatter_S8192x128_S532480x1_S532480x128_1_0_0_1.window (ix2 e f) 1 = f.val := by
  unfold ScatterDims.window
  rw [dif_pos (show (1 : Fin 2) ∈ scatter_S8192x128_S532480x1_S532480x128_1_0_0_1.sKept from kept_2)]
  rfl

/-- Feature f of entry e's message lands on feature f of node n. -/
theorem scatter2_resultIdx (v : IVec S532480 32) (e : Fin 532480) (f : Fin 128) (n : Fin 8192)
    (hv : v (ix1 e) = BitVec.ofNat 32 n.val) :
    scatter_S8192x128_S532480x1_S532480x128_1_0_0_1.resultIdx? (ix2 e f) (RefFn.wrapIdx v) = some (ix2 n f) := by
  have hn := n.isLt
  have hf := f.isLt
  have h0 : scatter_S8192x128_S532480x1_S532480x128_1_0_0_1.start (ix2 e f) (RefFn.wrapIdx v) 0
      + (scatter_S8192x128_S532480x1_S532480x128_1_0_0_1.window (ix2 e f) 0 : Int) = (n.val : Int) := by
    rw [scatter2_start0, scatter2_window0, wrapIdx_apply v e n hv, toInt_node]; simp
  have h1 : scatter_S8192x128_S532480x1_S532480x128_1_0_0_1.start (ix2 e f) (RefFn.wrapIdx v) 1
      + (scatter_S8192x128_S532480x1_S532480x128_1_0_0_1.window (ix2 e f) 1 : Int) = (f.val : Int) := by
    rw [scatter2_start1, scatter2_window1]; simp
  unfold ScatterDims.resultIdx?
  split
  · refine congrArg some ?_
    funext a
    refine Fin.ext ?_
    match a with
    | ⟨0, _⟩ =>
      show (scatter_S8192x128_S532480x1_S532480x128_1_0_0_1.start (ix2 e f) (RefFn.wrapIdx v) 0
        + (scatter_S8192x128_S532480x1_S532480x128_1_0_0_1.window (ix2 e f) 0 : Int)).toNat = n.val
      rw [h0]; omega
    | ⟨1, _⟩ =>
      show (scatter_S8192x128_S532480x1_S532480x128_1_0_0_1.start (ix2 e f) (RefFn.wrapIdx v) 1
        + (scatter_S8192x128_S532480x1_S532480x128_1_0_0_1.window (ix2 e f) 1 : Int)).toNat = f.val
      rw [h1]; omega
  · next h =>
    refine absurd (fun a => ?_) h
    match a with
    | ⟨0, _⟩ =>
      show 0 ≤ scatter_S8192x128_S532480x1_S532480x128_1_0_0_1.start (ix2 e f) (RefFn.wrapIdx v) 0
          + (scatter_S8192x128_S532480x1_S532480x128_1_0_0_1.window (ix2 e f) 0 : Int)
        ∧ scatter_S8192x128_S532480x1_S532480x128_1_0_0_1.start (ix2 e f) (RefFn.wrapIdx v) 0
          + (scatter_S8192x128_S532480x1_S532480x128_1_0_0_1.window (ix2 e f) 0 : Int) < ((8192 : Nat) : Int)
      rw [h0]; omega
    | ⟨1, _⟩ =>
      show 0 ≤ scatter_S8192x128_S532480x1_S532480x128_1_0_0_1.start (ix2 e f) (RefFn.wrapIdx v) 1
          + (scatter_S8192x128_S532480x1_S532480x128_1_0_0_1.window (ix2 e f) 1 : Int)
        ∧ scatter_S8192x128_S532480x1_S532480x128_1_0_0_1.start (ix2 e f) (RefFn.wrapIdx v) 1
          + (scatter_S8192x128_S532480x1_S532480x128_1_0_0_1.window (ix2 e f) 1 : Int) < ((128 : Nat) : Int)
      rw [h1]; omega

/-! ## The gather of the node rows -/

/-- On the node axis entry (e, f) reads the word at (e, 0), signed and clamped into the 8192 nodes. -/
private theorem gather2_val0 (idx : IVec S532480x1 32) (e : Fin 532480) (f : Fin 128) :
    (gather_S8192x128_S532480x1_S532480x128_1_0_n_n_0_1_1128.operandIdx (ix2 e f) idx 0).val
      = min (idx (ix2 e (0 : Fin 1))).toInt.toNat 8191 := by
  show gather_S8192x128_S532480x1_S532480x128_1_0_n_n_0_1_1128.start (ix2 e f) idx 0
    + gather_S8192x128_S532480x1_S532480x128_1_0_n_n_0_1_1128.batchCoord (ix2 e f) 0
    + gather_S8192x128_S532480x1_S532480x128_1_0_n_n_0_1_1128.offCoord (ix2 e f) 0 = _
  rw [GatherDims.batchCoord_eq_zero _ _ _
      (show (0 : Fin 2) ∉ gather_S8192x128_S532480x1_S532480x128_1_0_n_n_0_1_1128.operandBatchingDims from List.not_mem_nil),
    GatherDims.offCoord_eq_zero _ _ _
      (show (0 : Fin 2) ∉ gather_S8192x128_S532480x1_S532480x128_1_0_n_n_0_1_1128.sKept from not_kept_2')]
  simp only [Nat.add_zero]
  unfold GatherDims.start
  rw [dif_pos (show (0 : Fin 2) ∈ gather_S8192x128_S532480x1_S532480x128_1_0_n_n_0_1_1128.startIndexMap from
    List.mem_singleton.mpr rfl)]
  have hsi : gather_S8192x128_S532480x1_S532480x128_1_0_n_n_0_1_1128.siIdx (ix2 e f)
      ⟨List.idxOf (0 : Fin 2) gather_S8192x128_S532480x1_S532480x128_1_0_n_n_0_1_1128.startIndexMap,
        List.idxOf_lt_length_iff.2 (List.mem_singleton.mpr rfl)⟩ = ix2 e (0 : Fin 1) := by
    funext b
    refine Fin.ext ?_
    match b with
    | ⟨0, _⟩ => rfl
    | ⟨1, _⟩ => rfl
  rw [hsi]
  rfl

/-- On the feature axis entry (e, f) reads feature f: the whole row is the slice, and f the offset in it. -/
private theorem gather2_val1 (idx : IVec S532480x1 32) (e : Fin 532480) (f : Fin 128) :
    (gather_S8192x128_S532480x1_S532480x128_1_0_n_n_0_1_1128.operandIdx (ix2 e f) idx 1).val = f.val := by
  show gather_S8192x128_S532480x1_S532480x128_1_0_n_n_0_1_1128.start (ix2 e f) idx 1
    + gather_S8192x128_S532480x1_S532480x128_1_0_n_n_0_1_1128.batchCoord (ix2 e f) 1
    + gather_S8192x128_S532480x1_S532480x128_1_0_n_n_0_1_1128.offCoord (ix2 e f) 1 = _
  have hs : gather_S8192x128_S532480x1_S532480x128_1_0_n_n_0_1_1128.start (ix2 e f) idx 1 = 0 := by
    unfold GatherDims.start
    exact dif_neg (show (1 : Fin 2) ∉ gather_S8192x128_S532480x1_S532480x128_1_0_n_n_0_1_1128.startIndexMap from
      fun h => one_ne_zero_fin2 (List.mem_singleton.mp h))
  have ho : gather_S8192x128_S532480x1_S532480x128_1_0_n_n_0_1_1128.offCoord (ix2 e f) 1 = f.val := by
    unfold GatherDims.offCoord
    rw [dif_pos (show (1 : Fin 2) ∈ gather_S8192x128_S532480x1_S532480x128_1_0_n_n_0_1_1128.sKept from kept_2')]
    rfl
  rw [hs, ho, GatherDims.batchCoord_eq_zero _ _ _
    (show (1 : Fin 2) ∉ gather_S8192x128_S532480x1_S532480x128_1_0_n_n_0_1_1128.operandBatchingDims from List.not_mem_nil)]
  omega

/-- Feature f read for entry e is feature f of node n's row. -/
theorem gather2_operandIdx (v : IVec S532480 32) (e : Fin 532480) (f : Fin 128) (n : Fin 8192)
    (hv : v (ix1 e) = BitVec.ofNat 32 n.val) :
    gather_S8192x128_S532480x1_S532480x128_1_0_n_n_0_1_1128.operandIdx (ix2 e f) (RefFn.wrapIdx v) = ix2 n f := by
  have hn := n.isLt
  funext a
  refine Fin.ext ?_
  match a with
  | ⟨0, _⟩ =>
    show (gather_S8192x128_S532480x1_S532480x128_1_0_n_n_0_1_1128.operandIdx (ix2 e f) (RefFn.wrapIdx v) 0).val = n.val
    rw [gather2_val0, wrapIdx_apply v e n hv, toInt_node]
    show min ((n.val : Int)).toNat 8191 = n.val
    omega
  | ⟨1, _⟩ =>
    show (gather_S8192x128_S532480x1_S532480x128_1_0_n_n_0_1_1128.operandIdx (ix2 e f) (RefFn.wrapIdx v) 1).val = f.val
    exact gather2_val1 _ e f

end Cert.ReferenceIdeal.RefIdx

end
-- ==== Proof.RefDeg.lean ====
/-
  Degrees and their reciprocal square roots, per node.

  Node 64 · i + c of copy i receives weight 1 from its self loop and the validity bit of every edge of copy i whose
  column is c: by the edge search that is one for each nonzero entry in column c, so the summed weight is deg c ≥ 1,
  the guard and the floor of the reciprocal square root do not bind, and the result is dinv c.
-/
import proofs.«175083_g12077448036551_cont_sun_c4_50_15_alg».proof.Proof.RefFn
import Idealize.ShloMosaic.Lib.ValueIdx
import Idealize.ShloMosaic.Lib.IdealHost
import proofs.«175083_g12077448036551_cont_sun_c4_50_15_alg».proof.Proof.Spec
import proofs.«175083_g12077448036551_cont_sun_c4_50_15_alg».proof.Proof.RefNonzero
import proofs.«175083_g12077448036551_cont_sun_c4_50_15_alg».proof.Proof.RefEdges
import proofs.«175083_g12077448036551_cont_sun_c4_50_15_alg».proof.Proof.RefIdx

noncomputable section

open scoped BigOperators

namespace Cert.ReferenceIdeal.RefDeg

open Idealize.ShloMosaic Idealize.ShloMosaic.ValueIdx Cert.ReferenceIdeal Cert.ReferenceIdeal.Facts₀ Cert.ReferenceIdeal.Facts

variable [Cert.ReferenceIdeal.Facts]

/-- Node 64 · i + c. -/
def node (i : Fin 128) (c : Fin 64) : Fin 8192 := ⟨64 * i.val + c.val, by omega⟩

/-- The coercion of a finite sum of reals is the sum of the coercions. -/
theorem coe_sum {ι : Type} (s : Finset ι) (f : ι → ℝ) :
    ((∑ j ∈ s, f j : ℝ) : EReal) = ∑ j ∈ s, ((f j : ℝ) : EReal) := by
  classical
  induction s using Finset.induction_on with
  | empty => simp
  | insert a s ha ih => rw [Finset.sum_insert ha, Finset.sum_insert ha, EReal.coe_add, ih]

/-- A node number determines its copy and its column: both are the digits of the number in base 64. -/
theorem node_inj {i i' : Fin 128} {c c' : Fin 64} : node i' c' = node i c ↔ (i' = i ∧ c' = c) := by
  constructor
  · intro h
    have hv : 64 * i'.val + c'.val = 64 * i.val + c.val := congrArg Fin.val h
    exact ⟨Fin.ext (by omega), Fin.ext (by omega)⟩
  · rintro ⟨rfl, rfl⟩; rfl

/-- Two rank-1 indices, each under the option type's constructor, agree exactly when their coordinates do. -/
theorem some_ix1_eq {n : Nat} (a b : Fin n) : (some (ix1 a) = some (ix1 b)) ↔ a = b := by
  constructor
  · intro h; exact congrFun (Option.some.inj h) 0
  · rintro rfl; rfl

/-- A splat float constant read at a node is the extended real its word encodes. -/
theorem splatN_apply (w : BitVec 32) (j : S8192.Idx) :
    RefFn.splatN (F := Ideal) w j = Ideal.ofBits .f32 w := by
  unfold RefFn.splatN
  rw [broadcastInDim_scalar_apply]
  rfl

/-- The target of copy i′'s k-th edge is node 64 · i′ + (its column). -/
theorem tAll_edge (g : IVec S64x64 32) (colN : Fin 4096 → Fin 64)
    (hcol : ∀ k : Fin 4096, RefFn.colW g (ix1 k) = BitVec.ofNat 32 (colN k).val) (i' : Fin 128) (k : Fin 4096) :
    RefFn.tAll g (RefEdges.edgeIdx i' k) = BitVec.ofNat 32 (node i' (colN k)).val := by
  have h := RefEdges.spread_edge (RefFn.colW g) i' k
  unfold RefFn.tAll
  rw [h, hcol, ← BitVec.ofNat_add, Nat.add_comm]
  rfl

/-- So its weight lands on that node. -/
theorem edge_lands (g : IVec S64x64 32) (colN : Fin 4096 → Fin 64)
    (hcol : ∀ k : Fin 4096, RefFn.colW g (ix1 k) = BitVec.ofNat 32 (colN k).val) (i' : Fin 128) (k : Fin 4096) :
    scatter_S8192_S532480x1_S532480_n_0_0_1.resultIdx? (RefEdges.edgeIdx i' k) (RefFn.wrapIdx (RefFn.tAll g))
      = some (ix1 (node i' (colN k))) :=
  RefIdx.scatter1_resultIdx (RefFn.tAll g) ⟨4096 * i'.val + k.val, by omega⟩ (node i' (colN k)) (tAll_edge g colN hcol i' k)

/-- Node n's self loop lands on node n. -/
theorem loop_lands (g : IVec S64x64 32) (n : Fin 8192) :
    scatter_S8192_S532480x1_S532480_n_0_0_1.resultIdx? (RefEdges.loopIdx n) (RefFn.wrapIdx (RefFn.tAll g))
      = some (ix1 n) :=
  RefIdx.scatter1_resultIdx (RefFn.tAll g) ⟨524288 + n.val, by omega⟩ n (RefEdges.spread_loop (RefFn.colW g) n)

/-- The summed weight at a node is the degree of its column. -/
theorem degV_node (g : IVec S64x64 32) (i : Fin 128) (c : Fin 64) :
    RefFn.degV (F := Ideal) g (ix1 (node i c)) = ((Cert.Spec.deg g c : ℝ) : EReal) := by
  obtain ⟨rowN, colN, valid, hvalid, hrow, hcol, hsum⟩ := RefNonzero.edges_spec g
  unfold RefFn.degV
  show Ideal.hostScatterAdd _ _ _ _ _ = _
  unfold Ideal.hostScatterAdd
  rw [splatN_apply, Ideal.ofBits_zero_f32, zero_add, Finset.sum_filter, RefEdges.sum_edges]
  simp only [edge_lands g colN hcol, loop_lands g, RefEdges.wAll_edge, RefEdges.wAll_loop, hvalid, some_ix1_eq, node_inj]
  have hW : ∀ k : Fin 4096, ((if valid k = true then 1#1 else 0#1) = (1#1 : BitVec 1)) ↔ valid k = true := by
    intro k; cases valid k <;> simp
  simp only [hW]
  have hterm : ∀ (i' : Fin 128) (k : Fin 4096),
      (if i' = i ∧ colN k = c then (if valid k = true then (1 : EReal) else 0) else 0)
        = if i' = i then (if valid k = true then (if colN k = c then (1 : EReal) else 0) else 0) else 0 := by
    intro i' k
    by_cases h1 : i' = i <;> by_cases h2 : colN k = c <;> cases valid k <;> simp [h1, h2]
  simp only [hterm]
  rw [Finset.sum_comm]
  simp only [Finset.sum_ite_eq', Finset.mem_univ, if_true]
  have hs : (∑ k : Fin 4096, if valid k = true then (if colN k = c then (1 : EReal) else 0) else 0)
      = ∑ r : Fin 64, ∑ c' : Fin 64, if g (ix2 r c') = 0#32 then (0 : EReal) else (if c' = c then (1 : EReal) else 0) :=
    hsum (fun _ c' => if c' = c then (1 : EReal) else 0)
  rw [hs]
  have hcolsum : ∀ r : Fin 64,
      (∑ c' : Fin 64, if g (ix2 r c') = 0#32 then (0 : EReal) else (if c' = c then (1 : EReal) else 0))
        = ((Cert.Spec.adj g r c : ℝ) : EReal) := by
    intro r
    rw [Finset.sum_eq_single c]
    · by_cases h : g (ix2 r c) = 0#32 <;> simp [Cert.Spec.adj, h]
    · intro b _ hb; simp [hb]
    · intro h; exact absurd (Finset.mem_univ c) h
  simp only [hcolsum]
  unfold Cert.Spec.deg
  rw [EReal.coe_add, coe_sum, EReal.coe_one]
  exact add_comm _ _

/-- The host's reciprocal square root at an index is the extended reals' reciprocal square root of the element. -/
theorem hostRsqrt_apply {s : Shape} {φ : FTy} (x : FVec Ideal s φ) (j : s.Idx) : Host.rsqrt x j = Ideal.rsqrt (x j) := rfl

/-- The floor under the reciprocal square root is at most 1. -/
theorem eps_le_one : Ideal.ofBits .f32 0x2B8CBCCC#32 ≤ 1 := by
  have h : Ideal.ofBits .f32 0x2B8CBCCC#32 = (((9223372 : ℝ) * (2 : ℝ) ^ (-63 : ℤ) : ℝ) : EReal) := by
    simp [Ideal.ofBits, Ideal.ieee, -EReal.coe_mul]
  rw [h, ← EReal.coe_one, EReal.coe_le_coe_iff]
  norm_num

/-- The reciprocal square root at a node. -/
theorem disV_node (g : IVec S64x64 32) (i : Fin 128) (c : Fin 64) :
    RefFn.disV (F := Ideal) g (ix1 (node i c)) = ((Cert.Spec.dinv g c : ℝ) : EReal) := by
  have hd := degV_node g i c
  have h1 : (1 : ℝ) ≤ Cert.Spec.deg g c := Cert.Spec.one_le_deg g c
  have hpos : (0 : EReal) < ((Cert.Spec.deg g c : ℝ) : EReal) := by
    exact_mod_cast Cert.Spec.deg_pos g c
  have hmax : max ((Cert.Spec.deg g c : ℝ) : EReal) (Ideal.ofBits .f32 0x2B8CBCCC#32)
      = ((Cert.Spec.deg g c : ℝ) : EReal) := by
    apply max_eq_left
    refine le_trans eps_le_one ?_
    exact_mod_cast h1
  have hc : Ideal.cmp .ogt ((Cert.Spec.deg g c : ℝ) : EReal) 0 = 1#1 := by
    simp [Ideal.cmp, hpos]
  unfold RefFn.disV
  rw [select_apply, cmpf_apply, Ideal.cmpf_def, hostRsqrt_apply, maximumf_apply]
  rw [hd, splatN_apply, splatN_apply, Ideal.ofBits_zero_f32, hmax, Cert.Spec.rsqrt_deg, hc]
  simp [Scalar.select]

end Cert.ReferenceIdeal.RefDeg

end
-- ==== Proof.RefFloat.lean ====
/-
  The reference's result is the specification.

  For real inputs: x · W at node (i, r) is the real matrix product; a valid edge r → c of copy i carries
  xw i r · (dinv r · dinv c) to node (i, c), a padding edge carries 0, the self loop carries xw i c · dinv c²; summed
  at the target and reindexed by the edge search this is the specification's neighbourhood sum.  Bias, maximum with
  0 and the residual are entrywise.
-/
import proofs.«175083_g12077448036551_cont_sun_c4_50_15_alg».proof.Proof.RefFn
import Idealize.ShloMosaic.Lib.ValueIdx
import Idealize.ShloMosaic.Lib.Pipeline.Value
import Idealize.ShloMosaic.PureOps.Ideal.Laws
import Mathlib.Algebra.BigOperators.Group.Finset.Piecewise
import Mathlib.Tactic.Ring
import proofs.«175083_g12077448036551_cont_sun_c4_50_15_alg».proof.Proof.Spec
import proofs.«175083_g12077448036551_cont_sun_c4_50_15_alg».proof.Proof.RefDeg

noncomputable section

open scoped BigOperators

namespace Cert.ReferenceIdeal.RefFloat

open Idealize.ShloMosaic Idealize.ShloMosaic.ValueIdx Cert.ReferenceIdeal Cert.ReferenceIdeal.Facts₀ Cert.ReferenceIdeal.Facts

variable [Cert.ReferenceIdeal.Facts]

/-! ## Real numbers inside the extended reals -/

/-- A finite sum of reals, read in the extended reals, is the sum of the terms read there. -/
theorem coe_sum {ι : Type} (s : Finset ι) (a : ι → ℝ) : ((∑ k ∈ s, a k : ℝ) : EReal) = ∑ k ∈ s, ((a k : ℝ) : EReal) :=
  map_sum (⟨⟨Real.toEReal, EReal.coe_zero⟩, EReal.coe_add⟩ : ℝ →+ EReal) a s

/-- The maximum of two reals, read in the extended reals, is the maximum there. -/
theorem coe_max (a b : ℝ) : ((max a b : ℝ) : EReal) = max ((a : ℝ) : EReal) ((b : ℝ) : EReal) :=
  EReal.coe_strictMono.monotone.map_max

/-! ## Indices -/

/-- Two rank-2 indices agree exactly when both coordinates do. -/
theorem ix2_inj {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Node numbers 64 · i + c determine the copy i and the node c. -/
theorem node_inj (i' i : Fin 128) (c' c : Fin 64) : RefDeg.node i' c' = RefDeg.node i c ↔ i' = i ∧ c' = c := by
  constructor
  · intro h
    have hv : 64 * i'.val + c'.val = 64 * i.val + c.val := congrArg Fin.val h
    exact ⟨Fin.ext (by omega), Fin.ext (by omega)⟩
  · rintro ⟨rfl, rfl⟩; rfl

/-- The position of copy i's k-th edge in the edge list. -/
def edgeN (i : Fin 128) (k : Fin 4096) : Fin 532480 := ⟨4096 * i.val + k.val, by omega⟩

/-- The position of node n's self loop in the edge list. -/
def loopN (n : Fin 8192) : Fin 532480 := ⟨524288 + n.val, by omega⟩

/-- A sum over the positions of the edge list: the per-copy edges, then the self loops. -/
theorem sum_edgesN {M : Type} [AddCommMonoid M] (ψ : Fin 532480 → M) :
    ∑ e : Fin 532480, ψ e = (∑ i : Fin 128, ∑ k : Fin 4096, ψ (edgeN i k)) + ∑ n : Fin 8192, ψ (loopN n) := by
  have h1 : ∑ e : S532480.Idx, ψ (e 0) = ∑ e : Fin 532480, ψ e :=
    Equiv.sum_comp (⟨fun e => e 0, fun a => ix1 a, fun e => (eq_ix1 e).symm, fun _ => rfl⟩ : S532480.Idx ≃ Fin 532480) ψ
  rw [← h1]
  exact RefEdges.sum_edges (fun e : S532480.Idx => ψ (e 0))

/-- A node number 64 · i + r as a word: the node's word within the copy plus the copy's offset. -/
theorem node_word (w : BitVec 32) (i : Fin 128) (r : Fin 64) (h : w = BitVec.ofNat 32 r.val) :
    w + BitVec.ofNat 32 (64 * i.val) = BitVec.ofNat 32 (RefDeg.node i r).val := by
  subst h
  rw [← BitVec.ofNat_add]
  show BitVec.ofNat 32 (r.val + 64 * i.val) = BitVec.ofNat 32 (64 * i.val + r.val)
  rw [Nat.add_comm]

/-! ## x · W -/

theorem lhs_xw_0 (j : S8192x128.Idx) (q : dot_S8192x128_S128x128_S8192x128_1_0_0_1_n_n.contr.Idx) :
    (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch from List.not_mem_nil),
    dif_pos (show (0 : Fin S8192x128.rank) ∈ dot_S8192x128_S128x128_S8192x128_1_0_0_1_n_n.lhsNonContracting from List.mem_singleton.mpr rfl)]
  rfl

theorem lhs_xw_1 (j : S8192x128.Idx) (q : dot_S8192x128_S128x128_S8192x128_1_0_0_1_n_n.contr.Idx) :
    (dot_S8192x128_S128x128_S8192x128_1_0_0_1_n_n.lhsIdx j q 1).val = (q ⟨0, (Nat.one_pos : 0 < 1)⟩).val :=
  dot_S8192x128_S128x128_S8192x128_1_0_0_1_n_n.lhsIdx_val_of_single rfl j q

theorem rhs_xw_0 (j : S8192x128.Idx) (q : dot_S8192x128_S128x128_S8192x128_1_0_0_1_n_n.contr.Idx) :
    (dot_S8192x128_S128x128_S8192x128_1_0_0_1_n_n.rhsIdx j q 0).val = (q ⟨0, (Nat.one_pos : 0 < 1)⟩).val :=
  dot_S8192x128_S128x128_S8192x128_1_0_0_1_n_n.rhsIdx_val_of_single rfl j q

theorem rhs_xw_1 (j : S8192x128.Idx) (q : dot_S8192x128_S128x128_S8192x128_1_0_0_1_n_n.contr.Idx) :
    (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch from List.not_mem_nil),
    dif_pos (show (1 : Fin S128x128.rank) ∈ dot_S8192x128_S128x128_S8192x128_1_0_0_1_n_n.rhsNonContracting from List.mem_singleton.mpr rfl)]
  rfl

/-- The flattened features at row 64 · i + r are copy i's node r. -/
theorem xFlat_apply (x : FVec Ideal S128x64x128 .f32) (i : Fin 128) (r : Fin 64) (k : Fin 128) :
    RefFn.xFlat (F := Ideal) x (ix2 (RefDeg.node i r) k) = x (ix3 i r k) := by
  unfold RefFn.xFlat
  refine shapeCast_apply _ _ _ (ix3 i r k) ?_
  rw [Shape.rowMajor_val_three, Shape.rowMajor_val_two]
  show (i.val * 64 + r.val) * 128 + k.val = (64 * i.val + r.val) * 128 + k.val
  omega

/-- The product at row n, feature f: the sum over the contracted axis. -/
theorem xwV_apply (x : FVec Ideal S128x64x128 .f32) (W : FVec Ideal S128x128 .f32) (n : Fin 8192) (f : Fin 128) :
    RefFn.xwV (F := Ideal) x W (ix2 n f) = ∑ k : Fin 128, RefFn.xFlat (F := Ideal) x (ix2 n k) * W (ix2 k f) := by
  unfold RefFn.xwV
  simp only [Host.dotGeneral]
  rw [Ideal.dotGeneral_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 n f)
      ((contrEquiv1 dot_S8192x128_S128x128_S8192x128_1_0_0_1_n_n 128 rfl rfl).symm k) = ix2 n k := funext fun a => Fin.ext (by
    match a with
    | ⟨0, _⟩ => exact lhs_xw_0 _ _
    | ⟨1, _⟩ => exact (lhs_xw_1 _ _).trans hk)
  have er : dot_S8192x128_S128x128_S8192x128_1_0_0_1_n_n.rhsIdx (ix2 n f)
      ((contrEquiv1 dot_S8192x128_S128x128_S8192x128_1_0_0_1_n_n 128 rfl rfl).symm k) = ix2 k f := funext fun a => Fin.ext (by
    match a with
    | ⟨0, _⟩ => exact (rhs_xw_0 _ _).trans hk
    | ⟨1, _⟩ => exact rhs_xw_1 _ _)
  rw [el, er]

/-- x · W at node (i, r), feature f, for real inputs. -/
theorem xwV_node (xr : Cert.Spec.SX.Idx → ℝ) (Wr : Cert.Spec.SW.Idx → ℝ) (i : Fin 128) (r : Fin 64) (f : Fin 128) :
    RefFn.xwV (F := Ideal) (fun p => ((xr p : ℝ) : EReal)) (fun p => ((Wr p : ℝ) : EReal)) (ix2 (RefDeg.node i r) f)
      = ((Cert.Spec.xw xr Wr i r f : ℝ) : EReal) := by
  rw [xwV_apply]
  unfold Cert.Spec.xw
  rw [coe_sum]
  refine Finset.sum_congr rfl fun k _ => ?_
  rw [xFlat_apply]
  exact (EReal.coe_mul _ _).symm

/-! ## The message of one edge -/

/-- The message of entry e, feature f, whose source is node s and whose target is node t. -/
theorem msgV_apply (x : FVec Ideal S128x64x128 .f32) (g : IVec S64x64 32) (W : FVec Ideal S128x128 .f32)
    (e : Fin 532480) (f : Fin 128) (s t : Fin 8192)
    (hs : RefFn.sAll g (ix1 e) = BitVec.ofNat 32 s.val) (ht : RefFn.tAll g (ix1 e) = BitVec.ofNat 32 t.val) :
    RefFn.msgV (F := Ideal) x g W (ix2 e f)
      = RefFn.xwV (F := Ideal) x W (ix2 s f)
          * ((RefFn.disV (F := Ideal) g (ix1 s) * RefFn.disV (F := Ideal) g (ix1 t)) * RefFn.wAll (F := Ideal) g (ix1 e)) := by
  unfold RefFn.msgV
  rw [mulf_apply]
  refine congrArg₂ (· * ·) ?_ ?_
  · unfold Host.gather
    rw [RefIdx.gather2_operandIdx (RefFn.sAll g) e f s hs]
  · refine (broadcastInDim_apply _ _ _ _ (ix2 e (0 : Fin 1)) (fun a => match a with | ⟨0, _⟩ => rfl | ⟨1, _⟩ => rfl)).trans ?_
    refine (broadcastInDim_apply _ _ _ _ (ix1 e) (fun a => match a with | ⟨0, _⟩ => rfl)).trans ?_
    rw [mulf_apply]
    refine congrArg (· * RefFn.wAll (F := Ideal) g (ix1 e)) ?_
    unfold RefFn.normV
    rw [mulf_apply]
    unfold Host.gather
    rw [RefIdx.gather1_operandIdx (RefFn.sAll g) e s hs, RefIdx.gather1_operandIdx (RefFn.tAll g) e t ht]

/-- The weight of an edge: 1 when the edge is valid, else 0. -/
theorem valid_weight (w : BitVec 1) (b : Bool) (h : w = if b = true then 1#1 else 0#1) :
    (if w = 1#1 then (1 : EReal) else 0) = if b = true then 1 else 0 := by
  subst h
  cases b <;> simp

section Edges
variable (xr : Cert.Spec.SX.Idx → ℝ) (g : IVec S64x64 32) (Wr : Cert.Spec.SW.Idx → ℝ)
  (rowN colN : Fin 4096 → Fin 64) (valid : Fin 4096 → Bool)
  (hvalid : ∀ k : Fin 4096, RefFn.validM g (ix1 k) = if valid k = true then 1#1 else 0#1)
  (hrow : ∀ k : Fin 4096, RefFn.rowW g (ix1 k) = BitVec.ofNat 32 (rowN k).val)
  (hcol : ∀ k : Fin 4096, RefFn.colW g (ix1 k) = BitVec.ofNat 32 (colN k).val)
include hvalid hrow hcol

/-- The source of copy i's k-th edge is node (i, row k). -/
theorem sAll_edge (i : Fin 128) (k : Fin 4096) :
    RefFn.sAll g (ix1 (edgeN i k)) = BitVec.ofNat 32 (RefDeg.node i (rowN k)).val :=
  (RefEdges.spread_edge (RefFn.rowW g) i k).trans (node_word _ i (rowN k) (hrow k))

/-- The target of copy i's k-th edge is node (i, column k). -/
theorem tAll_edge (i : Fin 128) (k : Fin 4096) :
    RefFn.tAll g (ix1 (edgeN i k)) = BitVec.ofNat 32 (RefDeg.node i (colN k)).val :=
  (RefEdges.spread_edge (RefFn.colW g) i k).trans (node_word _ i (colN k) (hcol k))

/-- The message of copy i's k-th edge: x · W at its row, scaled by both ends' deg^(-1/2), when the edge is valid;
    0 on a padding edge. -/
theorem msg_edge (i : Fin 128) (k : Fin 4096) (f : Fin 128) :
    RefFn.msgV (F := Ideal) (fun p => ((xr p : ℝ) : EReal)) g (fun p => ((Wr p : ℝ) : EReal)) (ix2 (edgeN i k) f)
      = ((Cert.Spec.xw xr Wr i (rowN k) f : ℝ) : EReal)
          * ((((Cert.Spec.dinv g (rowN k) : ℝ) : EReal) * ((Cert.Spec.dinv g (colN k) : ℝ) : EReal))
              * (if valid k = true then 1 else 0)) := by
  have hw : RefFn.wAll (F := Ideal) g (ix1 (edgeN i k)) = if RefFn.validM g (ix1 k) = 1#1 then (1 : EReal) else 0 :=
    RefEdges.wAll_edge g i k
  rw [msgV_apply _ g _ (edgeN i k) f (RefDeg.node i (rowN k)) (RefDeg.node i (colN k))
      (sAll_edge g rowN colN valid hvalid hrow hcol i k) (tAll_edge g rowN colN valid hvalid hrow hcol i k),
    xwV_node, RefDeg.disV_node, RefDeg.disV_node, hw, valid_weight _ _ (hvalid k)]

end Edges

/-- The source of node n's self loop is n. -/
theorem sAll_loop (g : IVec S64x64 32) (n : Fin 8192) : RefFn.sAll g (ix1 (loopN n)) = BitVec.ofNat 32 n.val :=
  RefEdges.spread_loop (RefFn.rowW g) n

/-- The target of node n's self loop is n. -/
theorem tAll_loop (g : IVec S64x64 32) (n : Fin 8192) : RefFn.tAll g (ix1 (loopN n)) = BitVec.ofNat 32 n.val :=
  RefEdges.spread_loop (RefFn.colW g) n

/-- The message of node (i, c)'s self loop: x · W at the node, scaled by deg^(-1/2) twice. -/
theorem msg_loop (xr : Cert.Spec.SX.Idx → ℝ) (g : IVec S64x64 32) (Wr : Cert.Spec.SW.Idx → ℝ) (i : Fin 128) (c : Fin 64) (f : Fin 128) :
    RefFn.msgV (F := Ideal) (fun p => ((xr p : ℝ) : EReal)) g (fun p => ((Wr p : ℝ) : EReal)) (ix2 (loopN (RefDeg.node i c)) f)
      = ((Cert.Spec.xw xr Wr i c f : ℝ) : EReal)
          * ((((Cert.Spec.dinv g c : ℝ) : EReal) * ((Cert.Spec.dinv g c : ℝ) : EReal)) * 1) := by
  have hw : RefFn.wAll (F := Ideal) g (ix1 (loopN (RefDeg.node i c))) = (1 : EReal) := RefEdges.wAll_loop g (RefDeg.node i c)
  rw [msgV_apply _ g _ (loopN (RefDeg.node i c)) f (RefDeg.node i c) (RefDeg.node i c)
      (sAll_loop g (RefDeg.node i c)) (tAll_loop g (RefDeg.node i c)),
    xwV_node, RefDeg.disV_node, hw]

/-! ## The sum at a node -/

/-- The updates that land at (n, f), entry by entry of the edge list. -/
theorem scatter_sum (g : IVec S64x64 32) (M : S532480x128.Idx → EReal) (n : Fin 8192) (f : Fin 128) :
    (∑ j ∈ Finset.univ.filter (fun j : S532480x128.Idx =>
        scatter_S8192x128_S532480x1_S532480x128_1_0_0_1.resultIdx? j (RefFn.wrapIdx (RefFn.tAll g)) = some (ix2 n f)), M j)
      = ∑ e : Fin 532480, ∑ f' : Fin 128,
          if scatter_S8192x128_S532480x1_S532480x128_1_0_0_1.resultIdx? (ix2 e f') (RefFn.wrapIdx (RefFn.tAll g)) = some (ix2 n f)
          then M (ix2 e f') else 0 := by
  rw [Finset.sum_filter, sum_idx2]

/-- Of entry e's 128 updates, the one for feature f lands at (n, f) when e's target is n; no other does. -/
theorem scatter_row (g : IVec S64x64 32) (M : S532480x128.Idx → EReal) (e : Fin 532480) (t n : Fin 8192) (f : Fin 128)
    (ht : RefFn.tAll g (ix1 e) = BitVec.ofNat 32 t.val) :
    (∑ f' : Fin 128,
        if scatter_S8192x128_S532480x1_S532480x128_1_0_0_1.resultIdx? (ix2 e f') (RefFn.wrapIdx (RefFn.tAll g)) = some (ix2 n f)
        then M (ix2 e f') else 0)
      = if t = n then M (ix2 e f) else 0 := by
  have h : ∀ f' : Fin 128,
      scatter_S8192x128_S532480x1_S532480x128_1_0_0_1.resultIdx? (ix2 e f') (RefFn.wrapIdx (RefFn.tAll g)) = some (ix2 n f)
        ↔ (t = n ∧ f' = f) := by
    intro f'
    rw [RefIdx.scatter2_resultIdx (RefFn.tAll g) e f' t ht, Option.some.injEq, ix2_inj]
  by_cases htn : t = n
  · rw [if_pos htn, Finset.sum_eq_single f]
    · rw [if_pos ((h f).mpr ⟨htn, rfl⟩)]
    · intro b _ hb
      rw [if_neg (fun hh => hb ((h b).mp hh).2)]
    · intro hh
      exact absurd (Finset.mem_univ f) hh
  · rw [if_neg htn]
    exact Finset.sum_eq_zero fun b _ => if_neg (fun hh => htn ((h b).mp hh).1)

/-- The zero array the sum starts from. -/
theorem zeros_apply (j : S8192x128.Idx) :
    broadcastInDim S8192x128 ![] bcast_S_S8192x128 (constant (F := Ideal) S_ .f32 0x00000000#32) j = (0 : EReal) :=
  Ideal.ofBits_zero_f32

/-- What a valid edge r → c' contributes at node c: the scaled x · W of its row when c' = c. -/
def contrib (xr : Cert.Spec.SX.Idx → ℝ) (g : IVec S64x64 32) (Wr : Cert.Spec.SW.Idx → ℝ) (i : Fin 128) (c : Fin 64) (f : Fin 128)
    (r c' : Fin 64) : EReal :=
  if c' = c then ((Cert.Spec.xw xr Wr i r f * (Cert.Spec.dinv g r * Cert.Spec.dinv g c) : ℝ) : EReal) else 0

/-- The messages summed at node (i, c), feature f. -/
theorem aggV_node (xr : Cert.Spec.SX.Idx → ℝ) (g : IVec S64x64 32) (Wr : Cert.Spec.SW.Idx → ℝ) (i : Fin 128) (c : Fin 64) (f : Fin 128) :
    RefFn.aggV (F := Ideal) (fun p => ((xr p : ℝ) : EReal)) g (fun p => ((Wr p : ℝ) : EReal)) (ix2 (RefDeg.node i c) f)
      = ((Cert.Spec.agg xr g Wr i c f : ℝ) : EReal) := by
  obtain ⟨rowN, colN, valid, hvalid, hrow, hcol, hsum⟩ := RefNonzero.edges_spec g
  -- the sum of the updates landing at the node, split into the per-copy edges and the self loops
  unfold RefFn.aggV Host.scatterAdd
  rw [Ideal.hostScatterAdd_def]
  unfold Ideal.hostScatterAdd
  rw [zeros_apply, zero_add, scatter_sum, sum_edgesN]
  -- of each entry's updates only feature f's counts, and only when the entry's target is the node
  have hE : ∀ (i' : Fin 128) (k : Fin 4096),
      (∑ f' : Fin 128,
        if scatter_S8192x128_S532480x1_S532480x128_1_0_0_1.resultIdx? (ix2 (edgeN i' k) f') (RefFn.wrapIdx (RefFn.tAll g))
            = some (ix2 (RefDeg.node i c) f)
        then RefFn.msgV (F := Ideal) (fun p => ((xr p : ℝ) : EReal)) g (fun p => ((Wr p : ℝ) : EReal)) (ix2 (edgeN i' k) f') else 0)
      = if RefDeg.node i' (colN k) = RefDeg.node i c
        then RefFn.msgV (F := Ideal) (fun p => ((xr p : ℝ) : EReal)) g (fun p => ((Wr p : ℝ) : EReal)) (ix2 (edgeN i' k) f) else 0 :=
    fun i' k => scatter_row g _ (edgeN i' k) (RefDeg.node i' (colN k)) (RefDeg.node i c) f
      (tAll_edge g rowN colN valid hvalid hrow hcol i' k)
  have hL : ∀ n' : Fin 8192,
      (∑ f' : Fin 128,
        if scatter_S8192x128_S532480x1_S532480x128_1_0_0_1.resultIdx? (ix2 (loopN n') f') (RefFn.wrapIdx (RefFn.tAll g))
            = some (ix2 (RefDeg.node i c) f)
        then RefFn.msgV (F := Ideal) (fun p => ((xr p : ℝ) : EReal)) g (fun p => ((Wr p : ℝ) : EReal)) (ix2 (loopN n') f') else 0)
      = if n' = RefDeg.node i c
        then RefFn.msgV (F := Ideal) (fun p => ((xr p : ℝ) : EReal)) g (fun p => ((Wr p : ℝ) : EReal)) (ix2 (loopN n') f) else 0 :=
    fun n' => scatter_row g _ (loopN n') n' (RefDeg.node i c) f (tAll_loop g n')
  simp only [hE, hL]
  -- the self loops: only the node's own
  rw [Finset.sum_ite_eq' Finset.univ (RefDeg.node i c), if_pos (Finset.mem_univ _), msg_loop]
  -- the edges: only copy i's
  rw [Finset.sum_eq_single i
    (fun b _ hb => Finset.sum_eq_zero fun k _ => if_neg fun h => hb ((node_inj b i (colN k) c).mp h).1)
    (fun h => absurd (Finset.mem_univ i) h)]
  -- a valid edge into column c carries its row's scaled x · W, every other edge nothing
  have hk : ∀ k : Fin 4096,
      (if RefDeg.node i (colN k) = RefDeg.node i c
        then RefFn.msgV (F := Ideal) (fun p => ((xr p : ℝ) : EReal)) g (fun p => ((Wr p : ℝ) : EReal)) (ix2 (edgeN i k) f) else 0)
      = if valid k = true then contrib xr g Wr i c f (rowN k) (colN k) else 0 := by
    intro k
    rw [msg_edge xr g Wr rowN colN valid hvalid hrow hcol i k f]
    unfold contrib
    by_cases hv : valid k = true
    · rw [if_pos hv, if_pos hv, mul_one]
      by_cases hc : colN k = c
      · rw [if_pos ((node_inj i i (colN k) c).mpr ⟨rfl, hc⟩), if_pos hc, hc, ← EReal.coe_mul, ← EReal.coe_mul]
      · rw [if_neg (fun h => hc ((node_inj i i (colN k) c).mp h).2), if_neg hc]
    · rw [if_neg hv, if_neg hv, mul_zero, mul_zero, ite_self]
  rw [Finset.sum_congr rfl fun k _ => hk k, hsum (contrib xr g Wr i c f)]
  -- over the nonzero entries: column c's
  have hr : ∀ r : Fin 64,
      (∑ c' : Fin 64, if g (ix2 r c') = 0#32 then 0 else contrib xr g Wr i c f r c')
        = ((Cert.Spec.adj g r c * (Cert.Spec.xw xr Wr i r f * (Cert.Spec.dinv g r * Cert.Spec.dinv g c)) : ℝ) : EReal) := by
    intro r
    rw [Finset.sum_eq_single c]
    · unfold contrib Cert.Spec.adj
      rw [if_pos (rfl : c = c)]
      by_cases h0 : g (ix2 r c) = 0#32
      · rw [if_pos h0, if_pos h0, zero_mul, EReal.coe_zero]
      · rw [if_neg h0, if_neg h0, one_mul]
    · intro b _ hb
      unfold contrib
      rw [if_neg hb, ite_self]
    · intro h
      exact absurd (Finset.mem_univ c) h
  rw [Finset.sum_congr rfl fun r _ => hr r, ← coe_sum, mul_one, ← EReal.coe_mul, ← EReal.coe_mul, ← EReal.coe_add]
  -- the two sides as real numbers
  congr 1
  unfold Cert.Spec.agg
  have hterm : ∀ r : Fin 64,
      (Cert.Spec.adj g r c + if r = c then 1 else 0) * (Cert.Spec.dinv g c * Cert.Spec.dinv g r) * Cert.Spec.xw xr Wr i r f
        = Cert.Spec.adj g r c * (Cert.Spec.xw xr Wr i r f * (Cert.Spec.dinv g r * Cert.Spec.dinv g c))
          + if r = c then Cert.Spec.xw xr Wr i r f * (Cert.Spec.dinv g r * Cert.Spec.dinv g c) else 0 := by
    intro r
    split_ifs <;> ring
  rw [Finset.sum_congr rfl fun r _ => hterm r, Finset.sum_add_distrib, Finset.sum_ite_eq' Finset.univ c, if_pos (Finset.mem_univ _)]

/-! ## The result -/

/-- For real arrays the reference's result is the specification's. -/
theorem res_real (xr : Cert.Spec.SX.Idx → ℝ) (g : IVec S64x64 32) (Wr : Cert.Spec.SW.Idx → ℝ) (br : Cert.Spec.SB.Idx → ℝ) :
    RefFn.res (F := Ideal) (fun p => ((xr p : ℝ) : EReal)) g (fun p => ((Wr p : ℝ) : EReal)) (fun p => ((br p : ℝ) : EReal))
      = Cert.Spec.G xr g Wr br := by
  funext idx
  obtain ⟨i, c, f, rfl⟩ : ∃ i c f, idx = ix3 i c f := ⟨idx 0, idx 1, idx 2, eq_ix3 idx⟩
  unfold RefFn.res
  refine (shapeCast_apply _ _ _ (ix2 (RefDeg.node i c) f) (by
    rw [Shape.rowMajor_val_two, Shape.rowMajor_val_three]
    show (64 * i.val + c.val) * 128 + f.val = (i.val * 64 + c.val) * 128 + f.val
    omega)).trans ?_
  rw [addf_apply, maximumf_apply, addf_apply, aggV_node, xFlat_apply, zeros_apply]
  have hb : broadcastInDim S8192x128 ![0, 1] bcast_S1x128_S8192x128_0_1
        (broadcastInDim S1x128 ![1] bcast_S128_S1x128_1 (fun p => ((br p : ℝ) : EReal))) (ix2 (RefDeg.node i c) f)
      = ((br (ix1 f) : ℝ) : EReal) := by
    refine (broadcastInDim_apply _ _ _ _ (ix2 (0 : Fin 1) f) (fun a => match a with | ⟨0, _⟩ => rfl | ⟨1, _⟩ => rfl)).trans ?_
    exact broadcastInDim_apply _ _ _ _ (ix1 f) (fun a => match a with | ⟨0, _⟩ => rfl)
  rw [hb]
  show max (((Cert.Spec.agg xr g Wr i c f : ℝ) : EReal) + ((br (ix1 f) : ℝ) : EReal)) 0 + ((xr (ix3 i c f) : ℝ) : EReal)
    = ((Cert.Spec.out xr g Wr br i c f : ℝ) : EReal)
  unfold Cert.Spec.out
  rw [EReal.coe_add, coe_max, EReal.coe_add, EReal.coe_zero]

/-- For real inputs the reference's result is the specification. -/
theorem res_eq (x : S128x64x128.Idx → EReal) (g : IVec S64x64 32) (W : S128x128.Idx → EReal) (b : S128.Idx → EReal)
    (hx : Cert.Spec.IsReal x) (hW : Cert.Spec.IsReal W) (hb : Cert.Spec.IsReal b) :
    RefFn.res (F := Ideal) x g W b = Cert.Spec.GE x g W b := by
  have e := res_real (fun p => (x p).toReal) g (fun p => (W p).toReal) (fun p => (b p).toReal)
  calc RefFn.res (F := Ideal) x g W b
      = RefFn.res (F := Ideal) (fun p => (((x p).toReal : ℝ) : EReal)) g (fun p => (((W p).toReal : ℝ) : EReal))
          (fun p => (((b p).toReal : ℝ) : EReal)) := by
        rw [Cert.Spec.coe_toReal hx, Cert.Spec.coe_toReal hW, Cert.Spec.coe_toReal hb]
    _ = Cert.Spec.GE x g W b := e

end Cert.ReferenceIdeal.RefFloat

end
-- ==== Proof.lean ====
/-
  A graph convolution over 128 copies of one 64-node graph, as a dense kernel and as an edge-list reference.

  The kernel reads the adjacency as numbers and builds once, in a scratch kept between its two grid points, the
  block-diagonal normalised operator  s[c, r] = (g[r, c] + [c = r]) · dinv c · dinv r  with
  dinv = (1 + column sum)^(-1/2); each point applies it to x · W for its 64 copies, adds the bias, takes the maximum
  with 0 and adds x.  The reference lists the nonzero entries of the adjacency as edges (a fixed-size search, padded),
  adds a self loop per node, sums the edge weights at the targets for the degrees and the normalised messages
  x · W at the source for the result.

  The two agree exactly when every adjacency word is 0 or 1 — the reference uses the adjacency only as a mask, the
  kernel as a number — which the precondition states beside the finiteness of the float inputs.  Both results are
  then the one real function `Cert.Spec.G` of the arguments: the kernel's by reading its two stored values entry by
  entry, the reference's because the edge search lists every nonzero entry exactly once, so that a sum over valid
  edges is a sum over nonzero entries.  The idealization rewrote nothing, so there is nothing to preserve.
-/
import proofs.«175083_g12077448036551_cont_sun_c4_50_15_alg».proof.Defs
import proofs.«175083_g12077448036551_cont_sun_c4_50_15_alg».proof.Proof.Gen.Kernel
import proofs.«175083_g12077448036551_cont_sun_c4_50_15_alg».proof.Proof.Gen.Kernel.Frame
import proofs.«175083_g12077448036551_cont_sun_c4_50_15_alg».proof.Proof.Gen.KernelIdeal
import proofs.«175083_g12077448036551_cont_sun_c4_50_15_alg».proof.Proof.Gen.KernelIdeal.Frame
import proofs.«175083_g12077448036551_cont_sun_c4_50_15_alg».proof.Proof.Gen.ReferenceIdeal
import proofs.«175083_g12077448036551_cont_sun_c4_50_15_alg».proof.Proof.Gen.Pre_finite_inputs
import proofs.«175083_g12077448036551_cont_sun_c4_50_15_alg».proof.Proof.PreDecode
import proofs.«175083_g12077448036551_cont_sun_c4_50_15_alg».proof.Proof.KRun
import proofs.«175083_g12077448036551_cont_sun_c4_50_15_alg».proof.Proof.RefRun
import proofs.«175083_g12077448036551_cont_sun_c4_50_15_alg».proof.Proof.RefFloat
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run (Cert.ReferenceIdeal.defs (F := Ideal)) _ _).mono (fun _ h c => (h c).2)
    (Cert.ReferenceIdeal.RefRun.run (F := Ideal) m ρ)

/-- From memories that agree on the arguments both programs end at the specification of those arguments. -/
theorem algebraic : Cert.algebraic_KernelIdeal_ReferenceIdeal := by
  intro m ρ m' ρ' hpre hagree
  have hx := fun c => Cert.PreDecode.real_x _ _ _ _ (hpre c)
  have hW := fun c => Cert.PreDecode.real_W _ _ _ _ (hpre c)
  have hb := fun c => Cert.PreDecode.real_b _ _ _ _ (hpre c)
  have hg := fun c => Cert.PreDecode.graph01 _ _ _ _ (hpre c)
  refine ⟨_, Cert.KernelIdeal.KRun.kernel_run m ρ hx hW hb hg, ?_⟩
  refine (θ_run (Cert.ReferenceIdeal.defs (F := Ideal)) _ _).mono (fun r h c => ?_)
    (Cert.ReferenceIdeal.RefRun.run (F := Ideal) m' ρ')
  obtain ⟨h1, h2⟩ := h c
  obtain ⟨a0, a1, a2, a3⟩ := hagree c
  refine ⟨?_, h2⟩
  rw [h1, a0, a1, a2, a3]
  exact Cert.ReferenceIdeal.RefFloat.res_eq _ _ _ _ (hx c) (hW c) (hb c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
